-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S8x512x512 : Shape := ⟨3, ![8, 512, 512]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x21x512x512 .f32) (main_arg1 : IVec S8x512x512 32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  let main_c_0 : IVec S_ 32 := constantI S_ 32 0#32
  let main_v4 : IVec S8x512x512 32 := broadcastInDim S8x512x512 ![] bcast_S_S8x512x512 main_c_0
  let main_v5 : IVec S8x512x512 1 := cmpi .sge main_arg1 main_v4
  let main_c_1 : IVec S_ 32 := constantI S_ 32 21#32
  let main_v6 : IVec S8x512x512 32 := broadcastInDim S8x512x512 ![] bcast_S_S8x512x512 main_c_1
  let main_v7 : IVec S8x512x512 1 := cmpi .slt main_arg1 main_v6
  let main_v8 : IVec S8x512x512 1 := andi main_v5 main_v7
  let main_c_2 : IVec S_ 1 := constantI S_ 1 1#1
  let main_v9 : IVec S_ 1 := (fun x v => Host.reduce IntOp.andi x v reducesTo_S8x512x512_S_d0_1_2 h_S_) main_v8 main_c_2
  let main_v10 : IVec S_ 1 := andi main_v3 main_v9
  main_v10
-- ==== Kernel.lean ====
abbrev S8x21x512x512 : Shape := ⟨4, ![8, 21, 512, 512]⟩
abbrev S8x512x512 : Shape := ⟨3, ![8, 512, 512]⟩
abbrev S8x1x21 : Shape := ⟨3, ![8, 1, 21]⟩
abbrev S1x512x512 : Shape := ⟨3, ![1, 512, 512]⟩
abbrev S1x1x21 : Shape := ⟨3, ![1, 1, 21]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x21 : Shape := ⟨2, ![1, 21]⟩
abbrev S8x21 : Shape := ⟨2, ![8, 21]⟩
abbrev S_ : Shape := ⟨0, ![]⟩
abbrev S21 : Shape := ⟨1, ![21]⟩
abbrev S8x512x512x1 : Shape := ⟨4, ![8, 512, 512, 1]⟩
abbrev S8x1x1 : Shape := ⟨3, ![8, 1, 1]⟩
abbrev S1x21x512x256 : Shape := ⟨4, ![1, 21, 512, 256]⟩
abbrev S1x512x256 : Shape := ⟨3, ![1, 512, 256]⟩
abbrev S1x1x1 : Shape := ⟨3, ![1, 1, 1]⟩
abbrev S512x256 : Shape := ⟨2, ![512, 256]⟩
abbrev S1x1x512x256 : Shape := ⟨4, ![1, 1, 512, 256]⟩

abbrev nBuf : Space → Nat
  | .hbm => 35
  | .vmem => 13
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x1x21, .f32⟩
  | .hbm, ⟨3, _⟩ => ⟨S8x21, .f32⟩
  | .hbm, ⟨4, _⟩ => ⟨S_, .f32⟩
  | .hbm, ⟨5, _⟩ => ⟨S21, .f32⟩
  | .hbm, ⟨6, _⟩ => ⟨S_, .f32⟩
  | .hbm, ⟨7, _⟩ => ⟨S21, .f32⟩
  | .hbm, ⟨8, _⟩ => ⟨S21, .f32⟩
  | .hbm, ⟨9, _⟩ => ⟨S21, .f32⟩
  | .hbm, ⟨10, _⟩ => ⟨S21, .f32⟩
  | .hbm, ⟨11, _⟩ => ⟨S_, .f32⟩
  | .hbm, ⟨12, _⟩ => ⟨S21, .f32⟩
  | .hbm, ⟨13, _⟩ => ⟨S21, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S21, .f32⟩
  | .hbm, ⟨19, _⟩ => ⟨S21, .f32⟩
  | .hbm, ⟨20, _⟩ => ⟨S_, .i32⟩
  | .hbm, ⟨21, _⟩ => ⟨S8x512x512, .i32⟩
  | .hbm, ⟨22, _⟩ => ⟨S8x512x512, .i1⟩
  | .hbm, ⟨23, _⟩ => ⟨S_, .i32⟩
  | .hbm, ⟨24, _⟩ => ⟨S8x512x512, .i32⟩
  | .hbm, ⟨25, _⟩ => ⟨S8x512x512, .i32⟩
  | .hbm, ⟨26, _⟩ => ⟨S8x512x512, .i32⟩
  | .hbm, ⟨27, _⟩ => ⟨S8x512x512x1, .i32⟩
  | .hbm, ⟨28, _⟩ => ⟨S8x512x512, .f32⟩
  | .hbm, ⟨29, _⟩ => ⟨S8x1x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x512x512, .i32⟩
  | .local _ .vmem, ⟨1, _⟩ => ⟨S1x512x512, .i32⟩
  | .local _ .vmem, ⟨2, _⟩ => ⟨S1x1x21, .f32⟩
  | .local _ .vmem, ⟨3, _⟩ => ⟨S1x1x21, .f32⟩
  | .local _ .vmem, ⟨4, _⟩ => ⟨S1x21x512x256, .f32⟩
  | .local _ .vmem, ⟨5, _⟩ => ⟨S1x21x512x256, .f32⟩
  | .local _ .vmem, ⟨6, _⟩ => ⟨S1x512x256, .i32⟩
  | .local _ .vmem, ⟨7, _⟩ => ⟨S1x512x256, .i32⟩
  | .local _ .vmem, ⟨8, _⟩ => ⟨S1x512x256, .f32⟩
  | .local _ .vmem, ⟨9, _⟩ => ⟨S1x512x256, .f32⟩
  | .local _ .vmem, ⟨10, _⟩ => ⟨S1x1x1, .f32⟩
  | .local _ .vmem, ⟨11, _⟩ => ⟨S1x1x1, .f32⟩
  | .local _ .vmem, ⟨12, _⟩ => ⟨S1x1, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x21 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 2], ![false, false]⟩

def k1_cond2 (i : grid1.Coords) : BitVec 1 :=
  let arg1 : BitVec 32 := BitVec.ofNat 32 (i 1).val
  let c1_i32_227 : BitVec 32 := 1#32
  let v424 : BitVec 1 := Scalar.cmpi .eq arg1 c1_i32_227
  let v425 : BitVec 32 := Scalar.extui v424
  let c0_i32_228 : BitVec 32 := 0#32
  let v426 : BitVec 1 := Scalar.cmpi .ne v425 c0_i32_228
  v426

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x21x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  concatenates_S1x1_S1x1_S1x1_S1x1_S1x1_S1x1_S1x1_S1x1_S1x1_S1x1_S1x1_S1x1_S1x1_S1x1_S1x1_S1x1_S1x1_S1x1_S1x1_S1x1_S1x1_S1x21_d1 : Shape.Concatenates [S1x1, S1x1, S1x1, S1x1, S1x1, S1x1, S1x1, S1x1, S1x1, S1x1, S1x1, S1x1, S1x1, S1x1, S1x1, S1x1, S1x1, S1x1, S1x1, S1x1, S1x1] S1x21 1
  shapeCasts_S1x21_S1x1x21 : S1x21.ShapeCasts S1x1x21
  inb_S1x1x21_S1x1x21_0_0_0 : ∀ a, (![0, 0, 0] : Fin 3 → Nat) a + S1x1x21.size a ≤ S1x1x21.size a
  h_S1x1x21 : 0 < S1x1x21.numel
  shapeCasts_S8x1x21_S8x21 : S8x1x21.ShapeCasts S8x21
  reducesTo_S8x21_S21_d0 : S8x21.ReducesTo [0] S21
  h_S_ : 0 < S_.numel
  bcast_S_S21 : S_.BroadcastsInDim S21 (![] : Fin 0 → Fin S21.rank)
  reducesTo_S21_S_d0 : S21.ReducesTo [0] S_
  bcast_S_S8x512x512 : S_.BroadcastsInDim S8x512x512 (![] : Fin 0 → Fin S8x512x512.rank)
  bcast_S8x512x512_S8x512x512x1_0_1_2 : S8x512x512.BroadcastsInDim S8x512x512x1 (![0, 1, 2] : Fin 3 → Fin S8x512x512x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x21x512x256_S1x1x512x256_0_0_0_0 : ∀ a, (![0, 0, 0, 0] : Fin 4 → Nat) a + S1x1x512x256.size a ≤ S1x21x512x256.size a
  h_S1x1x512x256 : 0 < S1x1x512x256.numel
  shapeCasts_S1x1x512x256_S512x256 : S1x1x512x256.ShapeCasts S512x256
  inb_S1x21x512x256_S1x1x512x256_0_1_0_0 : ∀ a, (![0, 1, 0, 0] : Fin 4 → Nat) a + S1x1x512x256.size a ≤ S1x21x512x256.size a
  inb_S1x21x512x256_S1x1x512x256_0_2_0_0 : ∀ a, (![0, 2, 0, 0] : Fin 4 → Nat) a + S1x1x512x256.size a ≤ S1x21x512x256.size a
  inb_S1x21x512x256_S1x1x512x256_0_3_0_0 : ∀ a, (![0, 3, 0, 0] : Fin 4 → Nat) a + S1x1x512x256.size a ≤ S1x21x512x256.size a
  inb_S1x21x512x256_S1x1x512x256_0_4_0_0 : ∀ a, (![0, 4, 0, 0] : Fin 4 → Nat) a + S1x1x512x256.size a ≤ S1x21x512x256.size a
  inb_S1x21x512x256_S1x1x512x256_0_5_0_0 : ∀ a, (![0, 5, 0, 0] : Fin 4 → Nat) a + S1x1x512x256.size a ≤ S1x21x512x256.size a
  inb_S1x21x512x256_S1x1x512x256_0_6_0_0 : ∀ a, (![0, 6, 0, 0] : Fin 4 → Nat) a + S1x1x512x256.size a ≤ S1x21x512x256.size a
  inb_S1x21x512x256_S1x1x512x256_0_7_0_0 : ∀ a, (![0, 7, 0, 0] : Fin 4 → Nat) a + S1x1x512x256.size a ≤ S1x21x512x256.size a
  inb_S1x21x512x256_S1x1x512x256_0_8_0_0 : ∀ a, (![0, 8, 0, 0] : Fin 4 → Nat) a + S1x1x512x256.size a ≤ S1x21x512x256.size a
  inb_S1x21x512x256_S1x1x512x256_0_9_0_0 : ∀ a, (![0, 9, 0, 0] : Fin 4 → Nat) a + S1x1x512x256.size a ≤ S1x21x512x256.size a
  inb_S1x21x512x256_S1x1x512x256_0_10_0_0 : ∀ a, (![0, 10, 0, 0] : Fin 4 → Nat) a + S1x1x512x256.size a ≤ S1x21x512x256.size a
  inb_S1x21x512x256_S1x1x512x256_0_11_0_0 : ∀ a, (![0, 11, 0, 0] : Fin 4 → Nat) a + S1x1x512x256.size a ≤ S1x21x512x256.size a
  inb_S1x21x512x256_S1x1x512x256_0_12_0_0 : ∀ a, (![0, 12, 0, 0] : Fin 4 → Nat) a + S1x1x512x256.size a ≤ S1x21x512x256.size a
  inb_S1x21x512x256_S1x1x512x256_0_13_0_0 : ∀ a, (![0, 13, 0, 0] : Fin 4 → Nat) a + S1x1x512x256.size a ≤ S1x21x512x256.size a
  inb_S1x21x512x256_S1x1x512x256_0_14_0_0 : ∀ a, (![0, 14, 0, 0] : Fin 4 → Nat) a + S1x1x512x256.size a ≤ S1x21x512x256.size a
  inb_S1x21x512x256_S1x1x512x256_0_15_0_0 : ∀ a, (![0, 15, 0, 0] : Fin 4 → Nat) a + S1x1x512x256.size a ≤ S1x21x512x256.size a
  inb_S1x21x512x256_S1x1x512x256_0_16_0_0 : ∀ a, (![0, 16, 0, 0] : Fin 4 → Nat) a + S1x1x512x256.size a ≤ S1x21x512x256.size a
  inb_S1x21x512x256_S1x1x512x256_0_17_0_0 : ∀ a, (![0, 17, 0, 0] : Fin 4 → Nat) a + S1x1x512x256.size a ≤ S1x21x512x256.size a
  inb_S1x21x512x256_S1x1x512x256_0_18_0_0 : ∀ a, (![0, 18, 0, 0] : Fin 4 → Nat) a + S1x1x512x256.size a ≤ S1x21x512x256.size a
  inb_S1x21x512x256_S1x1x512x256_0_19_0_0 : ∀ a, (![0, 19, 0, 0] : Fin 4 → Nat) a + S1x1x512x256.size a ≤ S1x21x512x256.size a
  inb_S1x21x512x256_S1x1x512x256_0_20_0_0 : ∀ a, (![0, 20, 0, 0] : Fin 4 → Nat) a + S1x1x512x256.size a ≤ S1x21x512x256.size a
  reduces_S512x256_S512 : S512x256.Reduces [1] S512
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  shapeCasts_S_S_ : S_.ShapeCasts S_
  gather_S21_S8x512x512x1_S8x512x512_n_0_n_n_0_3_1_wf : GatherDims.WF S21 S8x512x512x1 S8x512x512 [] [0] [] [0] [] 3 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x512x512.size a
  hwx0_0 : ∀ i : grid0.Coords, EltTy.bits .i32 = 32 ∨ (Rect.block (s := S8x512x512) S1x512x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x21.size a ≤ S8x1x21.size a
  hwx0_1 : ∀ i : grid0.Coords, EltTy.bits .f32 = 32 ∨ (Rect.block (s := S8x1x21) S1x1x21.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x21x512x256.size a ≤ S8x21x512x512.size a
  hwx1_0 : ∀ i : grid1.Coords, EltTy.bits .f32 = 32 ∨ (Rect.block (s := S8x21x512x512) S1x21x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S8x512x512.size a
  hwx1_1 : ∀ i : grid1.Coords, EltTy.bits .i32 = 32 ∨ (Rect.block (s := S8x512x512) S1x512x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x256.size a ≤ S8x512x512.size a
  hwx1_2 : ∀ i : grid1.Coords, EltTy.bits .f32 = 32 ∨ (Rect.block (s := S8x512x512) S1x512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S8x1x1.size a
  hwx1_3 : ∀ i : grid1.Coords, EltTy.bits .f32 = 32 ∨ (Rect.block (s := S8x1x1) S1x1x1.size (cc1_transform_3 i) (hinb1_3 i)).WholeWords (EltTy.packing .f32)

variable [Facts₀]

def gather_S21_S8x512x512x1_S8x512x512_n_0_n_n_0_3_1 : GatherDims S21 S8x512x512x1 S8x512x512 where
  offsetDims := []
  collapsedSliceDims := [0]
  operandBatchingDims := []
  startIndicesBatchingDims := []
  startIndexMap := [0]
  indexVectorDim := 3
  sliceSizes := ![1]
  wf := gather_S21_S8x512x512x1_S8x512x512_n_0_n_n_0_3_1_wf

abbrev win0_0 : Pipeline.Window sig grid0 :=
  Pipeline.Window.ofSpec (Memref.whole main_arg1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x21.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x21x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x21x512x512 : Shape := ⟨4, ![8, 21, 512, 512]⟩
abbrev S8x512x512 : Shape := ⟨3, ![8, 512, 512]⟩
abbrev S2097152 : Shape := ⟨1, ![2097152]⟩
abbrev S_ : Shape := ⟨0, ![]⟩
abbrev S21 : Shape := ⟨1, ![21]⟩
abbrev S2097152x1 : Shape := ⟨2, ![2097152, 1]⟩
abbrev S8x512x512x21 : Shape := ⟨4, ![8, 512, 512, 21]⟩
abbrev S2097152x21 : Shape := ⟨2, ![2097152, 21]⟩
abbrev S1x21 : Shape := ⟨2, ![1, 21]⟩
abbrev S2097152x1x1 : Shape := ⟨3, ![2097152, 1, 1]⟩
abbrev S1 : Shape := ⟨1, ![1]⟩
abbrev S1x1x1 : Shape := ⟨3, ![1, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S2097152, .i32⟩
  | .hbm, ⟨3, _⟩ => ⟨S_, .f32⟩
  | .hbm, ⟨4, _⟩ => ⟨S21, .f32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S_, .f32⟩
  | .hbm, ⟨14, _⟩ => ⟨S2097152, .f32⟩
  | .hbm, ⟨15, _⟩ => ⟨S21, .f32⟩
  | .hbm, ⟨16, _⟩ => ⟨S_, .f32⟩
  | .hbm, ⟨17, _⟩ => ⟨S21, .f32⟩
  | .hbm, ⟨18, _⟩ => ⟨S21, .f32⟩
  | .hbm, ⟨19, _⟩ => ⟨S21, .f32⟩
  | .hbm, ⟨20, _⟩ => ⟨S21, .f32⟩
  | .hbm, ⟨21, _⟩ => ⟨S_, .f32⟩
  | .hbm, ⟨22, _⟩ => ⟨S21, .f32⟩
  | .hbm, ⟨23, _⟩ => ⟨S21, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S21, .f32⟩
  | .hbm, ⟨29, _⟩ => ⟨S21, .f32⟩
  | .hbm, ⟨30, _⟩ => ⟨S8x512x512x21, .f32⟩
  | .hbm, ⟨31, _⟩ => ⟨S2097152x21, .f32⟩
  | .hbm, ⟨32, _⟩ => ⟨S_, .i32⟩
  | .hbm, ⟨33, _⟩ => ⟨S2097152, .i32⟩
  | .hbm, ⟨34, _⟩ => ⟨S2097152, .i1⟩
  | .hbm, ⟨35, _⟩ => ⟨S_, .i32⟩
  | .hbm, ⟨36, _⟩ => ⟨S2097152, .i32⟩
  | .hbm, ⟨37, _⟩ => ⟨S2097152, .i32⟩
  | .hbm, ⟨38, _⟩ => ⟨S2097152, .i32⟩
  | .hbm, ⟨39, _⟩ => ⟨S2097152x1, .i32⟩
  | .hbm, ⟨40, _⟩ => ⟨S2097152, .f32⟩
  | .hbm, ⟨41, _⟩ => ⟨S2097152x1, .i32⟩
  | .hbm, ⟨42, _⟩ => ⟨S1x21, .i32⟩
  | .hbm, ⟨43, _⟩ => ⟨S2097152x21, .i32⟩
  | .hbm, ⟨44, _⟩ => ⟨S2097152x21, .i32⟩
  | .hbm, ⟨45, _⟩ => ⟨S2097152x21, .i1⟩
  | .hbm, ⟨46, _⟩ => ⟨S2097152x21, .f32⟩
  | .hbm, ⟨47, _⟩ => ⟨S2097152x1, .f32⟩
  | .hbm, ⟨48, _⟩ => ⟨S2097152x21, .f32⟩
  | .hbm, ⟨49, _⟩ => ⟨S2097152x21, .f32⟩
  | .hbm, ⟨50, _⟩ => ⟨S2097152x21, .f32⟩
  | .hbm, ⟨51, _⟩ => ⟨S_, .f32⟩
  | .hbm, ⟨52, _⟩ => ⟨S2097152x21, .f32⟩
  | .hbm, ⟨53, _⟩ => ⟨S2097152x21, .f32⟩
  | .hbm, ⟨54, _⟩ => ⟨S_, .f32⟩
  | .hbm, ⟨55, _⟩ => ⟨S2097152, .f32⟩
  | .hbm, ⟨56, _⟩ => ⟨S_, .f32⟩
  | .hbm, ⟨57, _⟩ => ⟨S2097152, .f32⟩
  | .hbm, ⟨58, _⟩ => ⟨S2097152, .f32⟩
  | .hbm, ⟨59, _⟩ => ⟨S2097152x1, .f32⟩
  | .hbm, ⟨60, _⟩ => ⟨S2097152x21, .f32⟩
  | .hbm, ⟨61, _⟩ => ⟨S2097152x21, .f32⟩
  | .hbm, ⟨62, _⟩ => ⟨S2097152x21, .f32⟩
  | .hbm, ⟨63, _⟩ => ⟨S_, .f32⟩
  | .hbm, ⟨64, _⟩ => ⟨S2097152, .f32⟩
  | .hbm, ⟨65, _⟩ => ⟨S2097152x1, .f32⟩
  | .hbm, ⟨66, _⟩ => ⟨S2097152x1, .f32⟩
  | .hbm, ⟨67, _⟩ => ⟨S2097152x21, .f32⟩
  | .hbm, ⟨68, _⟩ => ⟨S2097152x21, .f32⟩
  | .hbm, ⟨69, _⟩ => ⟨S2097152x1, .i32⟩
  | .hbm, ⟨70, _⟩ => ⟨S_, .i32⟩
  | .hbm, ⟨71, _⟩ => ⟨S2097152x1, .i32⟩
  | .hbm, ⟨72, _⟩ => ⟨S2097152x1, .i1⟩
  | .hbm, ⟨73, _⟩ => ⟨S_, .i32⟩
  | .hbm, ⟨74, _⟩ => ⟨S2097152x1, .i32⟩
  | .hbm, ⟨75, _⟩ => ⟨S2097152x1, .i32⟩
  | .hbm, ⟨76, _⟩ => ⟨S2097152x1, .i32⟩
  | .hbm, ⟨77, _⟩ => ⟨S2097152x1x1, .i32⟩
  | .hbm, ⟨78, _⟩ => ⟨S1, .i32⟩
  | .hbm, ⟨79, _⟩ => ⟨S_, .i32⟩
  | .hbm, ⟨80, _⟩ => ⟨S2097152x1x1, .i32⟩
  | .hbm, ⟨81, _⟩ => ⟨S2097152x1x1, .i1⟩
  | .hbm, ⟨82, _⟩ => ⟨S1x1x1, .i32⟩
  | .hbm, ⟨83, _⟩ => ⟨S2097152x1x1, .i32⟩
  | .hbm, ⟨84, _⟩ => ⟨S2097152x1x1, .i1⟩
  | .hbm, ⟨85, _⟩ => ⟨S2097152x1x1, .i1⟩
  | .hbm, ⟨86, _⟩ => ⟨S_, .i1⟩
  | .hbm, ⟨87, _⟩ => ⟨S2097152x1, .i1⟩
  | .hbm, ⟨88, _⟩ => ⟨S2097152x1, .f32⟩
  | .hbm, ⟨89, _⟩ => ⟨S_, .f32⟩
  | .hbm, ⟨90, _⟩ => ⟨S2097152x1, .f32⟩
  | .hbm, ⟨91, _⟩ => ⟨S2097152x1, .f32⟩
  | .hbm, ⟨92, _⟩ => ⟨S2097152, .f32⟩
  | .hbm, ⟨93, _⟩ => ⟨S2097152, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_call1_cst_0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_cst_1 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_v36 : Ref sig .tc := ⟨.hbm, 68, rfl⟩
abbrev main_v37 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_cst : Ref sig .tc := ⟨.hbm, 89, rfl⟩
abbrev main_call2_v14 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_9 : Ref sig .tc := ⟨.hbm, 94, rfl⟩
abbrev main_v41 : Ref sig .tc := ⟨.hbm, 95, rfl⟩
abbrev main_cst_10 : Ref sig .tc := ⟨.hbm, 96, rfl⟩
abbrev main_v42 : Ref sig .tc := ⟨.hbm, 97, rfl⟩

abbrev nD : Nat := 1
abbrev τ : Topo := Topo.v7x

variable {F : FTy → Type} [FloatOps F]

class Facts₀ : Prop where
  shapeCasts_S8x512x512_S2097152 : S8x512x512.ShapeCasts S2097152
  bcast_S_S21 : S_.BroadcastsInDim S21 (![] : Fin 0 → Fin S21.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  reducesTo_S21_S_d0 : S21.ReducesTo [0] S_
  h_S_ : 0 < S_.numel
  transposes_S8x21x512x512_S8x512x512x21_0_2_3_1 : S8x21x512x512.Transposes [0, 2, 3, 1] S8x512x512x21
  shapeCasts_S8x512x512x21_S2097152x21 : S8x512x512x21.ShapeCasts S2097152x21
  bcast_S2097152x1_S2097152x21_0_1 : S2097152x1.BroadcastsInDim S2097152x21 (![0, 1] : Fin 2 → Fin S2097152x21.rank)
  bcast_S1x21_S2097152x21_0_1 : S1x21.BroadcastsInDim S2097152x21 (![0, 1] : Fin 2 → Fin S2097152x21.rank)
  bcast_S_S2097152x21 : S_.BroadcastsInDim S2097152x21 (![] : Fin 0 → Fin S2097152x21.rank)
  reducesTo_S2097152x21_S2097152_d1 : S2097152x21.ReducesTo [1] S2097152
  bcast_S_S2097152x1 : S_.BroadcastsInDim S2097152x1 (![] : Fin 0 → Fin S2097152x1.rank)
  shapeCasts_S2097152x1_S2097152x1x1 : S2097152x1.ShapeCasts S2097152x1x1
  bcast_S_S2097152x1x1 : S_.BroadcastsInDim S2097152x1x1 (![] : Fin 0 → Fin S2097152x1x1.rank)
  bcast_S1_S1x1x1_2 : S1.BroadcastsInDim S1x1x1 (![2] : Fin 1 → Fin S1x1x1.rank)
  bcast_S1x1x1_S2097152x1x1_0_1_2 : S1x1x1.BroadcastsInDim S2097152x1x1 (![0, 1, 2] : Fin 3 → Fin S2097152x1x1.rank)
  reducesTo_S2097152x1x1_S2097152x1_d2 : S2097152x1x1.ReducesTo [2] S2097152x1
  shapeCasts_S2097152x1_S2097152 : S2097152x1.ShapeCasts S2097152
  reducesTo_S2097152_S_d0 : S2097152.ReducesTo [0] S_
  scatter_S21_S2097152x1_S2097152_n_0_0_1_wf : ScatterDims.WF S21 S2097152x1 S2097152 [] [0] [0] 1
  gather_S21_S2097152x1_S2097152_n_0_n_n_0_1_1_wf : GatherDims.WF S21 S2097152x1 S2097152 [] [0] [] [0] [] 1 ![1]
  gather_S2097152x21_S2097152x1x1_S2097152x1_n_1_0_0_1_2_11_wf : GatherDims.WF S2097152x21 S2097152x1x1 S2097152x1 [] [1] [0] [1] [0] 2 ![1, 1]

variable [Facts₀]

def scatter_S21_S2097152x1_S2097152_n_0_0_1 : ScatterDims S21 S2097152x1 S2097152 where
  updateWindowDims := []
  insertedWindowDims := [0]
  scatterDimsToOperandDims := [0]
  indexVectorDim := 1
  wf := scatter_S21_S2097152x1_S2097152_n_0_0_1_wf
def gather_S21_S2097152x1_S2097152_n_0_n_n_0_1_1 : GatherDims S21 S2097152x1 S2097152 where
  offsetDims := []
  collapsedSliceDims := [0]
  operandBatchingDims := []
  startIndicesBatchingDims := []
  startIndexMap := [0]
  indexVectorDim := 1
  sliceSizes := ![1]
  wf := gather_S21_S2097152x1_S2097152_n_0_n_n_0_1_1_wf
def gather_S2097152x21_S2097152x1x1_S2097152x1_n_1_0_0_1_2_11 : GatherDims S2097152x21 S2097152x1x1 S2097152x1 where
  offsetDims := []
  collapsedSliceDims := [1]
  operandBatchingDims := [0]
  startIndicesBatchingDims := [0]
  startIndexMap := [1]
  indexVectorDim := 2
  sliceSizes := ![1, 1]
  wf := gather_S2097152x21_S2097152x1x1_S2097152x1_n_1_0_0_1_2_11_wf

class Facts : Prop extends Facts₀ where

variable [Facts]
-- ==== Proof.K.Run.lean ====
/-
  The run of the whole program, from the launch to the return: @main is a kernel region (the per-batch class
  counts), a stretch of host operations (the margins and their gather), a second kernel region (the per-batch
  summed loss) and a last host stretch (the mean). The buffer contents at each boundary are a fold from the
  launch memory: a host stretch applies its operations, a region replaces its output array by what its
  write-backs leave. Every weakly fair execution terminates, and every unscoped buffer ends at the last fold
  (`run_main`); the argument arrays are never written, so they end as launched.
  What the run needs of each region is collected in a record (`Region0`, `Region1`): the pipeline's proof data at
  the region's entry contents, its body obligation, and how the region invariant begins and ends.
-/
import proofs.«419586_j34471407518059_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A core's buffer contents at a region's entry, read at the TensorCore's references. -/
abbrev Entry (F : FTy → Type) : Type := (c : Dev nD) → (b : Ref sig .tc) → Buf (Elt F) ((c : Thread nD τ).loc b)

/-- What the run takes of region 0: proof data at any entry contents whose arrays are those contents, with full
    shares and nothing owed, the body obligation, and the class invariant at both ends. -/
structure Region0 (F : FTy → Type) [FloatOps F] where
  dat : Entry F → (c : Dev nD) → Dat τ (Elt F) Unit ℕ (UR sig nD τ) ℕ cfg0 c
  A_eq : ∀ (V : Entry F) (c : Dev nD) (w : Fin cfg0.W), (dat V c).A w = V c (Pipeline.arrRef spec0 w)
  q_eq : ∀ (V : Entry F) (c : Dev nD) (w : Fin cfg0.W), (dat V c).q w = fullShare
  owed_eq : ∀ (V : Entry F) (c : Dev nD) t, (dat V c).owed t = 0
  recorded_eq : ∀ (V : Entry F) (c : Dev nD) t, (dat V c).recorded t = Set.univ
  body : ∀ (V : Entry F) (c : Dev nD), BodyObligation (dat V c) (defs₀ (F := F)) Variants.none () Set.univ
  hin : ∀ (V : Entry F) (c : Dev nD), (Pipeline.ΦA spec0 c : sProp (MT nD τ sig Unit (Elt F) ℕ (UR sig nD τ) ℕ)) ⊢ (dat V c).Φ 0
  hout : ∀ (V : Entry F) (c : Dev nD), (dat V c).Φ (Fin.last cfg0.N) ⊢ (Pipeline.ΦA spec0 c : sProp (MT nD τ sig Unit (Elt F) ℕ (UR sig nD τ) ℕ))

/-- The same of region 1. -/
structure Region1 (F : FTy → Type) [FloatOps F] where
  dat : Entry F → (c : Dev nD) → Dat τ (Elt F) Unit ℕ (UR sig nD τ) ℕ cfg1 c
  A_eq : ∀ (V : Entry F) (c : Dev nD) (w : Fin cfg1.W), (dat V c).A w = V c (Pipeline.arrRef spec1 w)
  q_eq : ∀ (V : Entry F) (c : Dev nD) (w : Fin cfg1.W), (dat V c).q w = fullShare
  owed_eq : ∀ (V : Entry F) (c : Dev nD) t, (dat V c).owed t = 0
  recorded_eq : ∀ (V : Entry F) (c : Dev nD) t, (dat V c).recorded t = Set.univ
  body : ∀ (V : Entry F) (c : Dev nD), BodyObligation (dat V c) (defs₀ (F := F)) Variants.none () Set.univ
  hin : ∀ (V : Entry F) (c : Dev nD), (Pipeline.ΦA spec1 c : sProp (MT nD τ sig Unit (Elt F) ℕ (UR sig nD τ) ℕ)) ⊢ (dat V c).Φ 0
  hout : ∀ (V : Entry F) (c : Dev nD), (dat V c).Φ (Fin.last cfg1.N) ⊢ (Pipeline.ΦA spec1 c : sProp (MT nD τ sig Unit (Elt F) ℕ (UR sig nD τ) ℕ))

variable {F : FTy → Type} [FloatOps F]

local notation "𝕄" => MT nD τ sig Unit (Elt F) ℕ (UR sig nD τ) ℕ

variable (D0 : Region0 F) (D1 : Region1 F)
variable (m : (ℓ : Loc nD τ sig) → Buf (Elt F) ℓ) (ρ : Dev nD → PrngReg)

/-! ## The buffer contents at each boundary -/

/-- At launch (region 0's entry). -/
abbrev W0 : Dev nD → Valuation τ sig (Elt F) := fun c b => m ((c : Dev nD), b)
abbrev V0 : Entry F := fun c b => W0 m c b
/-- At region 0's exit: its arrays at what the pipeline leaves, every other buffer as entered. -/
def W1 (c : Dev nD) : Valuation τ sig (Elt F) :=
  Pipeline.withArrays spec0 c (W0 m c) fun w => (D0.dat (V0 m) c).arrAt w cfg0.N
theorem W1_arr (c : Dev nD) (w : Fin cfg0.W) :
    W1 D0 m c (Proc.devRef .tc (Pipeline.arrRef spec0 w)) = (D0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 D0 m c (Proc.devRef .tc b) = W0 m c (Proc.devRef .tc b) := by
  unfold W1; exact Pipeline.withArrays_of_ne spec0 c _ _ b hb
abbrev V1 : Entry F := fun c b => W1 D0 m c b
theorem hF0 (c : Dev nD) (w : Fin cfg0.W) : (D0.dat (V0 m) c).arrAt w cfg0.N = V1 D0 m c (Pipeline.arrRef spec0 w) :=
  (W1_arr D0 m c w).symm
theorem hrest0 (c : Dev nD) : ∀ b, b ∉ Finset.univ.image (Pipeline.arrRef spec0) → V1 D0 m c b = V0 m c b :=
  fun b hb => W1_of_ne D0 m c b fun w e => hb (Finset.mem_image.mpr ⟨w, Finset.mem_univ _, e⟩)

/-- After the first host stretch (region 1's entry). -/
abbrev W2 : Dev nD → Valuation τ sig (Elt F) := fun c => StableHlo.after hostOps1 (W1 D0 m c)
abbrev V2 : Entry F := fun c b => W2 D0 m c b
/-- At region 1's exit. -/
def W3 (c : Dev nD) : Valuation τ sig (Elt F) :=
  Pipeline.withArrays spec1 c (W2 D0 m c) fun w => (D1.dat (V2 D0 m) c).arrAt w cfg1.N
theorem W3_arr (c : Dev nD) (w : Fin cfg1.W) :
    W3 D0 D1 m c (Proc.devRef .tc (Pipeline.arrRef spec1 w)) = (D1.dat (V2 D0 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 D0 D1 m c (Proc.devRef .tc b) = W2 D0 m c (Proc.devRef .tc b) := by
  unfold W3; exact Pipeline.withArrays_of_ne spec1 c _ _ b hb
abbrev V3 : Entry F := fun c b => W3 D0 D1 m c b
theorem hF1 (c : Dev nD) (w : Fin cfg1.W) : (D1.dat (V2 D0 m) c).arrAt w cfg1.N = V3 D0 D1 m c (Pipeline.arrRef spec1 w) :=
  (W3_arr D0 D1 m c w).symm
theorem hrest1 (c : Dev nD) : ∀ b, b ∉ Finset.univ.image (Pipeline.arrRef spec1) → V3 D0 D1 m c b = V2 D0 m c b :=
  fun b hb => W3_of_ne D0 D1 m c b fun w e => hb (Finset.mem_image.mpr ⟨w, Finset.mem_univ _, e⟩)
/-- After the last host stretch: the contents at the return. -/
abbrev W4 : Dev nD → Valuation τ sig (Elt F) := fun c => StableHlo.after hostOps2 (W3 D0 D1 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => D0.dat (V0 m) c
  | ⟨1, _⟩ => fun c => D1.dat (V2 D0 m) c
abbrev 𝒱₀ : Variants := Variants.none
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at the launch contents, left at `W1`. -/
def reg0 : Pipeline.RegionSeg (pcfgs (F := F)) adm (pdats D0 D1 m) () defs₀ 𝒱₀ L lv 0 where
  win := launch0.win.to₀
  block_pos := launch0.block_pos
  stage_whole := launch0.stage_whole
  K := PEmpty
  osem k := k.elim
  ho := Pipeline.OwnSemFacts.none _
  hbody c := (D0.body (V0 m) c).loose
  hwaits := Pipeline.hwaits_of_owed_zero _ _ _ _ L lv 0 fun c t => D0.owed_eq (V0 m) c t
  pre c := iprop(StableHlo.held (c : Thread nD τ) (Pipeline.ucRefs τ sig) (W0 m c) ∗ R c)
  post c := iprop(StableHlo.held (c : Thread nD τ) (Pipeline.ucRefs τ sig) (W1 D0 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats D0 D1 m) launch0.win launch0.arr_whole c
      ((pdats D0 D1 m 0 c).share_full fun w => D0.q_eq (V0 m) c w) (V0 m c) fun w => D0.A_eq (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats D0 D1 m 0 c).recorded 0 = Set.univ from D0.recorded_eq (V0 m) c 0]; trivial)
      rw [show (pdats D0 D1 m 0 c).owed 0 = 0 from D0.owed_eq (V0 m) c 0]
      iexact HO
    isplitl [Hp]; · iexact Hp
    iexact Hrest
  hin c := by
    refine BIBase.Entails.trans ?_ (D0.hin (V0 m) c)
    unfold Pipeline.ΦA
    iintro ⟨Hp, -, Hr⟩
    isplitl [Hr]; · iexact Hr
    iexact Hp
  hout c := by
    rw [Pipeline.ownSems0_none]
    refine BIBase.Entails.trans (D0.hout (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D0 D1 m) ((pdats D0 D1 m 0 c).share_full fun w => D0.q_eq (V0 m) c w)
      (V0 m c) (V1 D0 m c) ((pdats D0 D1 m 0 c).arrAt · cfg0.N) (hF0 D0 m c) (hrest0 D0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats D0 D1 m 0 c).owed (Fin.last _) = 0 from D0.owed_eq (V0 m) c _]
    iexact HO

set_option backward.isDefEq.respectTransparency.types false in
/-- Region 1 over the thread state: entered from every unscoped buffer at `W2`, left at `W3`. -/
def reg1 : Pipeline.RegionSeg (pcfgs (F := F)) adm (pdats D0 D1 m) () defs₀ 𝒱₀ L lv 1 where
  win := launch1.win.to₀
  block_pos := launch1.block_pos
  stage_whole := launch1.stage_whole
  K := PEmpty
  osem k := k.elim
  ho := Pipeline.OwnSemFacts.none _
  hbody c := (D1.body (V2 D0 m) c).loose
  hwaits := Pipeline.hwaits_of_owed_zero _ _ _ _ L lv 1 fun c t => D1.owed_eq (V2 D0 m) c t
  pre c := iprop(StableHlo.held (c : Thread nD τ) (Pipeline.ucRefs τ sig) (W2 D0 m c) ∗ R c)
  post c := iprop(StableHlo.held (c : Thread nD τ) (Pipeline.ucRefs τ sig) (W3 D0 D1 m c) ∗ R c)
  X c := iprop(∃ r, prngReg c r)
  Y c := iprop(∃ r, prngReg c r)
  Z c := Pipeline.unscopedRest (Ix := Unit) (Name := ℕ) (U := UR sig nD τ) (Lvl := ℕ) spec1 c (V2 D0 m c)
  hentry c := by
    rw [Pipeline.ownSems0_none]
    have hsplit := Pipeline.arrays_of_unscopedBufs (p := 1) (pcfgs (F := F)) adm (pdats D0 D1 m) launch1.win launch1.arr_whole c
      ((pdats D0 D1 m 1 c).share_full fun w => D1.q_eq (V2 D0 m) c w) (V2 D0 m c) fun w => D1.A_eq (V2 D0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats D0 D1 m 1 c).recorded 0 = Set.univ from D1.recorded_eq (V2 D0 m) c 0]; trivial)
      rw [show (pdats D0 D1 m 1 c).owed 0 = 0 from D1.owed_eq (V2 D0 m) c 0]
      iexact HO
    isplitl [Hp]; · iexact Hp
    iexact Hrest
  hin c := by
    refine BIBase.Entails.trans ?_ (D1.hin (V2 D0 m) c)
    unfold Pipeline.ΦA
    iintro ⟨Hp, -, Hr⟩
    isplitl [Hr]; · iexact Hr
    iexact Hp
  hout c := by
    rw [Pipeline.ownSems0_none]
    refine BIBase.Entails.trans (D1.hout (V2 D0 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D0 D1 m) ((pdats D0 D1 m 1 c).share_full fun w => D1.q_eq (V2 D0 m) c w)
      (V2 D0 m c) (V3 D0 D1 m c) ((pdats D0 D1 m 1 c).arrAt · cfg1.N) (hF1 D0 D1 m c) (hrest1 D0 D1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats D0 D1 m 1 c).owed (Fin.last _) = 0 from D1.owed_eq (V2 D0 m) c _]
    iexact HO

/-! ## @main as segments, and the launch -/

abbrev segs : List (Pipeline.Seg (pcfgs (F := F)) adm (pdats D0 D1 m) () defs₀ 𝒱₀ L lv) :=
  [ .region (reg0 D0 D1 m),
    .host (hseg hostOps1 hostOps1_sub hostOps1_fresh (W1 D0 m)),
    .region (reg1 D0 D1 m),
    .host (hseg hostOps2 hostOps2_sub hostOps2_fresh (W3 D0 D1 m)) ]

theorem main_run (c : Dev nD) : main (F := F) c = Pipeline.Seg.run (segs D0 D1 m) := (main_chain c).trans (by chain_rfl)

set_option backward.isDefEq.respectTransparency.types false in
/-- Every weakly fair execution of @main from any memory with zero counters terminates, nothing faulting, and
    every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 D0 D1 m c b) :=
  Pipeline.θ_run_regions_kit (pcfgs (F := F)) adm (pdats D0 D1 m) () cellOf_inj emb₁ defs₀ 𝒱₀ L lv m ρ main (segs D0 D1 m)
    (fun c Q => by rw [main_run D0 D1 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 D0 D1 m c) ∗ ∃ r, prngReg c r))
    (hch := ⟨fun _ => .rfl, fun _ => .rfl, fun _ => .rfl, fun _ => .rfl, fun c => by
      show iprop(StableHlo.held (c : Thread nD τ) (Pipeline.ucRefs τ sig) (StableHlo.after hostOps2 (W3 D0 D1 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 D0 D1 m c b)
    (hfin := fun c s' => by
      iintro ⟨⟨Hh, -⟩, HSI⟩
      unfold StableHlo.held
      imodintro
      iapply (pointsTo_read_all (Pipeline.ucRefs τ sig) (fun b => (((c : Thread nD τ)).1, b)) (W4 D0 D1 m c) s')
      isplitl [Hh] <;> iassumption)
    (hQ := fun s h c => h c)

end Cert.Kernel.Hand

end
-- ==== Proof.K.Region0.lean ====
/- REGION 0 of the kernel program (custom_call 0, the per-class pixel counts): the frame half, at a parameter
   V — the core's buffer contents when the region is entered. Each window's block at a point, what the body's one
   store leaves in the output window's buffer as a function of the input block, the body's triple, the proof data
   and the body obligation. Generic in the float type. -/
import proofs.«419586_j34471407518059_3_alg».proof.Proof.Gen.Kernel.Launch
import proofs.«419586_j34471407518059_3_alg».proof.Proof.Gen.Kernel.Skeleton
import proofs.«419586_j34471407518059_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input block (the one load). -/
abbrev r0_0 : Rect S1x512x512 := Rect.unit (s := S1x512x512) ![0, 0, 0] S1x512x512.size inb_S1x512x512_S1x512x512_0_0_0
/-- The whole output block (the one store). -/
abbrev r0_1 : Rect S1x1x21 := Rect.unit (s := S1x1x21) ![0, 0, 0] S1x1x21.size inb_S1x1x21_S1x1x21_0_0_0

/-! ## What the body leaves in the output window's buffer -/

/-- The stored vector as a function of the loaded label block: the 21 per-class sums, through the parts' payloads. -/
def pay0 (v0 : Vec F S1x512x512 .i32) : FVec F S1x1x21 .f32 :=
  k0_pay20 (k0_pay1 v0) (k0_pay2 v0) (k0_pay3 v0) (k0_pay4 v0) (k0_pay5 v0) (k0_pay7 (k0_pay6 v0))
    (k0_pay8 (F := F) (k0_pay1 v0)) (k0_pay9 (F := F) (k0_pay1 v0)) (k0_pay10 (F := F) (k0_pay1 v0))
    (k0_pay11 (F := F) (k0_pay1 v0)) (k0_pay12 (F := F) (k0_pay1 v0))
    (k0_pay14 (F := F) (k0_pay13 (k0_pay1 v0)))
    (k0_pay15 (F := F) (k0_pay1 v0)) (k0_pay16 (F := F) (k0_pay1 v0)) (k0_pay17 (F := F) (k0_pay1 v0))
    (k0_pay18 (F := F) (k0_pay1 v0)) (k0_pay19 (F := F) (k0_pay1 v0))

/-- Window 1's staging buffer after the body, from the input window's block: its one store as a piece. -/
def out0_1 (x0 : Vec F S1x512x512 .i32) : Vec F S1x1x21 .f32 :=
  View.canon [⟨r0_1, pay0 (View.ld x0 r0_0)⟩]

/-- The store tiles the buffer, so it covers it. -/
theorem cover0_1 (p0 : Vec F S1x1x21 .f32) (y : S1x1x21.Idx) :
    ∃ pc ∈ ([⟨r0_1, p0⟩] : List (View.Piece (Elt F) S1x1x21 .f32)), y ∈ pc.1.set :=
  View.cover_of_tiled [⟨r0_1, p0⟩] S1x1x21.size (by rfl) y

/-! ## The body's triple -/

set_option maxHeartbeats 1000000 in
/-- The kernel body on whole staging memrefs, the input's at read contents x0 and the output's at anything, runs to
    the continuation holding the input's as it was and the output's at out0_1 of the input's. -/
theorem sound_kernel0 (c : Dev nD) (E : Set ℕ) (i : grid0.Coords) (arg1 : Memref sig .tc .vmem S1x512x512 .i32) (harg1 : arg1.IsWhole) (arg2 : Memref sig .tc .vmem S1x1x21 .f32) (harg2 : arg2.IsWhole)
    (x0 : Vec F S1x512x512 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__counts_kernel i arg1 harg1 arg2 harg2) K := by
  simp only [cc0__counts_kernel_eq_skeleton]; unfold cc0__counts_kernel_skel
  simp only [k0_part1_eq_skeleton, k0_part2_eq_skeleton, k0_part3_eq_skeleton, k0_part4_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core c: the arrays as the region finds them; after the body at point t the
    input's buffer at its block and the output's at out0_1 of the input block; the class's invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
/- Region 1 (the per-pixel loss kernel, grid (8,2)): what the two control cases of its body share.
   The blocks of its three input windows at a point, read off the arrays as the region finds them; the two
   conditions of the body in closed form over the sixteen points (the accumulator is reset where the inner
   coordinate is 0 and flushed to the output where it is 1); where the output window is idle; the staging
   memrefs at a point and the accumulator's memref; the region's invariant with the accumulator named. -/
import proofs.«419586_j34471407518059_3_alg».proof.Proof.Gen.Kernel.Launch
import proofs.«419586_j34471407518059_3_alg».proof.Proof.Gen.Kernel.Skeleton
import proofs.«419586_j34471407518059_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input blocks -/

/-- Window `w`'s block at point `t`, read off its array at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The logits' staging buffer holds the point's block at every point, for any proof data over the entry arrays
    whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the labels' staging buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the margins' staging buffer. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body -/

/-- "The inner coordinate is 0": the condition under which the body first zeroes its accumulator, as the body's
    scalar chain computes it from the grid coordinates. -/
abbrev cond1_0 (i : grid1.Coords) : Prop :=
  Scalar.cmpi .ne (Scalar.extui (Scalar.cmpi .eq (BitVec.ofNat 32 (i 1).val) 0#32)) 0#32 = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- "The inner coordinate is 1": the condition under which the body copies the accumulator to the output block. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even points the output window is idle: nothing is stored into it, -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- At the odd points it is live. -/
theorem liveAt1_3_B : ∀ t : Fin cfg1.N, ¬cond1_0 (grid1.coords t) → cond1_1 (grid1.coords t) → cfg1.idle 3 (grid1.coords t) = false := by decide +kernel

/-! ## The memrefs the body is called on -/

/-- One staging buffer of the output window, through which its contents are stated (any whole view of the shape
    reads a covering list of writes alike). -/
abbrev VO1_3 : View sig .tc .vmem S1x1x1 .f32 := (Memref.whole cc1_stg3_0 : Memref sig .tc .vmem S1x1x1 .f32).view
/-- Each window's current staging memref at point `t`, as the pipeline passes it, and its wholeness. -/
abbrev ms1_0 (t : Fin cfg1.N) : Memref sig .tc .vmem S1x21x512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows, -/
abbrev scM1_0 : Memref sig .tc .vmem S1x1 .f32 := Memref.whole cc1_scratch0
/-- and the view through which its contents are stated. -/
abbrev VS1_0 : View sig .tc .vmem S1x1 .f32 := scM1_0.view

/-- A scoped buffer of the core that this kernel never touches, whole at some contents. -/
abbrev held1 (c : Dev nD) (b : Ref sig .tc) : sProp 𝕄 :=
  iprop(∃ f : Buf (Elt F) ((c : Thread nD τ).loc b), ((c : Thread nD τ).loc b) ↦{fullShare} f)

/-- The region's invariant with the accumulator as a memref owned at some contents: the other call's four staging
    buffers at anything, the accumulator, and the generator register at some state. -/
theorem PhiA1_eq (c : Dev nD) :
    (Pipeline.ΦA spec1 c : sProp 𝕄)
      = iprop(iprop(held1 (F := F) c cc0_stg0_0 ∗ held1 (F := F) c cc0_stg0_1 ∗ held1 (F := F) c cc0_stg1_0 ∗ held1 (F := F) c cc0_stg1_1
          ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.Region1RunA.lean ====
/- Region 1, the body at a point whose inner coordinate is 0 (the even points): it zeroes the accumulator,
   adds the tile's sum to it, and leaves the output block untouched. The body's triple, with what the
   accumulator ends with as a list of writes (last first). -/
import proofs.«419586_j34471407518059_3_alg».proof.Proof.K.Region1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 1000000 in
/-- CASE A (reset taken, flush not taken). On whole memrefs — the three inputs' at their contents, the output's at
    contents `xi3` handed back untouched, the accumulator's at anything — the body runs to the continuation
    holding the inputs' and the output's as they were and the accumulator's with the writes `LS0` made: the zeros,
    then the zeros read back plus the tile's sum. No write goes to the output (`L3 = []`). -/
noncomputable def kernelRun1_A (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x21x512x256 .f32) (x1 : Vec F S1x512x256 .i32) (x2 : Vec F S1x512x256 .f32) :
    Σ' (L3 : List (View.Piece (Elt F) S1x1x1 .f32)), { LS0 : List (View.Piece (Elt F) S1x1 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__nll_kernel i arg2 harg2 arg3 harg3 arg4 harg4 arg5 harg5 arg6 harg6) K } := by
  refine ⟨[], ?_, fun xi3 E K => ?run⟩
  case run =>
    simp only [cc1__nll_kernel_eq_skeleton]; unfold cc1__nll_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Region1RunB.lean ====
/- Region 1, the body at a point whose inner coordinate is 1 (the odd points): it adds the tile's sum to the
   accumulator the point before left, and copies the accumulator to the output block. The body's triple, with
   what the accumulator and the output block end with as lists of writes (last first). -/
import proofs.«419586_j34471407518059_3_alg».proof.Proof.K.Region1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 1000000 in
/-- CASE B (reset not taken, flush taken). On whole memrefs — the three inputs' at their contents, the output's
    at anything, the accumulator's at the contents `xs0` the point before left — the body runs to the
    continuation holding the inputs' as they were, the accumulator's with the write `LS0` made (`xs0` plus the
    tile's sum) and the output's with the write `L3` made (that accumulator, reshaped). -/
noncomputable def kernelRun1_B (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x21x512x256 .f32) (x1 : Vec F S1x512x256 .i32) (x2 : Vec F S1x512x256 .f32) (xs0 : Vec F S1x1 .f32) :
    Σ' (L3 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__nll_kernel i arg2 harg2 arg3 harg3 arg4 harg4 arg5 harg5 arg6 harg6) K } := by
  refine ⟨?_, ?_, fun E K => ?run⟩
  case run =>
    simp only [cc1__nll_kernel_eq_skeleton]; unfold cc1__nll_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Region1.lean ====
/- Region 1 (the per-pixel loss kernel, grid (8,2)), its frame: what the accumulator and the output block hold
   after each point, by recursion on the point; the region's invariant carrying the accumulator's contents from
   one point to the next; the proof data and the body's obligation at every point; and the invariant's two ends.
   At an even point (inner coordinate 0) the accumulator is reset and then holds the tile's sum, the output block
   is left alone; at an odd point (inner coordinate 1) the accumulator adds the tile's sum to what the even point
   before left, and the output block receives it. -/
import proofs.«419586_j34471407518059_3_alg».proof.Proof.K.Region1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What each case leaves -/

/-- An even point stores nothing into the output block: a placeholder nothing consults (the window is idle there:
    neither written back nor read at the next point). -/
def out1_A_3 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x21x512x256 .f32) (x1 : Vec F S1x512x256 .i32) (x2 : Vec F S1x512x256 .f32) : Vec F S1x1x1 .f32 :=
  VO1_3.read (Elt F) (VO1_3.writes (Elt F) VO1_3.junk (kernelRun1_A c i arg2 harg2 arg3 harg3 arg4 harg4 arg5 harg5 arg6 harg6 hc0 hc1 x0 x1 x2).1)

/-- At an even point the accumulator's writes cover it. -/
theorem scover1_A_0 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x21x512x256 .f32) (x1 : Vec F S1x512x256 .i32) (x2 : Vec F S1x512x256 .f32) (y : S1x1.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x1.size (by sl_kernel_rfl) y

/-- What an even point leaves in the accumulator: its writes read back. -/
def sout1_A_0 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x21x512x256 .f32) (x1 : Vec F S1x512x256 .i32) (x2 : Vec F S1x512x256 .f32) : Vec F S1x1 .f32 :=
  VS1_0.read (Elt F) (VS1_0.writes (Elt F) VS1_0.junk (kernelRun1_A c i arg2 harg2 arg3 harg3 arg4 harg4 arg5 harg5 arg6 harg6 hc0 hc1 x0 x1 x2).2.1)

/-- At an odd point the output block's one write covers it. -/
theorem cover1_B_3 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x21x512x256 .f32) (x1 : Vec F S1x512x256 .i32) (x2 : Vec F S1x512x256 .f32) (xs0 : Vec F S1x1 .f32) (y : S1x1x1.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S1x1x1.size (by sl_kernel_rfl) y

/-- What an odd point leaves in the output block: its write read back. -/
def out1_B_3 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x21x512x256 .f32) (x1 : Vec F S1x512x256 .i32) (x2 : Vec F S1x512x256 .f32) (xs0 : Vec F S1x1 .f32) : Vec F S1x1x1 .f32 :=
  VO1_3.read (Elt F) (VO1_3.writes (Elt F) VO1_3.junk (kernelRun1_B c i arg2 harg2 arg3 harg3 arg4 harg4 arg5 harg5 arg6 harg6 hc0 hc1 x0 x1 x2 xs0).1)

/-- At an odd point the accumulator's one write covers it. -/
theorem scover1_B_0 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x21x512x256 .f32) (x1 : Vec F S1x512x256 .i32) (x2 : Vec F S1x512x256 .f32) (xs0 : Vec F S1x1 .f32) (y : S1x1.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x1.size (by sl_kernel_rfl) y

/-- What an odd point leaves in the accumulator: its write read back. -/
def sout1_B_0 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x21x512x256 .f32) (x1 : Vec F S1x512x256 .i32) (x2 : Vec F S1x512x256 .f32) (xs0 : Vec F S1x1 .f32) : Vec F S1x1 .f32 :=
  VS1_0.read (Elt F) (VS1_0.writes (Elt F) VS1_0.junk (kernelRun1_B c i arg2 harg2 arg3 harg3 arg4 harg4 arg5 harg5 arg6 harg6 hc0 hc1 x0 x1 x2 xs0).2.1)

/-! ## What the output block and the accumulator hold after each point -/

/-- After the body at position `n`: (the output block's staging buffer, the accumulator). An even position is case A
    at the point's blocks; an odd one is case B at the point's blocks over the accumulator the position before left. -/
def outsAt1 (c : Dev nD) : (n : ℕ) → n < cfg1.N → Vec F S1x1x1 .f32 × Vec F S1x1 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => by have h' := (hcond1_1 ⟨0, hn⟩).mp h; (try dsimp only at h'); omega) (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => by have h' := (hcond1_1 ⟨0, hn⟩).mp h; (try dsimp only at h'); omega) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => by have h' := (hcond1_1 ⟨n + 1, hn⟩).mp h; (try dsimp only at h'); omega) (iblk1 V c 0 ⟨n + 1, hn⟩) (iblk1 V c 1 ⟨n + 1, hn⟩) (iblk1 V c 2 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => by have h' := (hcond1_1 ⟨n + 1, hn⟩).mp h; (try dsimp only at h'); omega) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (outsAt1 c n (Nat.lt_of_succ_lt hn)).2)

/-- `outsAt1` at an even point: case A's contents. -/
theorem outsAt1_A (c : Dev nD) (t : Fin cfg1.N) (h0 : t.val % 2 = 0) :
    outsAt1 V c t.val t.isLt
      = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have h' := (hcond1_1 t).mp h; (try dsimp only at h'); omega) (iblk1 V c 0 t) (iblk1 V c 1 t) (iblk1 V c 2 t),
         sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have h' := (hcond1_1 t).mp h; (try dsimp only at h'); omega) (iblk1 V c 0 t) (iblk1 V c 1 t) (iblk1 V c 2 t)) := by
  obtain ⟨n, hn⟩ := t
  cases n with
  | zero => exact rfl
  | succ n => exact (dif_pos h0).trans rfl

/-- `outsAt1` at an odd point: case B's contents over what the point before left in the accumulator. -/
theorem outsAt1_B (c : Dev nD) (t : Fin cfg1.N) (h0 : ¬t.val % 2 = 0) :
    outsAt1 V c t.val t.isLt
      = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr (by (try dsimp only); omega)) (iblk1 V c 0 t) (iblk1 V c 1 t) (iblk1 V c 2 t) (outsAt1 V c (t.val - 1) (Nat.lt_of_le_of_lt (Nat.sub_le _ _) t.isLt)).2,
         sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr (by (try dsimp only); omega)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant -/

/-- Before position `n`: before the first point what the launch hands over (every scoped buffer outside the
    pipeline at anything, the generator register at some state); afterwards the same with the accumulator at what the
    position before left in it. -/
def PhiS1 (c : Dev nD) : (n : ℕ) → n ≤ cfg1.N → sProp 𝕄
  | 0, _ => Pipeline.ΦA spec1 c
  | n + 1, hn => iprop(iprop(held1 (F := F) c cc0_stg0_0 ∗ held1 (F := F) c cc0_stg0_1 ∗ held1 (F := F) c cc0_stg1_0 ∗ held1 (F := F) c cc0_stg1_1
      ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(held1 (F := F) c cc0_stg0_0 ∗ held1 (F := F) c cc0_stg0_1 ∗ held1 (F := F) c cc0_stg1_0 ∗ held1 (F := F) c cc0_stg1_1
      ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(held1 (F := F) c cc0_stg0_0 ∗ held1 (F := F) c cc0_stg0_1 ∗ held1 (F := F) c cc0_stg1_0 ∗ held1 (F := F) c cc0_stg1_1
      ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt1`'s first component; the invariant `PhiS1`; full shares;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's parity says which case it is. At an
    even point the invariant hands the body the accumulator at anything (what the launch left, or what the point before
    left: either is forgotten) and the output's buffer goes back as it came; at an odd point it hands it the
    accumulator at what the even point before left, and the output's buffer takes its write. Either way the accumulator
    goes back into the invariant at this point's contents, and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have hcA : cond1_0 (grid1.coords t) := (hcond1_0 t).mpr h0
    have hnB : ¬cond1_1 (grid1.coords t) := fun h => by have h' := (hcond1_1 t).mp h; omega
    rw [Dat.leavesExact_idle (dat1 V c) 3 t (idleAt1_3_A t hcA hnB) (noFlush1_3_A t hcA hnB)]
    rw [outsAt1_A V c t h0]
    unfold sout1_A_0; (try dsimp only)
    by_cases hz : t.val = 0
    · rw [PhiS1_castSucc V c t, PhiS1_zero V c _ _ hz, PhiA1_eq]
      iintro ⟨⟨⟨Ha, Hb, Hc, Hd, HS0⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) hcA hnB (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd HS0 Hg]
      · isplitr [Hg]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) hcA hnB (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha Hb Hc Hd HS0 Hg]
      · isplitr [Hg]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hnA : ¬cond1_0 (grid1.coords t) := fun h => h0 ((hcond1_0 t).mp h)
    have hcB : cond1_1 (grid1.coords t) := (hcond1_1 t).mpr (by omega)
    rw [show (dat1 V c).leavesExact 3 t = owns (c : Thread nD τ) (ms1_3 t) fullShare ((dat1 V c).after 3 t) from by
      unfold Dat.leavesExact; rw [liveAt1_3_B t hnA hcB], after1_3]
    rw [outsAt1_B V c t h0]
    unfold out1_B_3 sout1_B_0; (try dsimp only)
    have hz : t.val ≠ 0 := fun hz => h0 (by rw [hz])
    rw [PhiS1_castSucc V c t, PhiS1_pos V c _ _ hz]
    iintro ⟨⟨⟨Ha, Hb, Hc, Hd, HS0⟩, Hg⟩, Ho, ⟨%d0, H0⟩, ⟨%d1, H1⟩, ⟨%d2, H2⟩, ⟨%d3, H3⟩⟩
    iapply ((kernelRun1_B c (grid1.coords t) (ms1_0 t) (hs1_0 t) (ms1_1 t) (hs1_1 t) (ms1_2 t) (hs1_2 t) (ms1_3 t) (hs1_3 t) scM1_0 (Memref.isWhole_whole _) hnA hcB (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [Ha Hb Hc Hd HS0 Hg]
    · isplitr [Hg]
      · isplitl [Ha]; · iexact Ha
        isplitl [Hb]; · iexact Hb
        isplitl [Hc]; · iexact Hc
        isplitl [Hd]; · iexact Hd
        unfold owns; iexists _; isplitr
        swap; · iexact HS0
        ipureintro; exact View.read_writes_of_cover _ _ _ _ _ (scover1_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, HS0⟩, Hg⟩
  isplitr [Hg]
  · isplitl [Ha]; · iexact Ha
    isplitl [Hb]; · iexact Hb
    isplitl [Hc]; · iexact Hc
    isplitl [Hd]; · iexact Hd
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.K.HostArgs.lean ====
/-
  The argument arrays through the run. No host operation of either stretch writes an argument array, and a
  kernel region meets an argument array only as the array of an input window, which the region's write-backs
  leave as it was at entry (or not at all); so at every boundary of the run an argument array holds what the
  launch memory held.
-/
import proofs.«419586_j34471407518059_3_alg».proof.Proof.K.Run
import proofs.«419586_j34471407518059_3_alg».proof.Proof.Gen.Kernel.Regions

noncomputable section

namespace Cert.Kernel.Hand

open Cert.Kernel Cert.Kernel.Gen
open Idealize.ShloMosaic Idealize.ShloMosaic.TcCoe
open Idealize.SL.Sem

variable {F : FTy → Type} [FloatOps F]
variable (D0 : Region0 F) (D1 : Region1 F)
variable (m : (ℓ : Loc nD τ sig) → Buf (Elt F) ℓ) (c : Dev nD)

/-! ## After region 0 -/

theorem W1_main_arg0 : W1 D0 m c (Proc.devRef .tc main_arg0) = m ((c : Thread nD τ).loc main_arg0) :=
  (W1_of_ne D0 m c main_arg0 (by decide)).trans rfl
/-- Region 0 reads the labels through its input window 0. -/
theorem W1_main_arg1 : W1 D0 m c (Proc.devRef .tc main_arg1) = m ((c : Thread nD τ).loc main_arg1) :=
  (W1_arr D0 m c 0).trans (((D0.dat (V0 m) c).arrAt_in 0 rfl _).trans ((D0.A_eq (V0 m) c 0).trans rfl))

/-! ## After the first host stretch -/

theorem W2_main_arg0 : W2 D0 m c (Proc.devRef .tc main_arg0) = m ((c : Thread nD τ).loc main_arg0) :=
  (StableHlo.after_of_writes_sub hostOps1 _ hostOps1_writes (by decide)).trans (W1_main_arg0 D0 m c)
theorem W2_main_arg1 : W2 D0 m c (Proc.devRef .tc main_arg1) = m ((c : Thread nD τ).loc main_arg1) :=
  (StableHlo.after_of_writes_sub hostOps1 _ hostOps1_writes (by decide)).trans (W1_main_arg1 D0 m c)

/-! ## After region 1 -/

/-- Region 1 reads the logits through its input window 0 … -/
theorem W3_main_arg0 : W3 D0 D1 m c (Proc.devRef .tc main_arg0) = m ((c : Thread nD τ).loc main_arg0) :=
  (W3_arr D0 D1 m c 0).trans (((D1.dat (V2 D0 m) c).arrAt_in 0 rfl _).trans
    ((D1.A_eq (V2 D0 m) c 0).trans (W2_main_arg0 D0 m c)))
/-- … and the labels through its input window 1. -/
theorem W3_main_arg1 : W3 D0 D1 m c (Proc.devRef .tc main_arg1) = m ((c : Thread nD τ).loc main_arg1) :=
  (W3_arr D0 D1 m c 1).trans (((D1.dat (V2 D0 m) c).arrAt_in 1 rfl _).trans
    ((D1.A_eq (V2 D0 m) c 1).trans (W2_main_arg1 D0 m c)))

/-! ## At the return -/

theorem W4_main_arg0 : W4 D0 D1 m c (Proc.devRef .tc main_arg0) = m ((c : Thread nD τ).loc main_arg0) :=
  (StableHlo.after_of_writes_sub hostOps2 _ hostOps2_writes (by decide)).trans (W3_main_arg0 D0 D1 m c)
theorem W4_main_arg1 : W4 D0 D1 m c (Proc.devRef .tc main_arg1) = m ((c : Thread nD τ).loc main_arg1) :=
  (StableHlo.after_of_writes_sub hostOps2 _ hostOps2_writes (by decide)).trans (W3_main_arg1 D0 D1 m c)

end Cert.Kernel.Hand

end
-- ==== Proof.K.Frame.lean ====
/-
  The two regions' proof data handed to the run, and the frame: every weakly fair execution of the program
  terminates, nothing faulting, and both argument arrays end as launched — no host operation writes an argument and
  each region only reads them through its input windows.
-/
import proofs.«419586_j34471407518059_3_alg».proof.Proof.K.Run
import proofs.«419586_j34471407518059_3_alg».proof.Proof.K.Region0
import proofs.«419586_j34471407518059_3_alg».proof.Proof.K.Region1
import proofs.«419586_j34471407518059_3_alg».proof.Proof.K.HostArgs

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Region 0 (the class counts): the class invariant throughout. -/
def D0 : Region0 F where
  dat V c := dat0 V c
  A_eq V c w := A_eq0 V c w
  q_eq _ _ _ := rfl
  owed_eq _ _ _ := rfl
  recorded_eq _ _ _ := rfl
  body V c := body_obligation0 V c
  hin V c := by rw [show (dat0 V c).Φ 0 = Pipeline.ΦA spec0 c from rfl]
  hout V c := by rw [show (dat0 V c).Φ (Fin.last cfg0.N) = Pipeline.ΦA spec0 c from rfl]

/-- Region 1 (the summed loss): the invariant carries the accumulator between the two tiles of a batch. -/
def D1 : Region1 F where
  dat V c := dat1 V c
  A_eq V c w := A_eq1 V c w
  q_eq _ _ _ := rfl
  owed_eq _ _ _ := rfl
  recorded_eq _ _ _ := rfl
  body V c := body_obligation1 V c
  hin V c := hin1 V c
  hout V c := hout1 V c

variable (m : (ℓ : Loc nD τ sig) → Buf (Elt F) ℓ) (ρ : Dev nD → PrngReg)

/-- The run with the two regions' data: every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 (D0 (F := F)) D1 m c b) :=
  run_main D0 D1 m ρ

/-- The frame: the program runs to the end and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_arg0 (by decide))).trans (W4_main_arg0 D0 D1 m c),
       (h c _ (mem_uc main_arg1 (by decide))).trans (W4_main_arg1 D0 D1 m c)⟩)
    (run_all m ρ)

end Cert.Kernel.Hand

end
-- ==== Proof.KI.Run.lean ====
/-
  The run of the whole program, from the launch to the return: @main is a kernel region (the per-batch class
  counts), a stretch of host operations (the margins and their gather), a second kernel region (the per-batch
  summed loss) and a last host stretch (the mean). The buffer contents at each boundary are a fold from the
  launch memory: a host stretch applies its operations, a region replaces its output array by what its
  write-backs leave. Every weakly fair execution terminates, and every unscoped buffer ends at the last fold
  (`run_main`); the argument arrays are never written, so they end as launched.
  What the run needs of each region is collected in a record (`Region0`, `Region1`): the pipeline's proof data at
  the region's entry contents, its body obligation, and how the region invariant begins and ends.
-/
import proofs.«419586_j34471407518059_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A core's buffer contents at a region's entry, read at the TensorCore's references. -/
abbrev Entry (F : FTy → Type) : Type := (c : Dev nD) → (b : Ref sig .tc) → Buf (Elt F) ((c : Thread nD τ).loc b)

/-- What the run takes of region 0: proof data at any entry contents whose arrays are those contents, with full
    shares and nothing owed, the body obligation, and the class invariant at both ends. -/
structure Region0 (F : FTy → Type) [FloatOps F] where
  dat : Entry F → (c : Dev nD) → Dat τ (Elt F) Unit ℕ (UR sig nD τ) ℕ cfg0 c
  A_eq : ∀ (V : Entry F) (c : Dev nD) (w : Fin cfg0.W), (dat V c).A w = V c (Pipeline.arrRef spec0 w)
  q_eq : ∀ (V : Entry F) (c : Dev nD) (w : Fin cfg0.W), (dat V c).q w = fullShare
  owed_eq : ∀ (V : Entry F) (c : Dev nD) t, (dat V c).owed t = 0
  recorded_eq : ∀ (V : Entry F) (c : Dev nD) t, (dat V c).recorded t = Set.univ
  body : ∀ (V : Entry F) (c : Dev nD), BodyObligation (dat V c) (defs₀ (F := F)) Variants.none () Set.univ
  hin : ∀ (V : Entry F) (c : Dev nD), (Pipeline.ΦA spec0 c : sProp (MT nD τ sig Unit (Elt F) ℕ (UR sig nD τ) ℕ)) ⊢ (dat V c).Φ 0
  hout : ∀ (V : Entry F) (c : Dev nD), (dat V c).Φ (Fin.last cfg0.N) ⊢ (Pipeline.ΦA spec0 c : sProp (MT nD τ sig Unit (Elt F) ℕ (UR sig nD τ) ℕ))

/-- The same of region 1. -/
structure Region1 (F : FTy → Type) [FloatOps F] where
  dat : Entry F → (c : Dev nD) → Dat τ (Elt F) Unit ℕ (UR sig nD τ) ℕ cfg1 c
  A_eq : ∀ (V : Entry F) (c : Dev nD) (w : Fin cfg1.W), (dat V c).A w = V c (Pipeline.arrRef spec1 w)
  q_eq : ∀ (V : Entry F) (c : Dev nD) (w : Fin cfg1.W), (dat V c).q w = fullShare
  owed_eq : ∀ (V : Entry F) (c : Dev nD) t, (dat V c).owed t = 0
  recorded_eq : ∀ (V : Entry F) (c : Dev nD) t, (dat V c).recorded t = Set.univ
  body : ∀ (V : Entry F) (c : Dev nD), BodyObligation (dat V c) (defs₀ (F := F)) Variants.none () Set.univ
  hin : ∀ (V : Entry F) (c : Dev nD), (Pipeline.ΦA spec1 c : sProp (MT nD τ sig Unit (Elt F) ℕ (UR sig nD τ) ℕ)) ⊢ (dat V c).Φ 0
  hout : ∀ (V : Entry F) (c : Dev nD), (dat V c).Φ (Fin.last cfg1.N) ⊢ (Pipeline.ΦA spec1 c : sProp (MT nD τ sig Unit (Elt F) ℕ (UR sig nD τ) ℕ))

variable {F : FTy → Type} [FloatOps F]

local notation "𝕄" => MT nD τ sig Unit (Elt F) ℕ (UR sig nD τ) ℕ

variable (D0 : Region0 F) (D1 : Region1 F)
variable (m : (ℓ : Loc nD τ sig) → Buf (Elt F) ℓ) (ρ : Dev nD → PrngReg)

/-! ## The buffer contents at each boundary -/

/-- At launch (region 0's entry). -/
abbrev W0 : Dev nD → Valuation τ sig (Elt F) := fun c b => m ((c : Dev nD), b)
abbrev V0 : Entry F := fun c b => W0 m c b
/-- At region 0's exit: its arrays at what the pipeline leaves, every other buffer as entered. -/
def W1 (c : Dev nD) : Valuation τ sig (Elt F) :=
  Pipeline.withArrays spec0 c (W0 m c) fun w => (D0.dat (V0 m) c).arrAt w cfg0.N
theorem W1_arr (c : Dev nD) (w : Fin cfg0.W) :
    W1 D0 m c (Proc.devRef .tc (Pipeline.arrRef spec0 w)) = (D0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 D0 m c (Proc.devRef .tc b) = W0 m c (Proc.devRef .tc b) := by
  unfold W1; exact Pipeline.withArrays_of_ne spec0 c _ _ b hb
abbrev V1 : Entry F := fun c b => W1 D0 m c b
theorem hF0 (c : Dev nD) (w : Fin cfg0.W) : (D0.dat (V0 m) c).arrAt w cfg0.N = V1 D0 m c (Pipeline.arrRef spec0 w) :=
  (W1_arr D0 m c w).symm
theorem hrest0 (c : Dev nD) : ∀ b, b ∉ Finset.univ.image (Pipeline.arrRef spec0) → V1 D0 m c b = V0 m c b :=
  fun b hb => W1_of_ne D0 m c b fun w e => hb (Finset.mem_image.mpr ⟨w, Finset.mem_univ _, e⟩)

/-- After the first host stretch (region 1's entry). -/
abbrev W2 : Dev nD → Valuation τ sig (Elt F) := fun c => StableHlo.after hostOps1 (W1 D0 m c)
abbrev V2 : Entry F := fun c b => W2 D0 m c b
/-- At region 1's exit. -/
def W3 (c : Dev nD) : Valuation τ sig (Elt F) :=
  Pipeline.withArrays spec1 c (W2 D0 m c) fun w => (D1.dat (V2 D0 m) c).arrAt w cfg1.N
theorem W3_arr (c : Dev nD) (w : Fin cfg1.W) :
    W3 D0 D1 m c (Proc.devRef .tc (Pipeline.arrRef spec1 w)) = (D1.dat (V2 D0 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 D0 D1 m c (Proc.devRef .tc b) = W2 D0 m c (Proc.devRef .tc b) := by
  unfold W3; exact Pipeline.withArrays_of_ne spec1 c _ _ b hb
abbrev V3 : Entry F := fun c b => W3 D0 D1 m c b
theorem hF1 (c : Dev nD) (w : Fin cfg1.W) : (D1.dat (V2 D0 m) c).arrAt w cfg1.N = V3 D0 D1 m c (Pipeline.arrRef spec1 w) :=
  (W3_arr D0 D1 m c w).symm
theorem hrest1 (c : Dev nD) : ∀ b, b ∉ Finset.univ.image (Pipeline.arrRef spec1) → V3 D0 D1 m c b = V2 D0 m c b :=
  fun b hb => W3_of_ne D0 D1 m c b fun w e => hb (Finset.mem_image.mpr ⟨w, Finset.mem_univ _, e⟩)
/-- After the last host stretch: the contents at the return. -/
abbrev W4 : Dev nD → Valuation τ sig (Elt F) := fun c => StableHlo.after hostOps2 (W3 D0 D1 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => D0.dat (V0 m) c
  | ⟨1, _⟩ => fun c => D1.dat (V2 D0 m) c
abbrev 𝒱₀ : Variants := Variants.none
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at the launch contents, left at `W1`. -/
def reg0 : Pipeline.RegionSeg (pcfgs (F := F)) adm (pdats D0 D1 m) () defs₀ 𝒱₀ L lv 0 where
  win := launch0.win.to₀
  block_pos := launch0.block_pos
  stage_whole := launch0.stage_whole
  K := PEmpty
  osem k := k.elim
  ho := Pipeline.OwnSemFacts.none _
  hbody c := (D0.body (V0 m) c).loose
  hwaits := Pipeline.hwaits_of_owed_zero _ _ _ _ L lv 0 fun c t => D0.owed_eq (V0 m) c t
  pre c := iprop(StableHlo.held (c : Thread nD τ) (Pipeline.ucRefs τ sig) (W0 m c) ∗ R c)
  post c := iprop(StableHlo.held (c : Thread nD τ) (Pipeline.ucRefs τ sig) (W1 D0 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats D0 D1 m) launch0.win launch0.arr_whole c
      ((pdats D0 D1 m 0 c).share_full fun w => D0.q_eq (V0 m) c w) (V0 m c) fun w => D0.A_eq (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats D0 D1 m 0 c).recorded 0 = Set.univ from D0.recorded_eq (V0 m) c 0]; trivial)
      rw [show (pdats D0 D1 m 0 c).owed 0 = 0 from D0.owed_eq (V0 m) c 0]
      iexact HO
    isplitl [Hp]; · iexact Hp
    iexact Hrest
  hin c := by
    refine BIBase.Entails.trans ?_ (D0.hin (V0 m) c)
    unfold Pipeline.ΦA
    iintro ⟨Hp, -, Hr⟩
    isplitl [Hr]; · iexact Hr
    iexact Hp
  hout c := by
    rw [Pipeline.ownSems0_none]
    refine BIBase.Entails.trans (D0.hout (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D0 D1 m) ((pdats D0 D1 m 0 c).share_full fun w => D0.q_eq (V0 m) c w)
      (V0 m c) (V1 D0 m c) ((pdats D0 D1 m 0 c).arrAt · cfg0.N) (hF0 D0 m c) (hrest0 D0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats D0 D1 m 0 c).owed (Fin.last _) = 0 from D0.owed_eq (V0 m) c _]
    iexact HO

set_option backward.isDefEq.respectTransparency.types false in
/-- Region 1 over the thread state: entered from every unscoped buffer at `W2`, left at `W3`. -/
def reg1 : Pipeline.RegionSeg (pcfgs (F := F)) adm (pdats D0 D1 m) () defs₀ 𝒱₀ L lv 1 where
  win := launch1.win.to₀
  block_pos := launch1.block_pos
  stage_whole := launch1.stage_whole
  K := PEmpty
  osem k := k.elim
  ho := Pipeline.OwnSemFacts.none _
  hbody c := (D1.body (V2 D0 m) c).loose
  hwaits := Pipeline.hwaits_of_owed_zero _ _ _ _ L lv 1 fun c t => D1.owed_eq (V2 D0 m) c t
  pre c := iprop(StableHlo.held (c : Thread nD τ) (Pipeline.ucRefs τ sig) (W2 D0 m c) ∗ R c)
  post c := iprop(StableHlo.held (c : Thread nD τ) (Pipeline.ucRefs τ sig) (W3 D0 D1 m c) ∗ R c)
  X c := iprop(∃ r, prngReg c r)
  Y c := iprop(∃ r, prngReg c r)
  Z c := Pipeline.unscopedRest (Ix := Unit) (Name := ℕ) (U := UR sig nD τ) (Lvl := ℕ) spec1 c (V2 D0 m c)
  hentry c := by
    rw [Pipeline.ownSems0_none]
    have hsplit := Pipeline.arrays_of_unscopedBufs (p := 1) (pcfgs (F := F)) adm (pdats D0 D1 m) launch1.win launch1.arr_whole c
      ((pdats D0 D1 m 1 c).share_full fun w => D1.q_eq (V2 D0 m) c w) (V2 D0 m c) fun w => D1.A_eq (V2 D0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats D0 D1 m 1 c).recorded 0 = Set.univ from D1.recorded_eq (V2 D0 m) c 0]; trivial)
      rw [show (pdats D0 D1 m 1 c).owed 0 = 0 from D1.owed_eq (V2 D0 m) c 0]
      iexact HO
    isplitl [Hp]; · iexact Hp
    iexact Hrest
  hin c := by
    refine BIBase.Entails.trans ?_ (D1.hin (V2 D0 m) c)
    unfold Pipeline.ΦA
    iintro ⟨Hp, -, Hr⟩
    isplitl [Hr]; · iexact Hr
    iexact Hp
  hout c := by
    rw [Pipeline.ownSems0_none]
    refine BIBase.Entails.trans (D1.hout (V2 D0 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D0 D1 m) ((pdats D0 D1 m 1 c).share_full fun w => D1.q_eq (V2 D0 m) c w)
      (V2 D0 m c) (V3 D0 D1 m c) ((pdats D0 D1 m 1 c).arrAt · cfg1.N) (hF1 D0 D1 m c) (hrest1 D0 D1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats D0 D1 m 1 c).owed (Fin.last _) = 0 from D1.owed_eq (V2 D0 m) c _]
    iexact HO

/-! ## @main as segments, and the launch -/

abbrev segs : List (Pipeline.Seg (pcfgs (F := F)) adm (pdats D0 D1 m) () defs₀ 𝒱₀ L lv) :=
  [ .region (reg0 D0 D1 m),
    .host (hseg hostOps1 hostOps1_sub hostOps1_fresh (W1 D0 m)),
    .region (reg1 D0 D1 m),
    .host (hseg hostOps2 hostOps2_sub hostOps2_fresh (W3 D0 D1 m)) ]

theorem main_run (c : Dev nD) : main (F := F) c = Pipeline.Seg.run (segs D0 D1 m) := (main_chain c).trans (by chain_rfl)

set_option backward.isDefEq.respectTransparency.types false in
/-- Every weakly fair execution of @main from any memory with zero counters terminates, nothing faulting, and
    every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 D0 D1 m c b) :=
  Pipeline.θ_run_regions_kit (pcfgs (F := F)) adm (pdats D0 D1 m) () cellOf_inj emb₁ defs₀ 𝒱₀ L lv m ρ main (segs D0 D1 m)
    (fun c Q => by rw [main_run D0 D1 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 D0 D1 m c) ∗ ∃ r, prngReg c r))
    (hch := ⟨fun _ => .rfl, fun _ => .rfl, fun _ => .rfl, fun _ => .rfl, fun c => by
      show iprop(StableHlo.held (c : Thread nD τ) (Pipeline.ucRefs τ sig) (StableHlo.after hostOps2 (W3 D0 D1 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 D0 D1 m c b)
    (hfin := fun c s' => by
      iintro ⟨⟨Hh, -⟩, HSI⟩
      unfold StableHlo.held
      imodintro
      iapply (pointsTo_read_all (Pipeline.ucRefs τ sig) (fun b => (((c : Thread nD τ)).1, b)) (W4 D0 D1 m c) s')
      isplitl [Hh] <;> iassumption)
    (hQ := fun s h c => h c)

end Cert.KernelIdeal.Hand

end
-- ==== Proof.KI.Region0.lean ====
/- REGION 0 of the kernel program (custom_call 0, the per-class pixel counts): the frame half, at a parameter
   V — the core's buffer contents when the region is entered. Each window's block at a point, what the body's one
   store leaves in the output window's buffer as a function of the input block, the body's triple, the proof data
   and the body obligation. Generic in the float type. -/
import proofs.«419586_j34471407518059_3_alg».proof.Proof.Gen.KernelIdeal.Launch
import proofs.«419586_j34471407518059_3_alg».proof.Proof.Gen.KernelIdeal.Skeleton
import proofs.«419586_j34471407518059_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input block (the one load). -/
abbrev r0_0 : Rect S1x512x512 := Rect.unit (s := S1x512x512) ![0, 0, 0] S1x512x512.size inb_S1x512x512_S1x512x512_0_0_0
/-- The whole output block (the one store). -/
abbrev r0_1 : Rect S1x1x21 := Rect.unit (s := S1x1x21) ![0, 0, 0] S1x1x21.size inb_S1x1x21_S1x1x21_0_0_0

/-! ## What the body leaves in the output window's buffer -/

/-- The stored vector as a function of the loaded label block: the 21 per-class sums, through the parts' payloads. -/
def pay0 (v0 : Vec F S1x512x512 .i32) : FVec F S1x1x21 .f32 :=
  k0_pay20 (k0_pay1 v0) (k0_pay2 v0) (k0_pay3 v0) (k0_pay4 v0) (k0_pay5 v0) (k0_pay7 (k0_pay6 v0))
    (k0_pay8 (F := F) (k0_pay1 v0)) (k0_pay9 (F := F) (k0_pay1 v0)) (k0_pay10 (F := F) (k0_pay1 v0))
    (k0_pay11 (F := F) (k0_pay1 v0)) (k0_pay12 (F := F) (k0_pay1 v0))
    (k0_pay14 (F := F) (k0_pay13 (k0_pay1 v0)))
    (k0_pay15 (F := F) (k0_pay1 v0)) (k0_pay16 (F := F) (k0_pay1 v0)) (k0_pay17 (F := F) (k0_pay1 v0))
    (k0_pay18 (F := F) (k0_pay1 v0)) (k0_pay19 (F := F) (k0_pay1 v0))

/-- Window 1's staging buffer after the body, from the input window's block: its one store as a piece. -/
def out0_1 (x0 : Vec F S1x512x512 .i32) : Vec F S1x1x21 .f32 :=
  View.canon [⟨r0_1, pay0 (View.ld x0 r0_0)⟩]

/-- The store tiles the buffer, so it covers it. -/
theorem cover0_1 (p0 : Vec F S1x1x21 .f32) (y : S1x1x21.Idx) :
    ∃ pc ∈ ([⟨r0_1, p0⟩] : List (View.Piece (Elt F) S1x1x21 .f32)), y ∈ pc.1.set :=
  View.cover_of_tiled [⟨r0_1, p0⟩] S1x1x21.size (by rfl) y

/-! ## The body's triple -/

set_option maxHeartbeats 1000000 in
/-- The kernel body on whole staging memrefs, the input's at read contents x0 and the output's at anything, runs to
    the continuation holding the input's as it was and the output's at out0_1 of the input's. -/
theorem sound_kernel0 (c : Dev nD) (E : Set ℕ) (i : grid0.Coords) (arg1 : Memref sig .tc .vmem S1x512x512 .i32) (harg1 : arg1.IsWhole) (arg2 : Memref sig .tc .vmem S1x1x21 .f32) (harg2 : arg2.IsWhole)
    (x0 : Vec F S1x512x512 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__counts_kernel i arg1 harg1 arg2 harg2) K := by
  simp only [cc0__counts_kernel_eq_skeleton]; unfold cc0__counts_kernel_skel
  simp only [k0_part1_eq_skeleton, k0_part2_eq_skeleton, k0_part3_eq_skeleton, k0_part4_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core c: the arrays as the region finds them; after the body at point t the
    input's buffer at its block and the output's at out0_1 of the input block; the class's invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
/- Region 1 (the per-pixel loss kernel, grid (8,2)): what the two control cases of its body share.
   The blocks of its three input windows at a point, read off the arrays as the region finds them; the two
   conditions of the body in closed form over the sixteen points (the accumulator is reset where the inner
   coordinate is 0 and flushed to the output where it is 1); where the output window is idle; the staging
   memrefs at a point and the accumulator's memref; the region's invariant with the accumulator named. -/
import proofs.«419586_j34471407518059_3_alg».proof.Proof.Gen.KernelIdeal.Launch
import proofs.«419586_j34471407518059_3_alg».proof.Proof.Gen.KernelIdeal.Skeleton
import proofs.«419586_j34471407518059_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input blocks -/

/-- Window `w`'s block at point `t`, read off its array at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The logits' staging buffer holds the point's block at every point, for any proof data over the entry arrays
    whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the labels' staging buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the margins' staging buffer. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body -/

/-- "The inner coordinate is 0": the condition under which the body first zeroes its accumulator, as the body's
    scalar chain computes it from the grid coordinates. -/
abbrev cond1_0 (i : grid1.Coords) : Prop :=
  Scalar.cmpi .ne (Scalar.extui (Scalar.cmpi .eq (BitVec.ofNat 32 (i 1).val) 0#32)) 0#32 = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- "The inner coordinate is 1": the condition under which the body copies the accumulator to the output block. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even points the output window is idle: nothing is stored into it, -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- At the odd points it is live. -/
theorem liveAt1_3_B : ∀ t : Fin cfg1.N, ¬cond1_0 (grid1.coords t) → cond1_1 (grid1.coords t) → cfg1.idle 3 (grid1.coords t) = false := by decide +kernel

/-! ## The memrefs the body is called on -/

/-- One staging buffer of the output window, through which its contents are stated (any whole view of the shape
    reads a covering list of writes alike). -/
abbrev VO1_3 : View sig .tc .vmem S1x1x1 .f32 := (Memref.whole cc1_stg3_0 : Memref sig .tc .vmem S1x1x1 .f32).view
/-- Each window's current staging memref at point `t`, as the pipeline passes it, and its wholeness. -/
abbrev ms1_0 (t : Fin cfg1.N) : Memref sig .tc .vmem S1x21x512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows, -/
abbrev scM1_0 : Memref sig .tc .vmem S1x1 .f32 := Memref.whole cc1_scratch0
/-- and the view through which its contents are stated. -/
abbrev VS1_0 : View sig .tc .vmem S1x1 .f32 := scM1_0.view

/-- A scoped buffer of the core that this kernel never touches, whole at some contents. -/
abbrev held1 (c : Dev nD) (b : Ref sig .tc) : sProp 𝕄 :=
  iprop(∃ f : Buf (Elt F) ((c : Thread nD τ).loc b), ((c : Thread nD τ).loc b) ↦{fullShare} f)

/-- The region's invariant with the accumulator as a memref owned at some contents: the other call's four staging
    buffers at anything, the accumulator, and the generator register at some state. -/
theorem PhiA1_eq (c : Dev nD) :
    (Pipeline.ΦA spec1 c : sProp 𝕄)
      = iprop(iprop(held1 (F := F) c cc0_stg0_0 ∗ held1 (F := F) c cc0_stg0_1 ∗ held1 (F := F) c cc0_stg1_0 ∗ held1 (F := F) c cc0_stg1_1
          ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.Region1RunA.lean ====
/- Region 1, the body at a point whose inner coordinate is 0 (the even points): it zeroes the accumulator,
   adds the tile's sum to it, and leaves the output block untouched. The body's triple, with what the
   accumulator ends with as a list of writes (last first). -/
import proofs.«419586_j34471407518059_3_alg».proof.Proof.KI.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 1000000 in
/-- CASE A (reset taken, flush not taken). On whole memrefs — the three inputs' at their contents, the output's at
    contents `xi3` handed back untouched, the accumulator's at anything — the body runs to the continuation
    holding the inputs' and the output's as they were and the accumulator's with the writes `LS0` made: the zeros,
    then the zeros read back plus the tile's sum. No write goes to the output (`L3 = []`). -/
noncomputable def kernelRun1_A (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x21x512x256 .f32) (x1 : Vec F S1x512x256 .i32) (x2 : Vec F S1x512x256 .f32) :
    Σ' (L3 : List (View.Piece (Elt F) S1x1x1 .f32)), { LS0 : List (View.Piece (Elt F) S1x1 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__nll_kernel i arg2 harg2 arg3 harg3 arg4 harg4 arg5 harg5 arg6 harg6) K } := by
  refine ⟨[], ?_, fun xi3 E K => ?run⟩
  case run =>
    simp only [cc1__nll_kernel_eq_skeleton]; unfold cc1__nll_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Region1RunB.lean ====
/- Region 1, the body at a point whose inner coordinate is 1 (the odd points): it adds the tile's sum to the
   accumulator the point before left, and copies the accumulator to the output block. The body's triple, with
   what the accumulator and the output block end with as lists of writes (last first). -/
import proofs.«419586_j34471407518059_3_alg».proof.Proof.KI.Region1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 1000000 in
/-- CASE B (reset not taken, flush taken). On whole memrefs — the three inputs' at their contents, the output's
    at anything, the accumulator's at the contents `xs0` the point before left — the body runs to the
    continuation holding the inputs' as they were, the accumulator's with the write `LS0` made (`xs0` plus the
    tile's sum) and the output's with the write `L3` made (that accumulator, reshaped). -/
noncomputable def kernelRun1_B (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x21x512x256 .f32) (x1 : Vec F S1x512x256 .i32) (x2 : Vec F S1x512x256 .f32) (xs0 : Vec F S1x1 .f32) :
    Σ' (L3 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__nll_kernel i arg2 harg2 arg3 harg3 arg4 harg4 arg5 harg5 arg6 harg6) K } := by
  refine ⟨?_, ?_, fun E K => ?run⟩
  case run =>
    simp only [cc1__nll_kernel_eq_skeleton]; unfold cc1__nll_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Region1.lean ====
/- Region 1 (the per-pixel loss kernel, grid (8,2)), its frame: what the accumulator and the output block hold
   after each point, by recursion on the point; the region's invariant carrying the accumulator's contents from
   one point to the next; the proof data and the body's obligation at every point; and the invariant's two ends.
   At an even point (inner coordinate 0) the accumulator is reset and then holds the tile's sum, the output block
   is left alone; at an odd point (inner coordinate 1) the accumulator adds the tile's sum to what the even point
   before left, and the output block receives it. -/
import proofs.«419586_j34471407518059_3_alg».proof.Proof.KI.Region1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What each case leaves -/

/-- An even point stores nothing into the output block: a placeholder nothing consults (the window is idle there:
    neither written back nor read at the next point). -/
def out1_A_3 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x21x512x256 .f32) (x1 : Vec F S1x512x256 .i32) (x2 : Vec F S1x512x256 .f32) : Vec F S1x1x1 .f32 :=
  VO1_3.read (Elt F) (VO1_3.writes (Elt F) VO1_3.junk (kernelRun1_A c i arg2 harg2 arg3 harg3 arg4 harg4 arg5 harg5 arg6 harg6 hc0 hc1 x0 x1 x2).1)

/-- At an even point the accumulator's writes cover it. -/
theorem scover1_A_0 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x21x512x256 .f32) (x1 : Vec F S1x512x256 .i32) (x2 : Vec F S1x512x256 .f32) (y : S1x1.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x1.size (by sl_kernel_rfl) y

/-- What an even point leaves in the accumulator: its writes read back. -/
def sout1_A_0 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x21x512x256 .f32) (x1 : Vec F S1x512x256 .i32) (x2 : Vec F S1x512x256 .f32) : Vec F S1x1 .f32 :=
  VS1_0.read (Elt F) (VS1_0.writes (Elt F) VS1_0.junk (kernelRun1_A c i arg2 harg2 arg3 harg3 arg4 harg4 arg5 harg5 arg6 harg6 hc0 hc1 x0 x1 x2).2.1)

/-- At an odd point the output block's one write covers it. -/
theorem cover1_B_3 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x21x512x256 .f32) (x1 : Vec F S1x512x256 .i32) (x2 : Vec F S1x512x256 .f32) (xs0 : Vec F S1x1 .f32) (y : S1x1x1.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S1x1x1.size (by sl_kernel_rfl) y

/-- What an odd point leaves in the output block: its write read back. -/
def out1_B_3 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x21x512x256 .f32) (x1 : Vec F S1x512x256 .i32) (x2 : Vec F S1x512x256 .f32) (xs0 : Vec F S1x1 .f32) : Vec F S1x1x1 .f32 :=
  VO1_3.read (Elt F) (VO1_3.writes (Elt F) VO1_3.junk (kernelRun1_B c i arg2 harg2 arg3 harg3 arg4 harg4 arg5 harg5 arg6 harg6 hc0 hc1 x0 x1 x2 xs0).1)

/-- At an odd point the accumulator's one write covers it. -/
theorem scover1_B_0 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x21x512x256 .f32) (x1 : Vec F S1x512x256 .i32) (x2 : Vec F S1x512x256 .f32) (xs0 : Vec F S1x1 .f32) (y : S1x1.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x1.size (by sl_kernel_rfl) y

/-- What an odd point leaves in the accumulator: its write read back. -/
def sout1_B_0 (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x21x512x256 .f32) (x1 : Vec F S1x512x256 .i32) (x2 : Vec F S1x512x256 .f32) (xs0 : Vec F S1x1 .f32) : Vec F S1x1 .f32 :=
  VS1_0.read (Elt F) (VS1_0.writes (Elt F) VS1_0.junk (kernelRun1_B c i arg2 harg2 arg3 harg3 arg4 harg4 arg5 harg5 arg6 harg6 hc0 hc1 x0 x1 x2 xs0).2.1)

/-! ## What the output block and the accumulator hold after each point -/

/-- After the body at position `n`: (the output block's staging buffer, the accumulator). An even position is case A
    at the point's blocks; an odd one is case B at the point's blocks over the accumulator the position before left. -/
def outsAt1 (c : Dev nD) : (n : ℕ) → n < cfg1.N → Vec F S1x1x1 .f32 × Vec F S1x1 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => by have h' := (hcond1_1 ⟨0, hn⟩).mp h; (try dsimp only at h'); omega) (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => by have h' := (hcond1_1 ⟨0, hn⟩).mp h; (try dsimp only at h'); omega) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => by have h' := (hcond1_1 ⟨n + 1, hn⟩).mp h; (try dsimp only at h'); omega) (iblk1 V c 0 ⟨n + 1, hn⟩) (iblk1 V c 1 ⟨n + 1, hn⟩) (iblk1 V c 2 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => by have h' := (hcond1_1 ⟨n + 1, hn⟩).mp h; (try dsimp only at h'); omega) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (outsAt1 c n (Nat.lt_of_succ_lt hn)).2)

/-- `outsAt1` at an even point: case A's contents. -/
theorem outsAt1_A (c : Dev nD) (t : Fin cfg1.N) (h0 : t.val % 2 = 0) :
    outsAt1 V c t.val t.isLt
      = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have h' := (hcond1_1 t).mp h; (try dsimp only at h'); omega) (iblk1 V c 0 t) (iblk1 V c 1 t) (iblk1 V c 2 t),
         sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have h' := (hcond1_1 t).mp h; (try dsimp only at h'); omega) (iblk1 V c 0 t) (iblk1 V c 1 t) (iblk1 V c 2 t)) := by
  obtain ⟨n, hn⟩ := t
  cases n with
  | zero => exact rfl
  | succ n => exact (dif_pos h0).trans rfl

/-- `outsAt1` at an odd point: case B's contents over what the point before left in the accumulator. -/
theorem outsAt1_B (c : Dev nD) (t : Fin cfg1.N) (h0 : ¬t.val % 2 = 0) :
    outsAt1 V c t.val t.isLt
      = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr (by (try dsimp only); omega)) (iblk1 V c 0 t) (iblk1 V c 1 t) (iblk1 V c 2 t) (outsAt1 V c (t.val - 1) (Nat.lt_of_le_of_lt (Nat.sub_le _ _) t.isLt)).2,
         sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr (by (try dsimp only); omega)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant -/

/-- Before position `n`: before the first point what the launch hands over (every scoped buffer outside the
    pipeline at anything, the generator register at some state); afterwards the same with the accumulator at what the
    position before left in it. -/
def PhiS1 (c : Dev nD) : (n : ℕ) → n ≤ cfg1.N → sProp 𝕄
  | 0, _ => Pipeline.ΦA spec1 c
  | n + 1, hn => iprop(iprop(held1 (F := F) c cc0_stg0_0 ∗ held1 (F := F) c cc0_stg0_1 ∗ held1 (F := F) c cc0_stg1_0 ∗ held1 (F := F) c cc0_stg1_1
      ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(held1 (F := F) c cc0_stg0_0 ∗ held1 (F := F) c cc0_stg0_1 ∗ held1 (F := F) c cc0_stg1_0 ∗ held1 (F := F) c cc0_stg1_1
      ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(held1 (F := F) c cc0_stg0_0 ∗ held1 (F := F) c cc0_stg0_1 ∗ held1 (F := F) c cc0_stg1_0 ∗ held1 (F := F) c cc0_stg1_1
      ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt1`'s first component; the invariant `PhiS1`; full shares;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's parity says which case it is. At an
    even point the invariant hands the body the accumulator at anything (what the launch left, or what the point before
    left: either is forgotten) and the output's buffer goes back as it came; at an odd point it hands it the
    accumulator at what the even point before left, and the output's buffer takes its write. Either way the accumulator
    goes back into the invariant at this point's contents, and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have hcA : cond1_0 (grid1.coords t) := (hcond1_0 t).mpr h0
    have hnB : ¬cond1_1 (grid1.coords t) := fun h => by have h' := (hcond1_1 t).mp h; omega
    rw [Dat.leavesExact_idle (dat1 V c) 3 t (idleAt1_3_A t hcA hnB) (noFlush1_3_A t hcA hnB)]
    rw [outsAt1_A V c t h0]
    unfold sout1_A_0; (try dsimp only)
    by_cases hz : t.val = 0
    · rw [PhiS1_castSucc V c t, PhiS1_zero V c _ _ hz, PhiA1_eq]
      iintro ⟨⟨⟨Ha, Hb, Hc, Hd, HS0⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) hcA hnB (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd HS0 Hg]
      · isplitr [Hg]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) hcA hnB (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha Hb Hc Hd HS0 Hg]
      · isplitr [Hg]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hnA : ¬cond1_0 (grid1.coords t) := fun h => h0 ((hcond1_0 t).mp h)
    have hcB : cond1_1 (grid1.coords t) := (hcond1_1 t).mpr (by omega)
    rw [show (dat1 V c).leavesExact 3 t = owns (c : Thread nD τ) (ms1_3 t) fullShare ((dat1 V c).after 3 t) from by
      unfold Dat.leavesExact; rw [liveAt1_3_B t hnA hcB], after1_3]
    rw [outsAt1_B V c t h0]
    unfold out1_B_3 sout1_B_0; (try dsimp only)
    have hz : t.val ≠ 0 := fun hz => h0 (by rw [hz])
    rw [PhiS1_castSucc V c t, PhiS1_pos V c _ _ hz]
    iintro ⟨⟨⟨Ha, Hb, Hc, Hd, HS0⟩, Hg⟩, Ho, ⟨%d0, H0⟩, ⟨%d1, H1⟩, ⟨%d2, H2⟩, ⟨%d3, H3⟩⟩
    iapply ((kernelRun1_B c (grid1.coords t) (ms1_0 t) (hs1_0 t) (ms1_1 t) (hs1_1 t) (ms1_2 t) (hs1_2 t) (ms1_3 t) (hs1_3 t) scM1_0 (Memref.isWhole_whole _) hnA hcB (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [Ha Hb Hc Hd HS0 Hg]
    · isplitr [Hg]
      · isplitl [Ha]; · iexact Ha
        isplitl [Hb]; · iexact Hb
        isplitl [Hc]; · iexact Hc
        isplitl [Hd]; · iexact Hd
        unfold owns; iexists _; isplitr
        swap; · iexact HS0
        ipureintro; exact View.read_writes_of_cover _ _ _ _ _ (scover1_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, HS0⟩, Hg⟩
  isplitr [Hg]
  · isplitl [Ha]; · iexact Ha
    isplitl [Hb]; · iexact Hb
    isplitl [Hc]; · iexact Hc
    isplitl [Hd]; · iexact Hd
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KI.HostArgs.lean ====
/-
  The argument arrays through the run. No host operation of either stretch writes an argument array, and a
  kernel region meets an argument array only as the array of an input window, which the region's write-backs
  leave as it was at entry (or not at all); so at every boundary of the run an argument array holds what the
  launch memory held.
-/
import proofs.«419586_j34471407518059_3_alg».proof.Proof.KI.Run
import proofs.«419586_j34471407518059_3_alg».proof.Proof.Gen.KernelIdeal.Regions

noncomputable section

namespace Cert.KernelIdeal.Hand

open Cert.KernelIdeal Cert.KernelIdeal.Gen
open Idealize.ShloMosaic Idealize.ShloMosaic.TcCoe
open Idealize.SL.Sem

variable {F : FTy → Type} [FloatOps F]
variable (D0 : Region0 F) (D1 : Region1 F)
variable (m : (ℓ : Loc nD τ sig) → Buf (Elt F) ℓ) (c : Dev nD)

/-! ## After region 0 -/

theorem W1_main_arg0 : W1 D0 m c (Proc.devRef .tc main_arg0) = m ((c : Thread nD τ).loc main_arg0) :=
  (W1_of_ne D0 m c main_arg0 (by decide)).trans rfl
/-- Region 0 reads the labels through its input window 0. -/
theorem W1_main_arg1 : W1 D0 m c (Proc.devRef .tc main_arg1) = m ((c : Thread nD τ).loc main_arg1) :=
  (W1_arr D0 m c 0).trans (((D0.dat (V0 m) c).arrAt_in 0 rfl _).trans ((D0.A_eq (V0 m) c 0).trans rfl))

/-! ## After the first host stretch -/

theorem W2_main_arg0 : W2 D0 m c (Proc.devRef .tc main_arg0) = m ((c : Thread nD τ).loc main_arg0) :=
  (StableHlo.after_of_writes_sub hostOps1 _ hostOps1_writes (by decide)).trans (W1_main_arg0 D0 m c)
theorem W2_main_arg1 : W2 D0 m c (Proc.devRef .tc main_arg1) = m ((c : Thread nD τ).loc main_arg1) :=
  (StableHlo.after_of_writes_sub hostOps1 _ hostOps1_writes (by decide)).trans (W1_main_arg1 D0 m c)

/-! ## After region 1 -/

/-- Region 1 reads the logits through its input window 0 … -/
theorem W3_main_arg0 : W3 D0 D1 m c (Proc.devRef .tc main_arg0) = m ((c : Thread nD τ).loc main_arg0) :=
  (W3_arr D0 D1 m c 0).trans (((D1.dat (V2 D0 m) c).arrAt_in 0 rfl _).trans
    ((D1.A_eq (V2 D0 m) c 0).trans (W2_main_arg0 D0 m c)))
/-- … and the labels through its input window 1. -/
theorem W3_main_arg1 : W3 D0 D1 m c (Proc.devRef .tc main_arg1) = m ((c : Thread nD τ).loc main_arg1) :=
  (W3_arr D0 D1 m c 1).trans (((D1.dat (V2 D0 m) c).arrAt_in 1 rfl _).trans
    ((D1.A_eq (V2 D0 m) c 1).trans (W2_main_arg1 D0 m c)))

/-! ## At the return -/

theorem W4_main_arg0 : W4 D0 D1 m c (Proc.devRef .tc main_arg0) = m ((c : Thread nD τ).loc main_arg0) :=
  (StableHlo.after_of_writes_sub hostOps2 _ hostOps2_writes (by decide)).trans (W3_main_arg0 D0 D1 m c)
theorem W4_main_arg1 : W4 D0 D1 m c (Proc.devRef .tc main_arg1) = m ((c : Thread nD τ).loc main_arg1) :=
  (StableHlo.after_of_writes_sub hostOps2 _ hostOps2_writes (by decide)).trans (W3_main_arg1 D0 D1 m c)

end Cert.KernelIdeal.Hand

end
-- ==== Proof.KI.Frame.lean ====
/-
  The two regions' proof data handed to the run, and the frame: every weakly fair execution of the program
  terminates, nothing faulting, and both argument arrays end as launched — no host operation writes an argument and
  each region only reads them through its input windows.
-/
import proofs.«419586_j34471407518059_3_alg».proof.Proof.KI.Run
import proofs.«419586_j34471407518059_3_alg».proof.Proof.KI.Region0
import proofs.«419586_j34471407518059_3_alg».proof.Proof.KI.Region1
import proofs.«419586_j34471407518059_3_alg».proof.Proof.KI.HostArgs

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Region 0 (the class counts): the class invariant throughout. -/
def D0 : Region0 F where
  dat V c := dat0 V c
  A_eq V c w := A_eq0 V c w
  q_eq _ _ _ := rfl
  owed_eq _ _ _ := rfl
  recorded_eq _ _ _ := rfl
  body V c := body_obligation0 V c
  hin V c := by rw [show (dat0 V c).Φ 0 = Pipeline.ΦA spec0 c from rfl]
  hout V c := by rw [show (dat0 V c).Φ (Fin.last cfg0.N) = Pipeline.ΦA spec0 c from rfl]

/-- Region 1 (the summed loss): the invariant carries the accumulator between the two tiles of a batch. -/
def D1 : Region1 F where
  dat V c := dat1 V c
  A_eq V c w := A_eq1 V c w
  q_eq _ _ _ := rfl
  owed_eq _ _ _ := rfl
  recorded_eq _ _ _ := rfl
  body V c := body_obligation1 V c
  hin V c := hin1 V c
  hout V c := hout1 V c

variable (m : (ℓ : Loc nD τ sig) → Buf (Elt F) ℓ) (ρ : Dev nD → PrngReg)

/-- The run with the two regions' data: every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 (D0 (F := F)) D1 m c b) :=
  run_main D0 D1 m ρ

/-- The frame: the program runs to the end and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_arg0 (by decide))).trans (W4_main_arg0 D0 D1 m c),
       (h c _ (mem_uc main_arg1 (by decide))).trans (W4_main_arg1 D0 D1 m c)⟩)
    (run_all m ρ)

end Cert.KernelIdeal.Hand

end
-- ==== Proof.KI.Value0.lean ====
/- REGION 0 of the kernel program, the value half at the ideal floats: what the per-class pixel counts kernel
   leaves in its output array. One class's count is the 0 / 1 mask of the pixels carrying that label, summed along
   the rows and then down the column of row sums; the stored vector is the 21 counts laid side by side; point b of
   the grid reads image b of the labels and writes row b of the counts. So, when the label array holds the words of
   lab b h w, entry (b, 0, k) of the counts array is the number of pixels of image b labelled k, as a real double
   sum of 0 / 1 read in the extended reals. -/
import proofs.«419586_j34471407518059_3_alg».proof.Proof.KI.Region0
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable {F : FTy → Type} [FloatOps F]

def classSum (v1 : IVec S512x512 32) (n : BitVec 32) : FVec F S1x1 .f32 :=
  shapeCast S1x1
    (multiReduction .add [0] S1
      (shapeCast S512x1
        (multiReduction .add [1] S512 (sitofp .f32 (extui 32 (cmpi .eq v1 (broadcast S512x512 n)) natLt_1_32))
          0x00000000#32 reduces_S512x512_S512 (.inl rfl) rfl)
        shapeCasts_S512_S512x1)
      0x00000000#32 reduces_S512x1_S1 (.inl rfl) rfl)
    shapeCasts_S1_S1x1

/-- The widened mask bit read as a signed integer is 1 or 0. -/
theorem toInt_setWidth_ofBool (b : Bool) : ((BitVec.ofBool b).setWidth 32).toInt = if b then 1 else 0 := by
  cases b <;> decide

/-- A class's count at the ideal floats: the number of pixels of the tile whose label word is n, as a double sum of 0 / 1. -/
theorem classSum_apply (v1 : IVec S512x512 32) (n : BitVec 32) :
    classSum (F := Ideal) v1 n (ix2 0 0)
      = ∑ h : Fin 512, ∑ w : Fin 512, (((if v1 (ix2 h w) = n then (1 : ℝ) else 0) : ℝ) : EReal) := by
  unfold classSum
  refine (shapeCast_a_1a_apply _ _ 0 0).trans ?_
  refine (Ideal.multiReduction_add_single _ _ _ _ _ (ix1 0)).trans ?_
  refine Finset.sum_congr rfl fun (h : Fin 512) _ => ?_
  refine (shapeCast_apply _ _ _ (ix1 h) (by
    rw [Shape.rowMajor_val_one, Shape.rowMajor_val_two]
    show h.val = h.val * 1 + 0
    omega)).trans ?_
  refine (Ideal.multiReduction_add_single _ _ _ _ _ (ix1 h)).trans ?_
  refine Finset.sum_congr rfl fun (w : Fin 512) _ => ?_
  have e : reduces_S512x512_S512.lift (ix1 h) w = ix2 h w := by
    funext a; apply Fin.ext
    match a with
    | ⟨0, _⟩ => rfl
    | ⟨1, _⟩ => rfl
  refine (congrArg (sitofp (F := Ideal) FTy.f32 (extui 32 (cmpi CmpIPredicate.eq v1 (broadcast S512x512 n)) natLt_1_32)) e).trans ?_
  show (((((BitVec.ofBool (v1 (ix2 h w) == n)).setWidth 32).toInt : ℝ)) : EReal) = _
  rw [toInt_setWidth_ofBool]
  by_cases e : v1 (ix2 h w) = n
  · simp [e]
  · simp [e]

/-! ## The stored vector, class by class -/

/-- The 21 counts side by side. -/
def countsRow (v1 : IVec S512x512 32) : Fin 21 → (S1x1.Idx → F .f32) := fun n => classSum (F := F) v1 (BitVec.ofNat 32 n.val)

/-- The stored vector is the 21 counts laid along the last axis. -/
theorem pay0_eq (v0 : Vec F S1x512x512 .i32) :
    pay0 v0 = shapeCast S1x1x21
      (concatenate S1x21 1 (List.ofFn fun n : Fin 21 => (⟨S1x1, countsRow (F := F) (k0_pay1 v0) n⟩ : (s : Shape) × (s.Idx → F .f32)))
        concatenates_S1x1_S1x1_S1x1_S1x1_S1x1_S1x1_S1x1_S1x1_S1x1_S1x1_S1x1_S1x1_S1x1_S1x1_S1x1_S1x1_S1x1_S1x1_S1x1_S1x1_S1x1_S1x21_d1)
      shapeCasts_S1x21_S1x1x21 := rfl

/-- Entry k of the stored vector is class k's count. -/
theorem pay0_apply (v0 : Vec Ideal S1x512x512 .i32) (k : Fin 21) :
    pay0 (F := Ideal) v0 (ix3 0 0 k) = classSum (F := Ideal) (k0_pay1 v0) (BitVec.ofNat 32 k.val) (ix2 0 0) := by
  rw [pay0_eq]
  refine (shapeCast_ab_1ab_apply _ _ 0 0 k).trans ?_
  exact concatenate_ofFn_unit_apply (t := S1x21) (s₁ := S1x1) (1 : Fin 2) (countsRow (F := Ideal) (k0_pay1 v0)) _ rfl rfl (ix2 0 k) k rfl (ix2 0 0)
    (fun b => match b with
      | ⟨0, _⟩ => fun _ => rfl
      | ⟨1, _⟩ => fun hb => absurd rfl hb)

/-- A finite sum of reals, each read in the extended reals, is the sum read there. -/
theorem coe_sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Two class words agree exactly when the classes do. -/
theorem ofNat_inj_class (a b : Fin 21) : BitVec.ofNat 32 a.val = BitVec.ofNat 32 b.val ↔ a = b := by
  constructor
  · intro h
    have h' := congrArg BitVec.toNat h
    simp only [BitVec.toNat_ofNat] at h'
    rw [Nat.mod_eq_of_lt (lt_trans a.isLt (by norm_num)), Nat.mod_eq_of_lt (lt_trans b.isLt (by norm_num))] at h'
    exact Fin.ext h'
  · rintro rfl; rfl

/-! ## From the blocks to the array -/

theorem hz3 : (![0, 0, 0] : Fin 3 → Nat) = fun _ => 0 := funext fun a => by fin_cases a <;> rfl

section Array

variable (V : (c : Dev nD) → (b : Ref sig .tc) → Buf (Elt Ideal) ((c : Thread nD τ).loc b))

/-- The index maps over the grid: point t takes image t of the labels and writes row t of the counts. -/
theorem idx_facts0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The per-image class counts as one array: entry (b, 0, k) is the number of pixels of image b labelled k. -/
def countsG (lab : Fin 8 → Fin 512 → Fin 512 → Fin 21) : S8x1x21.Idx → EReal :=
  fun i => (((∑ h : Fin 512, ∑ w : Fin 512, if lab (⟨(i 0).val, (i 0).isLt⟩ : Fin 8) h w = (⟨(i 2).val, (i 2).isLt⟩ : Fin 21) then (1 : ℝ) else 0) : ℝ) : EReal)

/-- The label block a point reads, at its literal type. -/
abbrev lblk (c : Dev nD) (t : Fin cfg0.N) : Vec Ideal S1x512x512 .i32 := iblk0 V c 0 t

/-- The label block at point t is image t of the label array. -/
theorem lblk_apply (c : Dev nD) (t : Fin cfg0.N) (h w : Fin 512) :
    lblk V c t (ix3 0 h w) = (V c main_arg1 : IVec S8x512x512 32) (ix3 (⟨t.val, t.isLt.trans_eq (show cfg0.N = 8 from N_0)⟩ : Fin 8) h w) := by
  obtain ⟨e0, e1, e2, e3, e4, e5⟩ := idx_facts0 t
  unfold lblk iblk0
  rw [View.read_apply]
  show V c main_arg1 _ = V c main_arg1 _
  congr 1
  funext a
  apply Fin.ext
  match a with
  | ⟨0, _⟩ => show win0_0.index t 0 * 1 + 1 * 0 = t.val; omega
  | ⟨1, _⟩ => show win0_0.index t 1 * 512 + 1 * h.val = h.val; omega
  | ⟨2, _⟩ => show win0_0.index t 2 * 512 + 1 * w.val = w.val; omega

/-- What point t writes back is block t of the counts array. -/
theorem flushed0_eq (c : Dev nD) (lab : Fin 8 → Fin 512 → Fin 512 → Fin 21)
    (hl : ∀ b h w, (V c main_arg1 : IVec S8x512x512 32) (ix3 b h w) = BitVec.ofNat 32 (lab b h w).val) (t : Fin cfg0.N) :
    (dat0 (F := Ideal) V c).flushed 1 t = ((cfg0.win 1).blk t).view.read (Elt Ideal) (countsG lab) := by
  show (cfg0.win 1).cut (grid0.coords t) ((dat0 V c).after 1 t) = _
  rw [after0_1]
  unfold out0_1
  rw [View.canon_unit_zero hz3]
  simp only [View.ld_unit_zero (S := S1x512x512) hz3]
  obtain ⟨e0, e1, e2, e3, e4, e5⟩ := idx_facts0 t
  funext j
  have hj0 : (j 0).val < 1 := (j 0).isLt
  have hj1 : (j 1).val < 1 := (j 1).isLt
  have hj2 : (j 2).val < 21 := (j 2).isLt
  obtain ⟨k, rfl⟩ : ∃ k : Fin 21, j = ix3 (0 : Fin 1) (0 : Fin 1) k := ⟨⟨(j 2).val, hj2⟩, by
    funext a; apply Fin.ext
    match a with
    | ⟨0, _⟩ => show (j 0).val = 0; omega
    | ⟨1, _⟩ => show (j 1).val = 0; omega
    | ⟨2, _⟩ => rfl⟩
  show pay0 (F := Ideal) (lblk V c t) (ix3 0 0 k) = countsG lab (((cfg0.win 1).blk t).view.emb (ix3 (0 : Fin 1) (0 : Fin 1) k))
  refine (pay0_apply (lblk V c t) k).trans ?_
  refine (classSum_apply (k0_pay1 (lblk V c t)) (BitVec.ofNat 32 k.val)).trans ?_
  have hb : t.val < 8 := t.isLt.trans_eq (show cfg0.N = 8 from N_0)
  have hE0 : ((((cfg0.win 1).blk t).view.emb (ix3 (0 : Fin 1) (0 : Fin 1) k)) 0).val = t.val := by
    show win0_1.index t 0 * 1 + 1 * 0 = t.val; omega
  have hE2 : ((((cfg0.win 1).blk t).view.emb (ix3 (0 : Fin 1) (0 : Fin 1) k)) 2).val = k.val := by
    show win0_1.index t 2 * 21 + 1 * k.val = k.val; omega
  unfold countsG
  rw [← coe_sum_real]
  refine Finset.sum_congr rfl fun h _ => ?_
  rw [← coe_sum_real]
  refine Finset.sum_congr rfl fun w _ => ?_
  have hv : k0_pay1 (lblk V c t) (ix2 h w) = BitVec.ofNat 32 (lab ⟨t.val, hb⟩ h w).val := by
    unfold k0_pay1
    refine (shapeCast_1ab_ab_apply _ _ h w).trans ?_
    rw [lblk_apply]
    exact hl _ h w
  rw [hv]
  refine congrArg _ (if_congr ?_ rfl rfl)
  rw [ofNat_inj_class]
  have hB : (⟨_, (((cfg0.win 1).blk t).view.emb (ix3 (0 : Fin 1) (0 : Fin 1) k) 0).isLt⟩ : Fin 8) = ⟨t.val, hb⟩ := Fin.ext hE0
  have hK : (⟨_, (((cfg0.win 1).blk t).view.emb (ix3 (0 : Fin 1) (0 : Fin 1) k) 2).isLt⟩ : Fin 21) = k := Fin.ext hE2
  rw [hB, hK]

/-- An index of the counts array is in point t's block iff each coordinate is in the block's range on its axis. -/
theorem mem_blk0 (t : Fin cfg0.N) (i : S8x1x21.Idx) :
    i ∈ ((cfg0.win 1).blk t).view.set ↔ ∀ a : Fin 3, win0_1.index t a * S1x1x21.size a ≤ (i a).val ∧ (i a).val < win0_1.index t a * S1x1x21.size a + S1x1x21.size a := by
  show i ∈ ((View.whole main_v0).slice (win0_1.rect t)).set ↔ _
  rw [View.set_slice_whole, Rect.mem_set_unit]
  exact Iff.rfl

/-- The counts array after region 0: every row is some point's block. -/
theorem counts_array (c : Dev nD) (lab : Fin 8 → Fin 512 → Fin 512 → Fin 21)
    (hl : ∀ b h w, (V c main_arg1 : IVec S8x512x512 32) (ix3 b h w) = BitVec.ofNat 32 (lab b h w).val) :
    (dat0 (F := Ideal) V c).arrAt 1 cfg0.N = countsG lab :=
  (dat0 (F := Ideal) V c).arrAt_eq_of_cover 1 (countsG lab) (fun t _ => flushed0_eq V c lab hl t) (fun i => by
    have hi0 : (i 0).val < 8 := (i 0).isLt
    have hi1 : (i 1).val < 1 := (i 1).isLt
    have hi2 : (i 2).val < 21 := (i 2).isLt
    obtain ⟨t, ht⟩ : ∃ t : Fin cfg0.N, t.val = (i 0).val := ⟨⟨(i 0).val, hi0.trans_eq (show cfg0.N = 8 from N_0).symm⟩, rfl⟩
    obtain ⟨e0, e1, e2, e3, e4, e5⟩ := idx_facts0 t
    refine ⟨t, flush0_1 t, ?_⟩
    rw [mem_blk0]
    intro a
    match a with
    | ⟨0, _⟩ => show win0_1.index t 0 * 1 ≤ (i 0).val ∧ (i 0).val < win0_1.index t 0 * 1 + 1; omega
    | ⟨1, _⟩ => show win0_1.index t 1 * 1 ≤ (i 1).val ∧ (i 1).val < win0_1.index t 1 * 1 + 1; omega
    | ⟨2, _⟩ => show win0_1.index t 2 * 21 ≤ (i 2).val ∧ (i 2).val < win0_1.index t 2 * 21 + 21; omega)

/-- What region 0 leaves in the counts array: entry (b, 0, k) is the number of pixels of image b labelled k. -/
theorem counts_partial (c : Dev nD) (lab : Fin 8 → Fin 512 → Fin 512 → Fin 21)
    (hl : ∀ b h w, (V c main_arg1 : IVec S8x512x512 32) (ix3 b h w) = BitVec.ofNat 32 (lab b h w).val)
    (b : Fin 8) (k : Fin 21) :
    ((dat0 (F := Ideal) V c).arrAt 1 cfg0.N : Vec Ideal S8x1x21 .f32) (ix3 b 0 k)
      = (((∑ h : Fin 512, ∑ w : Fin 512, if lab b h w = k then (1 : ℝ) else 0) : ℝ) : EReal) := by
  rw [counts_array V c lab hl]
  rfl

end Array

end Cert.KernelIdeal.Hand
end
-- ==== Proof.KI.Tile.lean ====
/-
  The tile step of the loss kernel as ONE function of the blocks it reads.

  At a grid point the body reads the logit block (one class plane at a time, every plane once for the running
  maximum and the label's logit, once more for the exponentials), the label block and the margin block, and adds
  the tile's summed loss to the running sum it keeps between the two tiles of a batch entry. `accNew` is that
  new running sum as the composition of the program's own payloads over the planes read; `zeroAcc` is what the
  first tile of a batch entry resets the running sum to, `flushVal` what the second tile writes out.
-/
import proofs.«419586_j34471407518059_3_alg».proof.Proof.Gen.KernelIdeal.Skeleton
import Idealize.ShloMosaic.Lib.Pipeline.FrameBody

noncomputable section

namespace Cert.KernelIdeal.Hand

open Idealize.ShloMosaic Idealize.SL.Sem
open Cert.KernelIdeal Cert.KernelIdeal.Gen

variable {F : FTy → Type} [FloatOps F]

/-! ## The boxes the body reads through -/

abbrev rP0 : Rect S1x21x512x256 := Rect.unit (s := S1x21x512x256) ![0, 0, 0, 0] S1x1x512x256.size inb_S1x21x512x256_S1x1x512x256_0_0_0_0
abbrev rP1 : Rect S1x21x512x256 := Rect.unit (s := S1x21x512x256) ![0, 1, 0, 0] S1x1x512x256.size inb_S1x21x512x256_S1x1x512x256_0_1_0_0
abbrev rP2 : Rect S1x21x512x256 := Rect.unit (s := S1x21x512x256) ![0, 2, 0, 0] S1x1x512x256.size inb_S1x21x512x256_S1x1x512x256_0_2_0_0
abbrev rP3 : Rect S1x21x512x256 := Rect.unit (s := S1x21x512x256) ![0, 3, 0, 0] S1x1x512x256.size inb_S1x21x512x256_S1x1x512x256_0_3_0_0
abbrev rP4 : Rect S1x21x512x256 := Rect.unit (s := S1x21x512x256) ![0, 4, 0, 0] S1x1x512x256.size inb_S1x21x512x256_S1x1x512x256_0_4_0_0
abbrev rP5 : Rect S1x21x512x256 := Rect.unit (s := S1x21x512x256) ![0, 5, 0, 0] S1x1x512x256.size inb_S1x21x512x256_S1x1x512x256_0_5_0_0
abbrev rP6 : Rect S1x21x512x256 := Rect.unit (s := S1x21x512x256) ![0, 6, 0, 0] S1x1x512x256.size inb_S1x21x512x256_S1x1x512x256_0_6_0_0
abbrev rP7 : Rect S1x21x512x256 := Rect.unit (s := S1x21x512x256) ![0, 7, 0, 0] S1x1x512x256.size inb_S1x21x512x256_S1x1x512x256_0_7_0_0
abbrev rP8 : Rect S1x21x512x256 := Rect.unit (s := S1x21x512x256) ![0, 8, 0, 0] S1x1x512x256.size inb_S1x21x512x256_S1x1x512x256_0_8_0_0
abbrev rP9 : Rect S1x21x512x256 := Rect.unit (s := S1x21x512x256) ![0, 9, 0, 0] S1x1x512x256.size inb_S1x21x512x256_S1x1x512x256_0_9_0_0
abbrev rP10 : Rect S1x21x512x256 := Rect.unit (s := S1x21x512x256) ![0, 10, 0, 0] S1x1x512x256.size inb_S1x21x512x256_S1x1x512x256_0_10_0_0
abbrev rP11 : Rect S1x21x512x256 := Rect.unit (s := S1x21x512x256) ![0, 11, 0, 0] S1x1x512x256.size inb_S1x21x512x256_S1x1x512x256_0_11_0_0
abbrev rP12 : Rect S1x21x512x256 := Rect.unit (s := S1x21x512x256) ![0, 12, 0, 0] S1x1x512x256.size inb_S1x21x512x256_S1x1x512x256_0_12_0_0
abbrev rP13 : Rect S1x21x512x256 := Rect.unit (s := S1x21x512x256) ![0, 13, 0, 0] S1x1x512x256.size inb_S1x21x512x256_S1x1x512x256_0_13_0_0
abbrev rP14 : Rect S1x21x512x256 := Rect.unit (s := S1x21x512x256) ![0, 14, 0, 0] S1x1x512x256.size inb_S1x21x512x256_S1x1x512x256_0_14_0_0
abbrev rP15 : Rect S1x21x512x256 := Rect.unit (s := S1x21x512x256) ![0, 15, 0, 0] S1x1x512x256.size inb_S1x21x512x256_S1x1x512x256_0_15_0_0
abbrev rP16 : Rect S1x21x512x256 := Rect.unit (s := S1x21x512x256) ![0, 16, 0, 0] S1x1x512x256.size inb_S1x21x512x256_S1x1x512x256_0_16_0_0
abbrev rP17 : Rect S1x21x512x256 := Rect.unit (s := S1x21x512x256) ![0, 17, 0, 0] S1x1x512x256.size inb_S1x21x512x256_S1x1x512x256_0_17_0_0
abbrev rP18 : Rect S1x21x512x256 := Rect.unit (s := S1x21x512x256) ![0, 18, 0, 0] S1x1x512x256.size inb_S1x21x512x256_S1x1x512x256_0_18_0_0
abbrev rP19 : Rect S1x21x512x256 := Rect.unit (s := S1x21x512x256) ![0, 19, 0, 0] S1x1x512x256.size inb_S1x21x512x256_S1x1x512x256_0_19_0_0
abbrev rP20 : Rect S1x21x512x256 := Rect.unit (s := S1x21x512x256) ![0, 20, 0, 0] S1x1x512x256.size inb_S1x21x512x256_S1x1x512x256_0_20_0_0

/-- The whole label block. -/
abbrev rT : Rect S1x512x256 := Rect.unit (s := S1x512x256) ![0, 0, 0] S1x512x256.size inb_S1x512x256_S1x512x256_0_0_0

/-- The whole margin block (the same box: the two blocks have one shape). -/
abbrev rM : Rect S1x512x256 := Rect.unit (s := S1x512x256) ![0, 0, 0] S1x512x256.size inb_S1x512x256_S1x512x256_0_0_0

/-- The whole running sum. -/
abbrev rAcc : Rect S1x1 := Rect.unit (s := S1x1) ![0, 0] S1x1.size inb_S1x1_S1x1_0_0

/-! ## The running sum after a tile -/

/-- The running sum after the tile whose logit, label and margin blocks read `x0`, `x1`, `x2`, from the running
    sum `acc` before it: the program's payloads over the planes loaded, named as the program names them. -/
def accNew (x0 : Vec F S1x21x512x256 .f32) (x1 : Vec F S1x512x256 .i32) (x2 : Vec F S1x512x256 .f32) (acc : Vec F S1x1 .f32) :
    FVec F S1x1 .f32 :=
  -- first pass: the running maximum of the scaled logits and the label's own logit
  have v3 : Vec F S1x512x256 .i32 := View.ld x1 rT
  have v5 : Vec F S1x1x512x256 .f32 := View.ld x0 rP0
  have v13 : Vec F S1x1x512x256 .f32 := View.ld x0 rP1
  have v21 : Vec F S1x1x512x256 .f32 := View.ld x0 rP2
  have v4 : IVec S512x256 32 := k1_pay4 v3
  have v27 : FVec F S512x256 .f32 := k1_pay8 v5 v13 v21
  have v28 : FVec F S512x256 .f32 := k1_pay9 v3 v5 v13 v21
  have v29 : Vec F S1x1x512x256 .f32 := View.ld x0 rP3
  have v37 : Vec F S1x1x512x256 .f32 := View.ld x0 rP4
  have v45 : Vec F S1x1x512x256 .f32 := View.ld x0 rP5
  have v53 : Vec F S1x1x512x256 .f32 := View.ld x0 rP6
  have v61 : Vec F S1x1x512x256 .f32 := View.ld x0 rP7
  have v59 : FVec F S512x256 .f32 := k1_pay14 v27 v29 v37 v45 v53
  have v60 : FVec F S512x256 .f32 := k1_pay15 v4 v28 v29 v37 v45 v53
  have v62 : FVec F S512x256 .f32 := k1_pay16 v61
  have v63 : FVec F S512x256 .f32 := k1_pay17 (F := F)
  have v69 : Vec F S1x1x512x256 .f32 := View.ld x0 rP8
  have v77 : Vec F S1x1x512x256 .f32 := View.ld x0 rP9
  have v85 : Vec F S1x1x512x256 .f32 := View.ld x0 rP10
  have v93 : Vec F S1x1x512x256 .f32 := View.ld x0 rP11
  have v91 : FVec F S512x256 .f32 := k1_pay21 v59 v62 v63 v69 v77 v85
  have v92 : FVec F S512x256 .f32 := k1_pay22 v4 v60 v62 v69 v77 v85
  have v94 : FVec F S512x256 .f32 := k1_pay23 v93
  have v96 : FVec F S512x256 .f32 := k1_pay24 v93
  have v98 : IVec S512x256 1 := k1_pay25 v4
  have v101 : Vec F S1x1x512x256 .f32 := View.ld x0 rP12
  have v109 : Vec F S1x1x512x256 .f32 := View.ld x0 rP13
  have v117 : Vec F S1x1x512x256 .f32 := View.ld x0 rP14
  have v125 : Vec F S1x1x512x256 .f32 := View.ld x0 rP15
  have v131 : FVec F S512x256 .f32 := k1_pay30 v91 v96 v101 v109 v117 v125
  have v132 : FVec F S512x256 .f32 := k1_pay31 v4 v92 v94 v98 v101 v109 v117 v125
  have v133 : Vec F S1x1x512x256 .f32 := View.ld x0 rP16
  have v141 : Vec F S1x1x512x256 .f32 := View.ld x0 rP17
  have v149 : Vec F S1x1x512x256 .f32 := View.ld x0 rP18
  have v157 : Vec F S1x1x512x256 .f32 := View.ld x0 rP19
  have v165 : Vec F S1x1x512x256 .f32 := View.ld x0 rP20
  have v163 : FVec F S512x256 .f32 := k1_pay36 v131 v133 v141 v149 v157
  have v164 : FVec F S512x256 .f32 := k1_pay37 v4 v132 v133 v141 v149 v157
  have v166 : FVec F S512x256 .f32 := k1_pay38 v165
  -- the margin, the label's margined logit; second pass: the exponentials, summed class by class
  have v173 : Vec F S1x512x256 .f32 := View.ld x2 rM
  have v181 : Vec F S1x1x512x256 .f32 := View.ld x0 rP0
  have v192 : Vec F S1x1x512x256 .f32 := View.ld x0 rP1
  have v171 : FVec F S512x256 .f32 := k1_pay39 v163 v166
  have v176 : FVec F S512x256 .f32 := k1_pay40 v173
  have v179 : FVec F S512x256 .f32 := k1_pay41 v4 v164 v166 v173
  have v202 : FVec F S512x256 .f32 := k1_pay42 v4 v163 v166 v173 v181 v192
  have v203 : Vec F S1x1x512x256 .f32 := View.ld x0 rP2
  have v214 : Vec F S1x1x512x256 .f32 := View.ld x0 rP3
  have v225 : Vec F S1x1x512x256 .f32 := View.ld x0 rP4
  have v236 : Vec F S1x1x512x256 .f32 := View.ld x0 rP5
  have v235 : FVec F S512x256 .f32 := k1_pay43 v4 v171 v176 v202 v203 v214 v225
  have v239 : FVec F S512x256 .f32 := k1_pay44 v236
  have v241 : IVec S512x256 1 := k1_pay45 v4
  have v242 : FVec F S512x256 .f32 := k1_pay46 v176 v236
  have v247 : Vec F S1x1x512x256 .f32 := View.ld x0 rP6
  have v258 : Vec F S1x1x512x256 .f32 := View.ld x0 rP7
  have v269 : Vec F S1x1x512x256 .f32 := View.ld x0 rP8
  have v280 : Vec F S1x1x512x256 .f32 := View.ld x0 rP9
  have v279 : FVec F S512x256 .f32 := k1_pay47 v4 v171 v176 v235 v239 v241 v242 v247 v258 v269
  have v291 : Vec F S1x1x512x256 .f32 := View.ld x0 rP10
  have v302 : Vec F S1x1x512x256 .f32 := View.ld x0 rP11
  have v313 : Vec F S1x1x512x256 .f32 := View.ld x0 rP12
  have v312 : FVec F S512x256 .f32 := k1_pay48 v4 v171 v176 v279 v280 v291 v302
  have v320 : FVec F S512x256 .f32 := k1_pay49 v4 v176 v313
  have v324 : Vec F S1x1x512x256 .f32 := View.ld x0 rP13
  have v335 : Vec F S1x1x512x256 .f32 := View.ld x0 rP14
  have v346 : Vec F S1x1x512x256 .f32 := View.ld x0 rP15
  have v357 : Vec F S1x1x512x256 .f32 := View.ld x0 rP16
  have v356 : FVec F S512x256 .f32 := k1_pay50 v4 v171 v176 v312 v320 v324 v335 v346
  have v358 : FVec F S512x256 .f32 := k1_pay51 v357
  have v368 : Vec F S1x1x512x256 .f32 := View.ld x0 rP17
  have v379 : Vec F S1x1x512x256 .f32 := View.ld x0 rP18
  have v390 : Vec F S1x1x512x256 .f32 := View.ld x0 rP19
  have v389 : FVec F S512x256 .f32 := k1_pay52 v4 v171 v176 v356 v358 v368 v379
  have v398 : FVec F S512x256 .f32 := k1_pay53 v4 v171 v176 v390
  have v401 : Vec F S1x1x512x256 .f32 := View.ld x0 rP20
  -- the last two classes, the logarithm, the two lane sums, added to the running sum
  k1_pay1 v4 v171 v176 v179 v389 v398 v401 acc

/-- What the second tile of a batch entry writes out: the running sum, reshaped. -/
def flushVal (s : Vec F S1x1 .f32) : FVec F S1x1x1 .f32 := k1_pay2 s

/-- What the first tile of a batch entry resets the running sum to. -/
def zeroAcc : FVec F S1x1 .f32 := k1_pay3 (F := F)

end Cert.KernelIdeal.Hand

end
-- ==== Proof.KI.Region1Vals.lean ====
/- Region 1: the values the two cases of the body leave, as the tile function of the three input blocks.
   An even point leaves in the accumulator the tile's sum added to zero; an odd point leaves the tile's sum
   added to the accumulator it found, and puts that, reshaped, into the output block. -/
import proofs.«419586_j34471407518059_3_alg».proof.Proof.KI.Region1
import proofs.«419586_j34471407518059_3_alg».proof.Proof.KI.Tile
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The accumulator's and the output block's stores are at zero offsets. -/
theorem off2_zero : (![0, 0] : Fin S1x1.rank → Nat) = fun _ => 0 := by
  funext a; fin_cases a <;> rfl
theorem off3_zero : (![0, 0, 0] : Fin S1x1x1.rank → Nat) = fun _ => 0 := by
  funext a; fin_cases a <;> rfl

/-- After an even point the accumulator holds the tile's sum added to zero. -/
theorem sout1_A_0_eq (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : cond1_0 i) (hc1 : ¬cond1_1 i)
    (x0 : Vec F S1x21x512x256 .f32) (x1 : Vec F S1x512x256 .i32) (x2 : Vec F S1x512x256 .f32) :
    sout1_A_0 c i arg2 harg2 arg3 harg3 arg4 harg4 arg5 harg5 arg6 harg6 hc0 hc1 x0 x1 x2 = accNew x0 x1 x2 (zeroAcc (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_run_names
  rw [View.canon_cons_unit_zero (S := S1x1) off2_zero]
  simp only [View.readCov_unit_zero (S := S1x1) _ off2_zero, View.readAt_eq_ld, harg2.read_unread, harg3.read_unread, harg4.read_unread]
  unfold accNew zeroAcc
  rfl

/-- After an odd point the accumulator holds the tile's sum added to what it held before. -/
theorem sout1_B_0_eq (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x21x512x256 .f32) (x1 : Vec F S1x512x256 .i32) (x2 : Vec F S1x512x256 .f32) (xs0 : Vec F S1x1 .f32) :
    sout1_B_0 c i arg2 harg2 arg3 harg3 arg4 harg4 arg5 harg5 arg6 harg6 hc0 hc1 x0 x1 x2 xs0 = accNew x0 x1 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_run_names
  rw [View.canon_unit_zero (S := S1x1) off2_zero]
  simp only [View.readAt_eq_ld, harg2.read_unread, harg3.read_unread, harg4.read_unread, harg6.read_unread, View.ld_unit_zero (S := S1x1) off2_zero]
  unfold accNew
  rfl

/-- After an odd point the output block holds that accumulator, reshaped. -/
theorem out1_B_3_eq (c : Dev nD) (i : grid1.Coords) (arg2 : Memref sig .tc .vmem S1x21x512x256 .f32) (harg2 : arg2.IsWhole) (arg3 : Memref sig .tc .vmem S1x512x256 .i32) (harg3 : arg3.IsWhole) (arg4 : Memref sig .tc .vmem S1x512x256 .f32) (harg4 : arg4.IsWhole) (arg5 : Memref sig .tc .vmem S1x1x1 .f32) (harg5 : arg5.IsWhole) (arg6 : Memref sig .tc .vmem S1x1 .f32) (harg6 : arg6.IsWhole) (hc0 : ¬cond1_0 i) (hc1 : cond1_1 i)
    (x0 : Vec F S1x21x512x256 .f32) (x1 : Vec F S1x512x256 .i32) (x2 : Vec F S1x512x256 .f32) (xs0 : Vec F S1x1 .f32) :
    out1_B_3 c i arg2 harg2 arg3 harg3 arg4 harg4 arg5 harg5 arg6 harg6 hc0 hc1 x0 x1 x2 xs0 = flushVal (accNew x0 x1 x2 xs0) := by
  unfold out1_B_3
  rw [View.read_writes_eq_canon _ _ _ (cover1_B_3 c i arg2 harg2 arg3 harg3 arg4 harg4 arg5 harg5 arg6 harg6 hc0 hc1 x0 x1 x2 xs0)]
  unfold kernelRun1_B
  dsimp only
  sl_unfold_run_names
  rw [View.canon_unit_zero (S := S1x1x1) off3_zero]
  simp only [View.readCov_unit_zero (S := S1x1) _ off2_zero, View.readAt_eq_ld, harg2.read_unread, harg3.read_unread, harg4.read_unread, harg6.read_unread, View.ld_unit_zero (S := S1x1) off2_zero]
  unfold flushVal accNew
  rfl

/-! ## Point by point -/

/-- After an even point the accumulator holds that point's tile sum added to zero. -/
theorem acc_even (c : Dev nD) (t : Fin cfg1.N) (h0 : t.val % 2 = 0) :
    (outsAt1 V c t.val t.isLt).2 = accNew (iblk1 V c 0 t) (iblk1 V c 1 t) (iblk1 V c 2 t) (zeroAcc (F := F)) := by
  rw [outsAt1_A V c t h0]
  exact sout1_A_0_eq (F := F) c (grid1.coords t) (ms1_0 t) (hs1_0 t) (ms1_1 t) (hs1_1 t) (ms1_2 t) (hs1_2 t) (ms1_3 t) (hs1_3 t) scM1_0 (Memref.isWhole_whole _)
    ((hcond1_0 t).mpr h0) (fun h => by have h' := (hcond1_1 t).mp h; omega) _ _ _

/-- After an odd point the accumulator holds that point's tile sum added to the tile sum of the even point before it. -/
theorem acc_odd (c : Dev nD) (t : Fin cfg1.N) (h1 : t.val % 2 = 1) :
    (outsAt1 V c t.val t.isLt).2
      = accNew (iblk1 V c 0 t) (iblk1 V c 1 t) (iblk1 V c 2 t)
          (accNew (iblk1 V c 0 ⟨t.val - 1, Nat.lt_of_le_of_lt (Nat.sub_le _ _) t.isLt⟩) (iblk1 V c 1 ⟨t.val - 1, Nat.lt_of_le_of_lt (Nat.sub_le _ _) t.isLt⟩) (iblk1 V c 2 ⟨t.val - 1, Nat.lt_of_le_of_lt (Nat.sub_le _ _) t.isLt⟩) (zeroAcc (F := F))) := by
  rw [outsAt1_B V c t (by omega)]
  refine (sout1_B_0_eq (F := F) c (grid1.coords t) (ms1_0 t) (hs1_0 t) (ms1_1 t) (hs1_1 t) (ms1_2 t) (hs1_2 t) (ms1_3 t) (hs1_3 t) scM1_0 (Memref.isWhole_whole _)
    (fun h => by have h' := (hcond1_0 t).mp h; omega) ((hcond1_1 t).mpr h1) _ _ _ _).trans ?_
  exact congrArg (accNew (iblk1 V c 0 t) (iblk1 V c 1 t) (iblk1 V c 2 t))
    (acc_even V c ⟨t.val - 1, Nat.lt_of_le_of_lt (Nat.sub_le _ _) t.isLt⟩ (by show (t.val - 1) % 2 = 0; omega))

/-- After an odd point the output block holds, reshaped, the two tile sums of its batch entry added to zero. -/
theorem out_odd (c : Dev nD) (t : Fin cfg1.N) (h1 : t.val % 2 = 1) :
    (outsAt1 V c t.val t.isLt).1
      = flushVal (accNew (iblk1 V c 0 t) (iblk1 V c 1 t) (iblk1 V c 2 t)
          (accNew (iblk1 V c 0 ⟨t.val - 1, Nat.lt_of_le_of_lt (Nat.sub_le _ _) t.isLt⟩) (iblk1 V c 1 ⟨t.val - 1, Nat.lt_of_le_of_lt (Nat.sub_le _ _) t.isLt⟩) (iblk1 V c 2 ⟨t.val - 1, Nat.lt_of_le_of_lt (Nat.sub_le _ _) t.isLt⟩) (zeroAcc (F := F)))) := by
  rw [outsAt1_B V c t (by omega)]
  refine (out1_B_3_eq (F := F) c (grid1.coords t) (ms1_0 t) (hs1_0 t) (ms1_1 t) (hs1_1 t) (ms1_2 t) (hs1_2 t) (ms1_3 t) (hs1_3 t) scM1_0 (Memref.isWhole_whole _)
    (fun h => by have h' := (hcond1_0 t).mp h; omega) ((hcond1_1 t).mpr h1) _ _ _ _).trans ?_
  exact congrArg (fun a => flushVal (accNew (iblk1 V c 0 t) (iblk1 V c 1 t) (iblk1 V c 2 t) a))
    (acc_even V c ⟨t.val - 1, Nat.lt_of_le_of_lt (Nat.sub_le _ _) t.isLt⟩ (by show (t.val - 1) % 2 = 0; omega))

end Cert.KernelIdeal.Hand

end
-- ==== Proof.Spec.lean ====
/-
  The loss both programs compute, over the reals. A pixel has 21 class logits `x`, a label `l` and the margin
  `mt` of its label's class. The margin is taken off the label's own scaled logit only, and the pixel's loss is
  the negated log-softmax of the scaled, margined logits at the label.
  One program shifts the logits by the largest RAW scaled logit before exponentiating (`nllK`), the other by the
  largest MARGINED one (`nllR`); the log-sum-exp of a family does not depend on the shift, so the two agree
  (`nllK_eq_nllR`, in PixelMath.lean). The mean over all pixels is the total times 2⁻²¹, or divided by 2²¹.
-/
import Mathlib.Analysis.SpecialFunctions.Log.Basic
import Mathlib.Algebra.BigOperators.Fin
import Mathlib.Order.Fin.Basic

noncomputable section

namespace Cert.Ldam

open Finset

/-- Class `c`'s logit scaled by 30, the label's own lowered by 30 times the margin. -/
def marg (x : Fin 21 → ℝ) (l : Fin 21) (mt : ℝ) (c : Fin 21) : ℝ :=
  if c = l then 30 * x c - 30 * mt else 30 * x c

/-- The largest raw scaled logit. -/
def rawMax (x : Fin 21 → ℝ) : ℝ := Finset.univ.sup' Finset.univ_nonempty fun c => 30 * x c

/-- The pixel's loss with the exponentials shifted by the raw maximum. -/
def nllK (x : Fin 21 → ℝ) (l : Fin 21) (mt : ℝ) : ℝ :=
  rawMax x + Real.log (∑ c, Real.exp (marg x l mt c - rawMax x)) - (30 * x l - 30 * mt)

/-- Class `c`'s margined logit, scaled: the margin times the label's indicator taken off first. -/
def margR (x : Fin 21 → ℝ) (l : Fin 21) (mt : ℝ) (c : Fin 21) : ℝ :=
  30 * (x c - mt * (if c = l then 1 else 0))

/-- The largest margined scaled logit. -/
def maxR (x : Fin 21 → ℝ) (l : Fin 21) (mt : ℝ) : ℝ := Finset.univ.sup' Finset.univ_nonempty (margR x l mt)

/-- The pixel's loss as the negated log-softmax at the label, shifted by the margined maximum. -/
def nllR (x : Fin 21 → ℝ) (l : Fin 21) (mt : ℝ) : ℝ :=
  -((margR x l mt l - maxR x l mt) - Real.log (∑ c, Real.exp (margR x l mt c - maxR x l mt)))

/-- How many pixels carry label `c`. -/
def cnt (lab : Fin 8 → Fin 512 → Fin 512 → Fin 21) (c : Fin 21) : ℝ :=
  ∑ b, ∑ h, ∑ w, if lab b h w = c then (1 : ℝ) else 0

/-- The summed loss, each pixel's margin the entry of `mr` at its label. -/
def totalK (x : Fin 8 → Fin 21 → Fin 512 → Fin 512 → ℝ) (lab : Fin 8 → Fin 512 → Fin 512 → Fin 21) (mr : Fin 21 → ℝ) : ℝ :=
  ∑ b, ∑ h, ∑ w, nllK (fun c => x b c h w) (lab b h w) (mr (lab b h w))

def totalR (x : Fin 8 → Fin 21 → Fin 512 → Fin 512 → ℝ) (lab : Fin 8 → Fin 512 → Fin 512 → Fin 21) (mr : Fin 21 → ℝ) : ℝ :=
  ∑ b, ∑ h, ∑ w, nllR (fun c => x b c h w) (lab b h w) (mr (lab b h w))

end Cert.Ldam

end
-- ==== Proof.Consts.lean ====
/-
  The float constants both programs spell, as the extended reals their IEEE single-precision patterns denote.
  Each pattern is read once here: sign bit, eight exponent bits (bias 127), twenty-three fraction bits. A normal
  pattern denotes (2²³ + fraction) · 2^(exponent − 150); the all-ones exponent with zero fraction denotes ±∞.
  Every constant is stated in three spellings of the same extended real: the pattern's denotation itself, the
  denotation through the float-operations interface (which scalar constants use), and an entry of a constant vector.
-/
import Mathlib.Data.Real.Basic
import Mathlib.Data.EReal.Basic
import Mathlib.Tactic.NormNum
import Idealize.ShloMosaic.PureOps.Ideal

noncomputable section

namespace Cert.Ldam

open Idealize.ShloMosaic

/-- The small positive number added to every count before the fourth root: 13743895 · 2⁻³⁷ (about 10⁻⁴). -/
def eps : ℝ := 13743895 / 137438953472

theorem eps_pos : 0 < eps := by unfold eps; norm_num

/-! ### The patterns' denotations -/

/-- Exponent 131, fraction 7 · 2²⁰: (8 + 7) · 2²⁰ · 2⁻¹⁹ = 30. -/
theorem ofBits_30 : Ideal.ofBits .f32 0x41F00000#32 = ((30 : ℝ) : EReal) := by
  simp [Ideal.ofBits, Ideal.ieee, -EReal.coe_mul]; norm_num

/-- Exponent 127, fraction 0: 2²³ · 2⁻²³ = 1. -/
theorem ofBits_one : Ideal.ofBits .f32 0x3F800000#32 = 1 := by
  simp [Ideal.ofBits, Ideal.ieee, -EReal.coe_mul]; norm_num

/-- Exponent 126, fraction 0: 2²³ · 2⁻²⁴ = ½. -/
theorem ofBits_half : Ideal.ofBits .f32 0x3F000000#32 = ((1 / 2 : ℝ) : EReal) := by
  simp [Ideal.ofBits, Ideal.ieee, -EReal.coe_mul]; norm_num

/-- All bits clear: zero. -/
theorem ofBits_zero : Ideal.ofBits .f32 0x00000000#32 = 0 := by
  simp [Ideal.ofBits, Ideal.ieee]

/-- Exponent 106, fraction 0: 2²³ · 2⁻⁴⁴ = 2⁻²¹. -/
theorem ofBits_inv2097152 : Ideal.ofBits .f32 0x35000000#32 = (((1 : ℝ) / 2097152 : ℝ) : EReal) := by
  simp [Ideal.ofBits, Ideal.ieee, -EReal.coe_mul]; norm_num

/-- Exponent 148, fraction 0: 2²³ · 2⁻² = 2²¹. -/
theorem ofBits_2097152 : Ideal.ofBits .f32 0x4A000000#32 = ((2097152 : ℝ) : EReal) := by
  simp [Ideal.ofBits, Ideal.ieee, -EReal.coe_mul]; norm_num

/-- Sign set, all-ones exponent, fraction 0: −∞. -/
theorem ofBits_negInf : Ideal.ofBits .f32 0xFF800000#32 = ⊥ := by
  simp [Ideal.ofBits, Ideal.ieee]

/-- Sign clear, all-ones exponent, fraction 0: +∞. -/
theorem ofBits_posInf : Ideal.ofBits .f32 0x7F800000#32 = ⊤ := by
  simp [Ideal.ofBits, Ideal.ieee]

/-- Exponent 113, fraction 5355287: (2²³ + 5355287) · 2⁻³⁷ = 13743895 · 2⁻³⁷. -/
theorem ofBits_eps : Ideal.ofBits .f32 0x38D1B717#32 = ((eps : ℝ) : EReal) := by
  simp [Ideal.ofBits, Ideal.ieee, -EReal.coe_mul, eps]; norm_num

/-! ### The same through the float-operations interface (the spelling of scalar constants) -/

theorem fofBits_30 : FloatOps.ofBits (F := Ideal) .f32 0x41F00000#32 = ((30 : ℝ) : EReal) := ofBits_30
theorem fofBits_one : FloatOps.ofBits (F := Ideal) .f32 0x3F800000#32 = 1 := ofBits_one
theorem fofBits_half : FloatOps.ofBits (F := Ideal) .f32 0x3F000000#32 = ((1 / 2 : ℝ) : EReal) := ofBits_half
theorem fofBits_zero : FloatOps.ofBits (F := Ideal) .f32 0x00000000#32 = 0 := ofBits_zero
theorem fofBits_inv2097152 : FloatOps.ofBits (F := Ideal) .f32 0x35000000#32 = (((1 : ℝ) / 2097152 : ℝ) : EReal) :=
  ofBits_inv2097152
theorem fofBits_2097152 : FloatOps.ofBits (F := Ideal) .f32 0x4A000000#32 = ((2097152 : ℝ) : EReal) := ofBits_2097152
theorem fofBits_negInf : FloatOps.ofBits (F := Ideal) .f32 0xFF800000#32 = ⊥ := ofBits_negInf
theorem fofBits_posInf : FloatOps.ofBits (F := Ideal) .f32 0x7F800000#32 = ⊤ := ofBits_posInf
theorem fofBits_eps : FloatOps.ofBits (F := Ideal) .f32 0x38D1B717#32 = ((eps : ℝ) : EReal) := ofBits_eps

/-! ### The same as an entry of a constant vector, at any shape and index -/

section Vec
variable {s : Shape} (i : s.Idx)

theorem constant_30 : (constant s .f32 0x41F00000#32 : FVec Ideal s .f32) i = ((30 : ℝ) : EReal) := ofBits_30
theorem constant_one : (constant s .f32 0x3F800000#32 : FVec Ideal s .f32) i = 1 := ofBits_one
theorem constant_half : (constant s .f32 0x3F000000#32 : FVec Ideal s .f32) i = ((1 / 2 : ℝ) : EReal) := ofBits_half
theorem constant_zero : (constant s .f32 0x00000000#32 : FVec Ideal s .f32) i = 0 := ofBits_zero
theorem constant_inv2097152 :
    (constant s .f32 0x35000000#32 : FVec Ideal s .f32) i = (((1 : ℝ) / 2097152 : ℝ) : EReal) := ofBits_inv2097152
theorem constant_2097152 : (constant s .f32 0x4A000000#32 : FVec Ideal s .f32) i = ((2097152 : ℝ) : EReal) :=
  ofBits_2097152
theorem constant_negInf : (constant s .f32 0xFF800000#32 : FVec Ideal s .f32) i = ⊥ := ofBits_negInf
theorem constant_posInf : (constant s .f32 0x7F800000#32 : FVec Ideal s .f32) i = ⊤ := ofBits_posInf
theorem constant_eps : (constant s .f32 0x38D1B717#32 : FVec Ideal s .f32) i = ((eps : ℝ) : EReal) := ofBits_eps

end Vec

end Cert.Ldam

end
-- ==== Proof.KI.TileValueA.lean ====
import proofs.«419586_j34471407518059_3_alg».proof.Proof.KI.Tile
import proofs.«419586_j34471407518059_3_alg».proof.Proof.Spec
import proofs.«419586_j34471407518059_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Idealize.SL.Sem
open Cert.KernelIdeal Cert.KernelIdeal.Gen

/-! # Reading the tile's blocks and the pointwise operations at a pixel -/

section Generic
variable {F : FTy → Type} [FloatOps F]

/-- A class plane of the logit block, read at a pixel: the block at that class and pixel. -/
theorem ld_plane (x0 : Vec F S1x21x512x256 .f32) (k : Nat) (hk : k < 21)
    (inb : ∀ a, (![0, k, 0, 0] : Fin 4 → Nat) a + S1x1x512x256.size a ≤ S1x21x512x256.size a) (h : Fin 512) (w : Fin 256) :
    (View.ld x0 (Rect.unit (s := S1x21x512x256) ![0, k, 0, 0] S1x1x512x256.size inb) : Vec F S1x1x512x256 .f32)
        (ix4 (0 : Fin 1) (0 : Fin 1) h w)
      = x0 (ix4 (0 : Fin 1) (⟨k, hk⟩ : Fin 21) h w) := by
  show x0 _ = x0 _
  refine congrArg x0 (funext fun a => Fin.ext ?_)
  match a with
  | ⟨0, _⟩ => rfl
  | ⟨1, _⟩ => show k + 1 * 0 = k; omega
  | ⟨2, _⟩ => show 0 + 1 * h.val = h.val; omega
  | ⟨3, _⟩ => show 0 + 1 * w.val = w.val; omega

/-- The whole label (or margin) block read through its whole box is the block. -/
theorem ld_whole3 {e : EltTy} (x : Vec F S1x512x256 e) : (View.ld x rT : Vec F S1x512x256 e) = x :=
  View.ld_unit_zero (S := S1x512x256) (funext fun a => by match a with | ⟨0, _⟩ => rfl | ⟨1, _⟩ => rfl | ⟨2, _⟩ => rfl) _ x

end Generic

/-- Two unit axes dropped: the plane at a pixel. -/
theorem cast_11ab {α : Type} (v : S1x1x512x256.Idx → α) (hc : S1x1x512x256.ShapeCasts S512x256) (h : Fin 512) (w : Fin 256) :
    shapeCast S512x256 v hc (ix2 h w) = v (ix4 (0 : Fin 1) (0 : Fin 1) h w) :=
  shapeCast_apply v hc (ix2 h w) (ix4 (0 : Fin 1) (0 : Fin 1) h w) (by
    rw [Shape.rowMajor_val_four, Shape.rowMajor_val_two]
    show ((0 * 1 + 0) * 512 + h.val) * 256 + w.val = h.val * 256 + w.val
    omega)

/-- One unit axis dropped. -/
theorem cast_1ab {α : Type} (v : S1x512x256.Idx → α) (hc : S1x512x256.ShapeCasts S512x256) (h : Fin 512) (w : Fin 256) :
    shapeCast S512x256 v hc (ix2 h w) = v (ix3 (0 : Fin 1) h w) :=
  shapeCast_1ab_ab_apply v hc h w

section Pointwise
variable {s : Shape} {φ : FTy}

theorem cmpi_apply {wd : Nat} (p : CmpIPredicate) (a b : IVec s wd) (i : s.Idx) : cmpi p a b i = IntOp.cmpi p (a i) (b i) := rfl
theorem exp_apply (a : FVec Ideal s φ) (i : s.Idx) : exp a i = Ideal.exp (a i) := rfl
theorem log_apply (a : FVec Ideal s φ) (i : s.Idx) : log a i = Ideal.log (a i) := rfl

end Pointwise

/-- The comparison of a label with a class number, choosing between two values. -/
theorem sel_label {α : Type} (n k : Nat) (hn : n < 21) (hk : k < 21) (A B : α) :
    Scalar.select (IntOp.cmpi .eq (BitVec.ofNat 32 n) (BitVec.ofNat 32 k)) A B = if n = k then A else B := by
  have hne : (BitVec.ofNat 32 n = BitVec.ofNat 32 k) ↔ n = k := by
    constructor
    · intro e
      have := congrArg BitVec.toNat e
      simp only [BitVec.toNat_ofNat] at this
      omega
    · rintro rfl; rfl
  by_cases h : n = k
  · subst h; simp [Scalar.select, IntOp.cmpi]
  · have hb : (BitVec.ofNat 32 n == BitVec.ofNat 32 k) = false := by simp [hne, h]
    simp [Scalar.select, IntOp.cmpi, hb, h]

/-! ## Coercions of reals pushed outward -/

theorem coe_max (a b : ℝ) : ((max a b : ℝ) : EReal) = max (a : EReal) (b : EReal) :=
  (EReal.coe_strictMono.monotone).map_max

theorem coe_ite (c : Prop) [Decidable c] (a b : ℝ) : ((if c then a else b : ℝ) : EReal) = if c then (a : EReal) else (b : EReal) := by
  split <;> rfl

/-- The 30 the kernel scales by. -/
theorem c30 : (FloatOps.ofBits (F := Ideal) .f32 0x41F00000#32) = ((30 : ℝ) : EReal) := Cert.Ldam.fofBits_30

theorem c0 : (FloatOps.ofBits (F := Ideal) .f32 0x00000000#32) = ((0 : ℝ) : EReal) := Cert.Ldam.fofBits_zero

/-! # The pixel's loss along the classes in the order the kernel visits them

The kernel visits the 21 classes in order, keeping a running maximum of the scaled logits, a running choice of the
label's own logit, and a running sum of exponentials. Here the three recursions over a sequence of logits `a 0, a 1, …`
and what each is once all 21 classes are visited. -/

/-- The logits of a pixel as a sequence (zero past the classes). -/
def Xn (X : Fin 21 → ℝ) (k : ℕ) : ℝ := if hk : k < 21 then X ⟨k, hk⟩ else 0

theorem Xn_val (X : Fin 21 → ℝ) (c : Fin 21) : Xn X c.val = X c := by
  unfold Xn; rw [dif_pos c.isLt]

/-- The running maximum of the scaled logits through class `k`. -/
def mx (a : ℕ → ℝ) : ℕ → ℝ
  | 0 => 30 * a 0
  | k + 1 => max (mx a k) (30 * a (k + 1))

/-- The running choice of the label's logit through class `k`: zero until the label is met. -/
def sl (a : ℕ → ℝ) (n : ℕ) : ℕ → ℝ
  | 0 => if n = 0 then a 0 else 0
  | k + 1 => if n = k + 1 then a (k + 1) else sl a n k

/-- Class `k`'s exponential: its scaled logit, lowered by `G` at the label, shifted by `R`. -/
def eTerm (n k : ℕ) (ak G R : ℝ) : ℝ := Real.exp ((if n = k then 30 * ak - G else 30 * ak) - R)

/-- The running sum of the exponentials through class `k`. -/
def sm (a : ℕ → ℝ) (n : ℕ) (G R : ℝ) : ℕ → ℝ
  | 0 => eTerm n 0 (a 0) G R
  | k + 1 => sm a n G R k + eTerm n (k + 1) (a (k + 1)) G R

theorem le_mx (a : ℕ → ℝ) (k j : ℕ) (hj : j ≤ k) : 30 * a j ≤ mx a k := by
  induction k with
  | zero => obtain rfl : j = 0 := by omega
            exact le_refl _
  | succ k ih =>
    rcases Nat.lt_or_ge j (k + 1) with h | h
    · exact le_trans (ih (by omega)) (le_max_left _ _)
    · obtain rfl : j = k + 1 := by omega
      exact le_max_right _ _

theorem mx_le (a : ℕ → ℝ) (B : ℝ) (k : ℕ) (hB : ∀ j, j ≤ k → 30 * a j ≤ B) : mx a k ≤ B := by
  induction k with
  | zero => exact hB 0 (le_refl _)
  | succ k ih => exact max_le (ih fun j hj => hB j (by omega)) (hB (k + 1) (le_refl _))

/-- Through the last class the running maximum is the largest scaled logit. -/
theorem mx_eq_rawMax (X : Fin 21 → ℝ) : mx (Xn X) 20 = Cert.Ldam.rawMax X := by
  unfold Cert.Ldam.rawMax
  refine le_antisymm (mx_le _ _ _ fun j hj => ?_) (Finset.sup'_le _ _ fun c _ => ?_)
  · have hj' : j < 21 := by omega
    have e : Xn X j = X ⟨j, hj'⟩ := by unfold Xn; rw [dif_pos hj']
    rw [e]
    exact Finset.le_sup' (fun c => 30 * X c) (Finset.mem_univ _)
  · rw [← Xn_val X c]
    exact le_mx _ _ _ (by have := c.isLt; omega)

/-- Once the label's class is visited the running choice is the label's logit. -/
theorem sl_eq (a : ℕ → ℝ) (n k : ℕ) (hn : n ≤ k) : sl a n k = a n := by
  induction k with
  | zero => obtain rfl : n = 0 := by omega
            exact if_pos rfl
  | succ k ih =>
    unfold sl
    by_cases h : n = k + 1
    · rw [if_pos h, h]
    · rw [if_neg h]; exact ih (by omega)

theorem sm_eq_sum (a : ℕ → ℝ) (n : ℕ) (G R : ℝ) (k : ℕ) :
    sm a n G R k = ∑ j ∈ Finset.range (k + 1), eTerm n j (a j) G R := by
  induction k with
  | zero => rw [Finset.sum_range_one]; rfl
  | succ k ih => rw [Finset.sum_range_succ, ← ih]; rfl

theorem sm_pos (a : ℕ → ℝ) (n : ℕ) (G R : ℝ) (k : ℕ) : 0 < sm a n G R k := by
  induction k with
  | zero => exact Real.exp_pos _
  | succ k ih => exact add_pos ih (Real.exp_pos _)

/-- Through the last class the running sum is the sum of the margined, shifted exponentials over the classes. -/
theorem sm_eq (X : Fin 21 → ℝ) (L : Fin 21) (M : ℝ) :
    sm (Xn X) L.val (30 * M) (Cert.Ldam.rawMax X) 20
      = ∑ c, Real.exp (Cert.Ldam.marg X L M c - Cert.Ldam.rawMax X) := by
  rw [sm_eq_sum, Finset.sum_range]
  refine Finset.sum_congr rfl fun c _ => ?_
  unfold eTerm Cert.Ldam.marg
  rw [Xn_val]
  by_cases h : c = L
  · rw [if_pos h, if_pos (by rw [h])]
  · rw [if_neg h, if_neg (fun e => h (Fin.ext e.symm))]

/-- The kernel's pixel value, class by class, is the pixel's loss. -/
theorem pixel_eq_nllK (X : Fin 21 → ℝ) (L : Fin 21) (M : ℝ) :
    mx (Xn X) 20 + Real.log (sm (Xn X) L.val (30 * M) (mx (Xn X) 20) 20) - (30 * sl (Xn X) L.val 20 - 30 * M)
      = Cert.Ldam.nllK X L M := by
  rw [mx_eq_rawMax, sm_eq, sl_eq _ _ _ (by have := L.isLt; omega), Xn_val]
  rfl

/-- A real sum, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

end Cert.KernelIdeal.Hand

end
-- ==== Proof.KI.TileValueB.lean ====
/-
  The first pass of the tile step at a pixel, payload by payload: given the values its inputs hold at the pixel (the
  label as a number below 21, the class planes' logits as reals, the earlier running values), each payload's value at
  the pixel as a real — the running maximum of the scaled logits and the running choice of the label's logit.
-/
import proofs.«419586_j34471407518059_3_alg».proof.Proof.KI.TileValueA

noncomputable section

namespace Cert.KernelIdeal.Hand

open Idealize.ShloMosaic Idealize.ShloMosaic.ValueIdx Idealize.SL.Sem
open Cert.KernelIdeal Cert.KernelIdeal.Gen

section Pass1
variable (h : Fin 512) (w : Fin 256)

/-! ## First pass: the running maximum and the running choice of the label's logit -/

theorem pay4_at (v3 : Vec Ideal S1x512x256 .i32) (n : ℕ) (h3 : v3 (ix3 (0 : Fin 1) h w) = BitVec.ofNat 32 n) :
    k1_pay4 (F := Ideal) v3 (ix2 h w) = BitVec.ofNat 32 n := by
  unfold k1_pay4
  rw [cast_1ab]; exact h3

theorem pay8_at (v5 v13 v21 : Vec Ideal S1x1x512x256 .f32) (a0 a1 a2 : ℝ)
    (h5 : v5 (ix4 (0 : Fin 1) (0 : Fin 1) h w) = ((a0 : ℝ) : EReal)) (h13 : v13 (ix4 (0 : Fin 1) (0 : Fin 1) h w) = ((a1 : ℝ) : EReal)) (h21 : v21 (ix4 (0 : Fin 1) (0 : Fin 1) h w) = ((a2 : ℝ) : EReal)) :
    k1_pay8 (F := Ideal) v5 v13 v21 (ix2 h w) = ((max (max (30 * a0) (30 * a1)) (30 * a2) : ℝ) : EReal) := by
  unfold k1_pay8 k1_pay5 k1_pay6 k1_pay7
  simp only [maximumf_apply, mulf_apply, subf_apply, addf_apply, select_apply, cmpi_apply, exp_apply, broadcast_apply, cast_11ab, cast_1ab, c30, c0, sel_label, Nat.reduceLT, ← EReal.coe_mul, ← EReal.coe_sub, ← EReal.coe_add, ← coe_max, ← coe_ite, Ideal.exp_coe, zero_add, eTerm, h5, h13, h21]

theorem pay9_at (v3 : Vec Ideal S1x512x256 .i32) (v5 v13 v21 : Vec Ideal S1x1x512x256 .f32) (n : ℕ) (hn : n < 21) (a0 a1 a2 : ℝ)
    (h3 : v3 (ix3 (0 : Fin 1) h w) = BitVec.ofNat 32 n) (h5 : v5 (ix4 (0 : Fin 1) (0 : Fin 1) h w) = ((a0 : ℝ) : EReal)) (h13 : v13 (ix4 (0 : Fin 1) (0 : Fin 1) h w) = ((a1 : ℝ) : EReal)) (h21 : v21 (ix4 (0 : Fin 1) (0 : Fin 1) h w) = ((a2 : ℝ) : EReal)) :
    k1_pay9 (F := Ideal) v3 v5 v13 v21 (ix2 h w) = ((if n = 2 then a2 else if n = 1 then a1 else if n = 0 then a0 else 0 : ℝ) : EReal) := by
  unfold k1_pay9 k1_pay4 k1_pay5 k1_pay6 k1_pay7
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h3, h5, h13, h21]

theorem pay14_at (v27 : FVec Ideal S512x256 .f32) (v29 v37 v45 v53 : Vec Ideal S1x1x512x256 .f32) (r a3 a4 a5 a6 : ℝ)
    (h27 : v27 (ix2 h w) = ((r : ℝ) : EReal)) (h29 : v29 (ix4 (0 : Fin 1) (0 : Fin 1) h w) = ((a3 : ℝ) : EReal)) (h37 : v37 (ix4 (0 : Fin 1) (0 : Fin 1) h w) = ((a4 : ℝ) : EReal)) (h45 : v45 (ix4 (0 : Fin 1) (0 : Fin 1) h w) = ((a5 : ℝ) : EReal)) (h53 : v53 (ix4 (0 : Fin 1) (0 : Fin 1) h w) = ((a6 : ℝ) : EReal)) :
    k1_pay14 (F := Ideal) v27 v29 v37 v45 v53 (ix2 h w) = ((max (max (max (max (r) (30 * a3)) (30 * a4)) (30 * a5)) (30 * a6) : ℝ) : EReal) := by
  unfold k1_pay14 k1_pay10 k1_pay11 k1_pay12 k1_pay13
  simp only [maximumf_apply, mulf_apply, subf_apply, addf_apply, select_apply, cmpi_apply, exp_apply, broadcast_apply, cast_11ab, cast_1ab, c30, c0, sel_label, Nat.reduceLT, ← EReal.coe_mul, ← EReal.coe_sub, ← EReal.coe_add, ← coe_max, ← coe_ite, Ideal.exp_coe, zero_add, eTerm, h27, h29, h37, h45, h53]

theorem pay15_at (v4 : IVec S512x256 32) (v28 : FVec Ideal S512x256 .f32) (v29 v37 v45 v53 : Vec Ideal S1x1x512x256 .f32) (n : ℕ) (hn : n < 21) (s a3 a4 a5 a6 : ℝ)
    (h4 : v4 (ix2 h w) = BitVec.ofNat 32 n) (h28 : v28 (ix2 h w) = ((s : ℝ) : EReal)) (h29 : v29 (ix4 (0 : Fin 1) (0 : Fin 1) h w) = ((a3 : ℝ) : EReal)) (h37 : v37 (ix4 (0 : Fin 1) (0 : Fin 1) h w) = ((a4 : ℝ) : EReal)) (h45 : v45 (ix4 (0 : Fin 1) (0 : Fin 1) h w) = ((a5 : ℝ) : EReal)) (h53 : v53 (ix4 (0 : Fin 1) (0 : Fin 1) h w) = ((a6 : ℝ) : EReal)) :
    k1_pay15 (F := Ideal) v4 v28 v29 v37 v45 v53 (ix2 h w) = ((if n = 6 then a6 else if n = 5 then a5 else if n = 4 then a4 else if n = 3 then a3 else s : ℝ) : EReal) := by
  unfold k1_pay15 k1_pay10 k1_pay11 k1_pay12 k1_pay13
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h28, h29, h37, h45, h53]

theorem pay16_at (v61 : Vec Ideal S1x1x512x256 .f32) (a7 : ℝ) (h61 : v61 (ix4 (0 : Fin 1) (0 : Fin 1) h w) = ((a7 : ℝ) : EReal)) : k1_pay16 (F := Ideal) v61 (ix2 h w) = ((a7 : ℝ) : EReal) := by
  unfold k1_pay16; rw [cast_11ab]; exact h61

theorem pay17_at : k1_pay17 (F := Ideal) (ix2 h w) = ((30 : ℝ) : EReal) := by
  unfold k1_pay17; simp only [broadcast_apply, c30]

theorem pay21_at (v59 v62 v63 : FVec Ideal S512x256 .f32) (v69 v77 v85 : Vec Ideal S1x1x512x256 .f32) (r a7 a8 a9 a10 : ℝ)
    (h59 : v59 (ix2 h w) = ((r : ℝ) : EReal)) (h62 : v62 (ix2 h w) = ((a7 : ℝ) : EReal)) (h63 : v63 (ix2 h w) = ((30 : ℝ) : EReal)) (h69 : v69 (ix4 (0 : Fin 1) (0 : Fin 1) h w) = ((a8 : ℝ) : EReal)) (h77 : v77 (ix4 (0 : Fin 1) (0 : Fin 1) h w) = ((a9 : ℝ) : EReal)) (h85 : v85 (ix4 (0 : Fin 1) (0 : Fin 1) h w) = ((a10 : ℝ) : EReal)) :
    k1_pay21 (F := Ideal) v59 v62 v63 v69 v77 v85 (ix2 h w) = ((max (max (max (max (r) (30 * a7)) (30 * a8)) (30 * a9)) (30 * a10) : ℝ) : EReal) := by
  unfold k1_pay21 k1_pay18 k1_pay19 k1_pay20
  simp only [maximumf_apply, mulf_apply, subf_apply, addf_apply, select_apply, cmpi_apply, exp_apply, broadcast_apply, cast_11ab, cast_1ab, c30, c0, sel_label, Nat.reduceLT, ← EReal.coe_mul, ← EReal.coe_sub, ← EReal.coe_add, ← coe_max, ← coe_ite, Ideal.exp_coe, zero_add, eTerm, h59, h62, h63, h69, h77, h85]

theorem pay22_at (v4 : IVec S512x256 32) (v60 v62 : FVec Ideal S512x256 .f32) (v69 v77 v85 : Vec Ideal S1x1x512x256 .f32) (n : ℕ) (hn : n < 21) (s a7 a8 a9 a10 : ℝ)
    (h4 : v4 (ix2 h w) = BitVec.ofNat 32 n) (h60 : v60 (ix2 h w) = ((s : ℝ) : EReal)) (h62 : v62 (ix2 h w) = ((a7 : ℝ) : EReal)) (h69 : v69 (ix4 (0 : Fin 1) (0 : Fin 1) h w) = ((a8 : ℝ) : EReal)) (h77 : v77 (ix4 (0 : Fin 1) (0 : Fin 1) h w) = ((a9 : ℝ) : EReal)) (h85 : v85 (ix4 (0 : Fin 1) (0 : Fin 1) h w) = ((a10 : ℝ) : EReal)) :
    k1_pay22 (F := Ideal) v4 v60 v62 v69 v77 v85 (ix2 h w) = ((if n = 10 then a10 else if n = 9 then a9 else if n = 8 then a8 else if n = 7 then a7 else s : ℝ) : EReal) := by
  unfold k1_pay22 k1_pay18 k1_pay19 k1_pay20
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h60, h62, h69, h77, h85]

theorem pay23_at (v93 : Vec Ideal S1x1x512x256 .f32) (a11 : ℝ) (h93 : v93 (ix4 (0 : Fin 1) (0 : Fin 1) h w) = ((a11 : ℝ) : EReal)) : k1_pay23 (F := Ideal) v93 (ix2 h w) = ((a11 : ℝ) : EReal) := by
  unfold k1_pay23; rw [cast_11ab]; exact h93

theorem pay24_at (v93 : Vec Ideal S1x1x512x256 .f32) (a11 : ℝ)
    (h93 : v93 (ix4 (0 : Fin 1) (0 : Fin 1) h w) = ((a11 : ℝ) : EReal)) :
    k1_pay24 (F := Ideal) v93 (ix2 h w) = ((30 * a11 : ℝ) : EReal) := by
  unfold k1_pay24 k1_pay23
  simp only [maximumf_apply, mulf_apply, subf_apply, addf_apply, select_apply, cmpi_apply, exp_apply, broadcast_apply, cast_11ab, cast_1ab, c30, c0, sel_label, Nat.reduceLT, ← EReal.coe_mul, ← EReal.coe_sub, ← EReal.coe_add, ← coe_max, ← coe_ite, Ideal.exp_coe, zero_add, eTerm, h93]

theorem pay25_at (v4 : IVec S512x256 32) (n : ℕ) (h4 : v4 (ix2 h w) = BitVec.ofNat 32 n) : k1_pay25 v4 (ix2 h w) = IntOp.cmpi .eq (BitVec.ofNat 32 n) 11#32 := by
  unfold k1_pay25; simp only [cmpi_apply, broadcast_apply, h4]

theorem pay30_at (v91 v96 : FVec Ideal S512x256 .f32) (v101 v109 v117 v125 : Vec Ideal S1x1x512x256 .f32) (r p a12 a13 a14 a15 : ℝ)
    (h91 : v91 (ix2 h w) = ((r : ℝ) : EReal)) (h96 : v96 (ix2 h w) = ((p : ℝ) : EReal)) (h101 : v101 (ix4 (0 : Fin 1) (0 : Fin 1) h w) = ((a12 : ℝ) : EReal)) (h109 : v109 (ix4 (0 : Fin 1) (0 : Fin 1) h w) = ((a13 : ℝ) : EReal)) (h117 : v117 (ix4 (0 : Fin 1) (0 : Fin 1) h w) = ((a14 : ℝ) : EReal)) (h125 : v125 (ix4 (0 : Fin 1) (0 : Fin 1) h w) = ((a15 : ℝ) : EReal)) :
    k1_pay30 (F := Ideal) v91 v96 v101 v109 v117 v125 (ix2 h w) = ((max (max (max (max (max r p) (30 * a12)) (30 * a13)) (30 * a14)) (30 * a15) : ℝ) : EReal) := by
  unfold k1_pay30 k1_pay26 k1_pay27 k1_pay28 k1_pay29
  simp only [maximumf_apply, mulf_apply, subf_apply, addf_apply, select_apply, cmpi_apply, exp_apply, broadcast_apply, cast_11ab, cast_1ab, c30, c0, sel_label, Nat.reduceLT, ← EReal.coe_mul, ← EReal.coe_sub, ← EReal.coe_add, ← coe_max, ← coe_ite, Ideal.exp_coe, zero_add, eTerm, h91, h96, h101, h109, h117, h125]

theorem pay31_at (v4 : IVec S512x256 32) (v92 v94 : FVec Ideal S512x256 .f32) (v98 : IVec S512x256 1) (v101 v109 v117 v125 : Vec Ideal S1x1x512x256 .f32) (n : ℕ) (hn : n < 21) (s a11 a12 a13 a14 a15 : ℝ)
    (h4 : v4 (ix2 h w) = BitVec.ofNat 32 n) (h92 : v92 (ix2 h w) = ((s : ℝ) : EReal)) (h94 : v94 (ix2 h w) = ((a11 : ℝ) : EReal)) (h98 : v98 (ix2 h w) = IntOp.cmpi .eq (BitVec.ofNat 32 n) 11#32) (h101 : v101 (ix4 (0 : Fin 1) (0 : Fin 1) h w) = ((a12 : ℝ) : EReal)) (h109 : v109 (ix4 (0 : Fin 1) (0 : Fin 1) h w) = ((a13 : ℝ) : EReal)) (h117 : v117 (ix4 (0 : Fin 1) (0 : Fin 1) h w) = ((a14 : ℝ) : EReal)) (h125 : v125 (ix4 (0 : Fin 1) (0 : Fin 1) h w) = ((a15 : ℝ) : EReal)) :
    k1_pay31 (F := Ideal) v4 v92 v94 v98 v101 v109 v117 v125 (ix2 h w) = ((if n = 15 then a15 else if n = 14 then a14 else if n = 13 then a13 else if n = 12 then a12 else if n = 11 then a11 else s : ℝ) : EReal) := by
  unfold k1_pay31 k1_pay26 k1_pay27 k1_pay28 k1_pay29
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h98, h92, h94, h101, h109, h117, h125]

theorem pay36_at (v131 : FVec Ideal S512x256 .f32) (v133 v141 v149 v157 : Vec Ideal S1x1x512x256 .f32) (r a16 a17 a18 a19 : ℝ)
    (h131 : v131 (ix2 h w) = ((r : ℝ) : EReal)) (h133 : v133 (ix4 (0 : Fin 1) (0 : Fin 1) h w) = ((a16 : ℝ) : EReal)) (h141 : v141 (ix4 (0 : Fin 1) (0 : Fin 1) h w) = ((a17 : ℝ) : EReal)) (h149 : v149 (ix4 (0 : Fin 1) (0 : Fin 1) h w) = ((a18 : ℝ) : EReal)) (h157 : v157 (ix4 (0 : Fin 1) (0 : Fin 1) h w) = ((a19 : ℝ) : EReal)) :
    k1_pay36 (F := Ideal) v131 v133 v141 v149 v157 (ix2 h w) = ((max (max (max (max (r) (30 * a16)) (30 * a17)) (30 * a18)) (30 * a19) : ℝ) : EReal) := by
  unfold k1_pay36 k1_pay32 k1_pay33 k1_pay34 k1_pay35
  simp only [maximumf_apply, mulf_apply, subf_apply, addf_apply, select_apply, cmpi_apply, exp_apply, broadcast_apply, cast_11ab, cast_1ab, c30, c0, sel_label, Nat.reduceLT, ← EReal.coe_mul, ← EReal.coe_sub, ← EReal.coe_add, ← coe_max, ← coe_ite, Ideal.exp_coe, zero_add, eTerm, h131, h133, h141, h149, h157]

theorem pay37_at (v4 : IVec S512x256 32) (v132 : FVec Ideal S512x256 .f32) (v133 v141 v149 v157 : Vec Ideal S1x1x512x256 .f32) (n : ℕ) (hn : n < 21) (s a16 a17 a18 a19 : ℝ)
    (h4 : v4 (ix2 h w) = BitVec.ofNat 32 n) (h132 : v132 (ix2 h w) = ((s : ℝ) : EReal)) (h133 : v133 (ix4 (0 : Fin 1) (0 : Fin 1) h w) = ((a16 : ℝ) : EReal)) (h141 : v141 (ix4 (0 : Fin 1) (0 : Fin 1) h w) = ((a17 : ℝ) : EReal)) (h149 : v149 (ix4 (0 : Fin 1) (0 : Fin 1) h w) = ((a18 : ℝ) : EReal)) (h157 : v157 (ix4 (0 : Fin 1) (0 : Fin 1) h w) = ((a19 : ℝ) : EReal)) :
    k1_pay37 (F := Ideal) v4 v132 v133 v141 v149 v157 (ix2 h w) = ((if n = 19 then a19 else if n = 18 then a18 else if n = 17 then a17 else if n = 16 then a16 else s : ℝ) : EReal) := by
  unfold k1_pay37 k1_pay32 k1_pay33 k1_pay34 k1_pay35
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h132, h133, h141, h149, h157]

theorem pay38_at (v165 : Vec Ideal S1x1x512x256 .f32) (a20 : ℝ) (h165 : v165 (ix4 (0 : Fin 1) (0 : Fin 1) h w) = ((a20 : ℝ) : EReal)) : k1_pay38 (F := Ideal) v165 (ix2 h w) = ((a20 : ℝ) : EReal) := by
  unfold k1_pay38; rw [cast_11ab]; exact h165

theorem pay39_at (v163 v166 : FVec Ideal S512x256 .f32) (r a20 : ℝ)
    (h163 : v163 (ix2 h w) = ((r : ℝ) : EReal)) (h166 : v166 (ix2 h w) = ((a20 : ℝ) : EReal)) :
    k1_pay39 (F := Ideal) v163 v166 (ix2 h w) = ((max r (30 * a20) : ℝ) : EReal) := by
  unfold k1_pay39
  simp only [maximumf_apply, mulf_apply, subf_apply, addf_apply, select_apply, cmpi_apply, exp_apply, broadcast_apply, cast_11ab, cast_1ab, c30, c0, sel_label, Nat.reduceLT, ← EReal.coe_mul, ← EReal.coe_sub, ← EReal.coe_add, ← coe_max, ← coe_ite, Ideal.exp_coe, zero_add, eTerm, h163, h166]

theorem pay40_at (v173 : Vec Ideal S1x512x256 .f32) (M : ℝ)
    (h173 : v173 (ix3 (0 : Fin 1) h w) = ((M : ℝ) : EReal)) :
    k1_pay40 (F := Ideal) v173 (ix2 h w) = ((30 * M : ℝ) : EReal) := by
  unfold k1_pay40
  simp only [maximumf_apply, mulf_apply, subf_apply, addf_apply, select_apply, cmpi_apply, exp_apply, broadcast_apply, cast_11ab, cast_1ab, c30, c0, sel_label, Nat.reduceLT, ← EReal.coe_mul, ← EReal.coe_sub, ← EReal.coe_add, ← coe_max, ← coe_ite, Ideal.exp_coe, zero_add, eTerm, h173]

theorem pay41_at (v4 : IVec S512x256 32) (v164 v166 : FVec Ideal S512x256 .f32) (v173 : Vec Ideal S1x512x256 .f32) (n : ℕ) (hn : n < 21) (s a20 M : ℝ)
    (h4 : v4 (ix2 h w) = BitVec.ofNat 32 n) (h164 : v164 (ix2 h w) = ((s : ℝ) : EReal)) (h166 : v166 (ix2 h w) = ((a20 : ℝ) : EReal)) (h173 : v173 (ix3 (0 : Fin 1) h w) = ((M : ℝ) : EReal)) :
    k1_pay41 (F := Ideal) v4 v164 v166 v173 (ix2 h w) = ((30 * (if n = 20 then a20 else s) - 30 * M : ℝ) : EReal) := by
  unfold k1_pay41 k1_pay40
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h164, h166, h173]

end Pass1

end Cert.KernelIdeal.Hand

end
-- ==== Proof.KI.TileValueC.lean ====
/-
  The second pass of the tile step at a pixel, payload by payload: each class's scaled logit, lowered by the scaled
  margin at the label, shifted by the running maximum, exponentiated and added to the running sum.
-/
import proofs.«419586_j34471407518059_3_alg».proof.Proof.KI.TileValueA

noncomputable section

namespace Cert.KernelIdeal.Hand

open Idealize.ShloMosaic Idealize.ShloMosaic.ValueIdx Idealize.SL.Sem
open Cert.KernelIdeal Cert.KernelIdeal.Gen

section Pass2
variable (h : Fin 512) (w : Fin 256)

/-! ## Second pass: the exponentials, summed class by class -/

theorem pay42_at (v4 : IVec S512x256 32) (v163 v166 : FVec Ideal S512x256 .f32) (v173 : Vec Ideal S1x512x256 .f32) (v181 v192 : Vec Ideal S1x1x512x256 .f32) (n : ℕ) (hn : n < 21) (r a20 M a0 a1 : ℝ)
    (h4 : v4 (ix2 h w) = BitVec.ofNat 32 n) (h163 : v163 (ix2 h w) = ((r : ℝ) : EReal)) (h166 : v166 (ix2 h w) = ((a20 : ℝ) : EReal)) (h173 : v173 (ix3 (0 : Fin 1) h w) = ((M : ℝ) : EReal)) (h181 : v181 (ix4 (0 : Fin 1) (0 : Fin 1) h w) = ((a0 : ℝ) : EReal)) (h192 : v192 (ix4 (0 : Fin 1) (0 : Fin 1) h w) = ((a1 : ℝ) : EReal)) :
    k1_pay42 (F := Ideal) v4 v163 v166 v173 v181 v192 (ix2 h w) = ((eTerm n 0 a0 (30 * M) (max r (30 * a20)) + eTerm n 1 a1 (30 * M) (max r (30 * a20)) : ℝ) : EReal) := by
  unfold k1_pay42 k1_pay39 k1_pay40
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h163, h166, h173, h181, h192]

theorem pay43_at (v4 : IVec S512x256 32) (v171 v176 v202 : FVec Ideal S512x256 .f32) (v203 v214 v225 : Vec Ideal S1x1x512x256 .f32) (n : ℕ) (hn : n < 21) (R G S a2 a3 a4 : ℝ)
    (h4 : v4 (ix2 h w) = BitVec.ofNat 32 n) (h171 : v171 (ix2 h w) = ((R : ℝ) : EReal)) (h176 : v176 (ix2 h w) = ((G : ℝ) : EReal)) (h202 : v202 (ix2 h w) = ((S : ℝ) : EReal)) (h203 : v203 (ix4 (0 : Fin 1) (0 : Fin 1) h w) = ((a2 : ℝ) : EReal)) (h214 : v214 (ix4 (0 : Fin 1) (0 : Fin 1) h w) = ((a3 : ℝ) : EReal)) (h225 : v225 (ix4 (0 : Fin 1) (0 : Fin 1) h w) = ((a4 : ℝ) : EReal)) :
    k1_pay43 (F := Ideal) v4 v171 v176 v202 v203 v214 v225 (ix2 h w) = ((S + eTerm n 2 a2 G R + eTerm n 3 a3 G R + eTerm n 4 a4 G R : ℝ) : EReal) := by
  unfold k1_pay43
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h171, h176, h202, h203, h214, h225]

theorem pay44_at (v236 : Vec Ideal S1x1x512x256 .f32) (a5 : ℝ)
    (h236 : v236 (ix4 (0 : Fin 1) (0 : Fin 1) h w) = ((a5 : ℝ) : EReal)) :
    k1_pay44 (F := Ideal) v236 (ix2 h w) = ((30 * a5 : ℝ) : EReal) := by
  unfold k1_pay44
  simp only [maximumf_apply, mulf_apply, subf_apply, addf_apply, select_apply, cmpi_apply, exp_apply, broadcast_apply, cast_11ab, cast_1ab, c30, c0, sel_label, Nat.reduceLT, ← EReal.coe_mul, ← EReal.coe_sub, ← EReal.coe_add, ← coe_max, ← coe_ite, Ideal.exp_coe, zero_add, eTerm, h236]

theorem pay45_at (v4 : IVec S512x256 32) (n : ℕ) (h4 : v4 (ix2 h w) = BitVec.ofNat 32 n) : k1_pay45 v4 (ix2 h w) = IntOp.cmpi .eq (BitVec.ofNat 32 n) 5#32 := by
  unfold k1_pay45; simp only [cmpi_apply, broadcast_apply, h4]

theorem pay46_at (v176 : FVec Ideal S512x256 .f32) (v236 : Vec Ideal S1x1x512x256 .f32) (G a5 : ℝ)
    (h176 : v176 (ix2 h w) = ((G : ℝ) : EReal)) (h236 : v236 (ix4 (0 : Fin 1) (0 : Fin 1) h w) = ((a5 : ℝ) : EReal)) :
    k1_pay46 (F := Ideal) v176 v236 (ix2 h w) = ((30 * a5 - G : ℝ) : EReal) := by
  unfold k1_pay46 k1_pay44
  simp only [maximumf_apply, mulf_apply, subf_apply, addf_apply, select_apply, cmpi_apply, exp_apply, broadcast_apply, cast_11ab, cast_1ab, c30, c0, sel_label, Nat.reduceLT, ← EReal.coe_mul, ← EReal.coe_sub, ← EReal.coe_add, ← coe_max, ← coe_ite, Ideal.exp_coe, zero_add, eTerm, h176, h236]

theorem pay47_at (v4 : IVec S512x256 32) (v171 v176 v235 v239 : FVec Ideal S512x256 .f32) (v241 : IVec S512x256 1) (v242 : FVec Ideal S512x256 .f32) (v247 v258 v269 : Vec Ideal S1x1x512x256 .f32) (n : ℕ) (hn : n < 21) (R G S a5 a6 a7 a8 : ℝ)
    (h4 : v4 (ix2 h w) = BitVec.ofNat 32 n) (h171 : v171 (ix2 h w) = ((R : ℝ) : EReal)) (h176 : v176 (ix2 h w) = ((G : ℝ) : EReal)) (h235 : v235 (ix2 h w) = ((S : ℝ) : EReal)) (h239 : v239 (ix2 h w) = ((30 * a5 : ℝ) : EReal)) (h241 : v241 (ix2 h w) = IntOp.cmpi .eq (BitVec.ofNat 32 n) 5#32) (h242 : v242 (ix2 h w) = ((30 * a5 - G : ℝ) : EReal)) (h247 : v247 (ix4 (0 : Fin 1) (0 : Fin 1) h w) = ((a6 : ℝ) : EReal)) (h258 : v258 (ix4 (0 : Fin 1) (0 : Fin 1) h w) = ((a7 : ℝ) : EReal)) (h269 : v269 (ix4 (0 : Fin 1) (0 : Fin 1) h w) = ((a8 : ℝ) : EReal)) :
    k1_pay47 (F := Ideal) v4 v171 v176 v235 v239 v241 v242 v247 v258 v269 (ix2 h w) = ((S + eTerm n 5 a5 G R + eTerm n 6 a6 G R + eTerm n 7 a7 G R + eTerm n 8 a8 G R : ℝ) : EReal) := by
  unfold k1_pay47
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h241, h171, h176, h235, h239, h242, h247, h258, h269]

theorem pay48_at (v4 : IVec S512x256 32) (v171 v176 v279 : FVec Ideal S512x256 .f32) (v280 v291 v302 : Vec Ideal S1x1x512x256 .f32) (n : ℕ) (hn : n < 21) (R G S a9 a10 a11 : ℝ)
    (h4 : v4 (ix2 h w) = BitVec.ofNat 32 n) (h171 : v171 (ix2 h w) = ((R : ℝ) : EReal)) (h176 : v176 (ix2 h w) = ((G : ℝ) : EReal)) (h279 : v279 (ix2 h w) = ((S : ℝ) : EReal)) (h280 : v280 (ix4 (0 : Fin 1) (0 : Fin 1) h w) = ((a9 : ℝ) : EReal)) (h291 : v291 (ix4 (0 : Fin 1) (0 : Fin 1) h w) = ((a10 : ℝ) : EReal)) (h302 : v302 (ix4 (0 : Fin 1) (0 : Fin 1) h w) = ((a11 : ℝ) : EReal)) :
    k1_pay48 (F := Ideal) v4 v171 v176 v279 v280 v291 v302 (ix2 h w) = ((S + eTerm n 9 a9 G R + eTerm n 10 a10 G R + eTerm n 11 a11 G R : ℝ) : EReal) := by
  unfold k1_pay48
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h171, h176, h279, h280, h291, h302]

theorem pay49_at (v4 : IVec S512x256 32) (v176 : FVec Ideal S512x256 .f32) (v313 : Vec Ideal S1x1x512x256 .f32) (n : ℕ) (hn : n < 21) (G a12 : ℝ)
    (h4 : v4 (ix2 h w) = BitVec.ofNat 32 n) (h176 : v176 (ix2 h w) = ((G : ℝ) : EReal)) (h313 : v313 (ix4 (0 : Fin 1) (0 : Fin 1) h w) = ((a12 : ℝ) : EReal)) :
    k1_pay49 (F := Ideal) v4 v176 v313 (ix2 h w) = ((if n = 12 then 30 * a12 - G else 30 * a12 : ℝ) : EReal) := by
  unfold k1_pay49
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h176, h313]

theorem pay50_at (v4 : IVec S512x256 32) (v171 v176 v312 v320 : FVec Ideal S512x256 .f32) (v324 v335 v346 : Vec Ideal S1x1x512x256 .f32) (n : ℕ) (hn : n < 21) (R G S a12 a13 a14 a15 : ℝ)
    (h4 : v4 (ix2 h w) = BitVec.ofNat 32 n) (h171 : v171 (ix2 h w) = ((R : ℝ) : EReal)) (h176 : v176 (ix2 h w) = ((G : ℝ) : EReal)) (h312 : v312 (ix2 h w) = ((S : ℝ) : EReal)) (h320 : v320 (ix2 h w) = ((if n = 12 then 30 * a12 - G else 30 * a12 : ℝ) : EReal)) (h324 : v324 (ix4 (0 : Fin 1) (0 : Fin 1) h w) = ((a13 : ℝ) : EReal)) (h335 : v335 (ix4 (0 : Fin 1) (0 : Fin 1) h w) = ((a14 : ℝ) : EReal)) (h346 : v346 (ix4 (0 : Fin 1) (0 : Fin 1) h w) = ((a15 : ℝ) : EReal)) :
    k1_pay50 (F := Ideal) v4 v171 v176 v312 v320 v324 v335 v346 (ix2 h w) = ((S + eTerm n 12 a12 G R + eTerm n 13 a13 G R + eTerm n 14 a14 G R + eTerm n 15 a15 G R : ℝ) : EReal) := by
  unfold k1_pay50
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h171, h176, h312, h320, h324, h335, h346]

theorem pay51_at (v357 : Vec Ideal S1x1x512x256 .f32) (a16 : ℝ) (h357 : v357 (ix4 (0 : Fin 1) (0 : Fin 1) h w) = ((a16 : ℝ) : EReal)) : k1_pay51 (F := Ideal) v357 (ix2 h w) = ((a16 : ℝ) : EReal) := by
  unfold k1_pay51; rw [cast_11ab]; exact h357

theorem pay52_at (v4 : IVec S512x256 32) (v171 v176 v356 v358 : FVec Ideal S512x256 .f32) (v368 v379 : Vec Ideal S1x1x512x256 .f32) (n : ℕ) (hn : n < 21) (R G S a16 a17 a18 : ℝ)
    (h4 : v4 (ix2 h w) = BitVec.ofNat 32 n) (h171 : v171 (ix2 h w) = ((R : ℝ) : EReal)) (h176 : v176 (ix2 h w) = ((G : ℝ) : EReal)) (h356 : v356 (ix2 h w) = ((S : ℝ) : EReal)) (h358 : v358 (ix2 h w) = ((a16 : ℝ) : EReal)) (h368 : v368 (ix4 (0 : Fin 1) (0 : Fin 1) h w) = ((a17 : ℝ) : EReal)) (h379 : v379 (ix4 (0 : Fin 1) (0 : Fin 1) h w) = ((a18 : ℝ) : EReal)) :
    k1_pay52 (F := Ideal) v4 v171 v176 v356 v358 v368 v379 (ix2 h w) = ((S + eTerm n 16 a16 G R + eTerm n 17 a17 G R + eTerm n 18 a18 G R : ℝ) : EReal) := by
  unfold k1_pay52
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h171, h176, h356, h358, h368, h379]

theorem pay53_at (v4 : IVec S512x256 32) (v171 v176 : FVec Ideal S512x256 .f32) (v390 : Vec Ideal S1x1x512x256 .f32) (n : ℕ) (hn : n < 21) (R G a19 : ℝ)
    (h4 : v4 (ix2 h w) = BitVec.ofNat 32 n) (h171 : v171 (ix2 h w) = ((R : ℝ) : EReal)) (h176 : v176 (ix2 h w) = ((G : ℝ) : EReal)) (h390 : v390 (ix4 (0 : Fin 1) (0 : Fin 1) h w) = ((a19 : ℝ) : EReal)) :
    k1_pay53 (F := Ideal) v4 v171 v176 v390 (ix2 h w) = (((if n = 19 then 30 * a19 - G else 30 * a19) - R : ℝ) : EReal) := by
  unfold k1_pay53
  simp only [maximumf_apply, mulf_apply, subf_apply, addf_apply, select_apply, cmpi_apply, exp_apply, broadcast_apply, cast_11ab, cast_1ab, c30, c0, sel_label, hn, Nat.reduceLT, ← EReal.coe_mul, ← EReal.coe_sub, ← EReal.coe_add, ← coe_max, ← coe_ite, Ideal.exp_coe, zero_add, eTerm, h4, h171, h176, h390]

end Pass2

end Cert.KernelIdeal.Hand

end
-- ==== Proof.KI.TileValueD.lean ====
/-
  The end of the tile step: the last payload's per-pixel value (the last two classes' exponentials, the logarithm of
  the sum, the running maximum added back, the label's margined logit taken off), its sum over the lanes of each row
  and over the rows, and that sum added to the running sum.
-/
import proofs.«419586_j34471407518059_3_alg».proof.Proof.KI.TileValueA

noncomputable section

namespace Cert.KernelIdeal.Hand

open Idealize.ShloMosaic Idealize.ShloMosaic.ValueIdx Idealize.SL.Sem
open Cert.KernelIdeal Cert.KernelIdeal.Gen

/-! ## The two lane sums and the running sum -/

/-- The sum over the lanes of a row. -/
theorem lane_sum (v : FVec Ideal S512x256 .f32) (hr : S512x256.Reduces [1] S512) (hφ : FKind.Formats .f32)
    (hacc : (0x00000000#32 : BitVec 32) = FKind.add.neutral .f32 hφ) (h : Fin 512) :
    multiReduction (F := Ideal) .add [1] S512 v 0x00000000#32 hr hφ hacc (ix1 h) = ∑ w : Fin 256, v (ix2 h w) :=
  (Ideal.multiReduction_add_single v _ hr hφ hacc (ix1 h)).trans
    (Finset.sum_congr rfl fun k _ => congrArg v (funext fun a => Fin.ext (by
      match a with
      | ⟨0, _⟩ => rfl
      | ⟨1, _⟩ => rfl)))

/-- The sum over the rows of a column of row sums. -/
theorem row_sum (v : FVec Ideal S512x1 .f32) (hr : S512x1.Reduces [0] S1) (hφ : FKind.Formats .f32)
    (hacc : (0x00000000#32 : BitVec 32) = FKind.add.neutral .f32 hφ) :
    multiReduction (F := Ideal) .add [0] S1 v 0x00000000#32 hr hφ hacc (ix1 (0 : Fin 1)) = ∑ h : Fin 512, v (ix2 h (0 : Fin 1)) :=
  (Ideal.multiReduction_add_single v _ hr hφ hacc (ix1 (0 : Fin 1))).trans
    (Finset.sum_congr rfl fun k _ => congrArg v (funext fun a => Fin.ext (by
      match a with
      | ⟨0, _⟩ => rfl
      | ⟨1, _⟩ => rfl)))

/-- A vector of row sums written as a column. -/
theorem cast_a_a1 {α : Type} (v : S512.Idx → α) (hc : S512.ShapeCasts S512x1) (h : Fin 512) :
    shapeCast S512x1 v hc (ix2 h (0 : Fin 1)) = v (ix1 h) :=
  shapeCast_apply v hc (ix2 h (0 : Fin 1)) (ix1 h) (by
    rw [Shape.rowMajor_val_one, Shape.rowMajor_val_two]
    show h.val = h.val * 1 + 0
    omega)

/-- The tile's sum added to the running sum: what the last payload does with the per-pixel values. -/
theorem tail_sum (v414 : FVec Ideal S512x256 .f32) (acc : Vec Ideal S1x1 .f32) (g : Fin 512 → Fin 256 → ℝ)
    (hg : ∀ h w, v414 (ix2 h w) = ((g h w : ℝ) : EReal))
    (hr1 : S512x256.Reduces [1] S512) (hr2 : S512x1.Reduces [0] S1) (hφ : FKind.Formats .f32)
    (hacc : (0x00000000#32 : BitVec 32) = FKind.add.neutral .f32 hφ)
    (hc1 : S512.ShapeCasts S512x1) (hc2 : S1.ShapeCasts S1x1) (hc3 : S1x1.ShapeCasts S1x1) :
    shapeCast S1x1 (addf (F := Ideal) acc (shapeCast S1x1 (multiReduction (F := Ideal) .add [0] S1
        (shapeCast S512x1 (multiReduction (F := Ideal) .add [1] S512 v414 0x00000000#32 hr1 hφ hacc) hc1)
        0x00000000#32 hr2 hφ hacc) hc2)) hc3 (ix2 (0 : Fin 1) (0 : Fin 1))
      = acc (ix2 (0 : Fin 1) (0 : Fin 1)) + (((∑ h : Fin 512, ∑ w : Fin 256, g h w) : ℝ) : EReal) := by
  rw [shapeCast_self, addf_apply, shapeCast_a_1a_apply, row_sum]
  congr 1
  rw [coe_sum]
  refine Finset.sum_congr rfl fun h _ => ?_
  rw [cast_a_a1, lane_sum, coe_sum]
  exact Finset.sum_congr rfl fun w _ => hg h w

/-- The last payload: the last two classes' exponentials, the logarithm, the label's margined logit taken off, the lane
    sums, the running sum. -/
theorem pay1_val (v4 : IVec S512x256 32) (v171 v176 v179 v389 v398 : FVec Ideal S512x256 .f32)
    (v401 : Vec Ideal S1x1x512x256 .f32) (acc : Vec Ideal S1x1 .f32)
    (n : Fin 512 → Fin 256 → ℕ) (R G B S d a20 : Fin 512 → Fin 256 → ℝ)
    (hn : ∀ h w, n h w < 21) (hS : ∀ h w, 0 < S h w)
    (h4 : ∀ h w, v4 (ix2 h w) = BitVec.ofNat 32 (n h w))
    (h171 : ∀ h w, v171 (ix2 h w) = ((R h w : ℝ) : EReal)) (h176 : ∀ h w, v176 (ix2 h w) = ((G h w : ℝ) : EReal))
    (h179 : ∀ h w, v179 (ix2 h w) = ((B h w : ℝ) : EReal)) (h389 : ∀ h w, v389 (ix2 h w) = ((S h w : ℝ) : EReal))
    (h398 : ∀ h w, v398 (ix2 h w) = ((d h w : ℝ) : EReal))
    (h401 : ∀ h w, v401 (ix4 (0 : Fin 1) (0 : Fin 1) h w) = ((a20 h w : ℝ) : EReal)) :
    k1_pay1 (F := Ideal) v4 v171 v176 v179 v389 v398 v401 acc (ix2 (0 : Fin 1) (0 : Fin 1))
      = acc (ix2 (0 : Fin 1) (0 : Fin 1))
        + (((∑ h : Fin 512, ∑ w : Fin 256,
            (R h w + Real.log (S h w + Real.exp (d h w) + eTerm (n h w) 20 (a20 h w) (G h w) (R h w)) - B h w)) : ℝ) : EReal) := by
  unfold k1_pay1
  refine tail_sum _ acc _ (fun h w => ?_) _ _ _ _ _ _ _
  have hpos : ¬ (S h w + Real.exp (d h w) + eTerm (n h w) 20 (a20 h w) (G h w) (R h w) ≤ 0) :=
    not_le.mpr (add_pos (add_pos (hS h w) (Real.exp_pos _)) (Real.exp_pos _))
  simp only [maximumf_apply, mulf_apply, subf_apply, addf_apply, select_apply, cmpi_apply, exp_apply, log_apply, broadcast_apply,
    cast_11ab, c30, sel_label, hn h w, Nat.reduceLT, h4 h w, h171 h w, h176 h w, h179 h w, h389 h w, h398 h w, h401 h w,
    ← EReal.coe_mul, ← EReal.coe_sub, ← EReal.coe_add, ← coe_ite, Ideal.exp_coe, Ideal.log_coe]
  rw [if_neg (by unfold eTerm at hpos; exact hpos)]
  simp only [← EReal.coe_add, ← EReal.coe_sub, eTerm]

end Cert.KernelIdeal.Hand

end
-- ==== Proof.KI.TileValue.lean ====
/-
  The tile step of the loss kernel on real data: the running sum it keeps grows by the sum, over the tile's pixels,
  of the pixel loss. The running values of the step are named as the program names them, each is read at a pixel
  from the per-payload lemmas, and the last payload's lane sums add the per-pixel losses to the running sum.
-/
import proofs.«419586_j34471407518059_3_alg».proof.Proof.KI.TileValueB
import proofs.«419586_j34471407518059_3_alg».proof.Proof.KI.TileValueC
import proofs.«419586_j34471407518059_3_alg».proof.Proof.KI.TileValueD

noncomputable section

namespace Cert.KernelIdeal.Hand

open Idealize.ShloMosaic Idealize.ShloMosaic.ValueIdx Idealize.SL.Sem
open Cert.KernelIdeal Cert.KernelIdeal.Gen

/-! # The tile step's value: the running sum grows by the tile's summed loss -/

/-! ## The running values, named as the program names them -/

section Stages
variable {F : FTy → Type} [FloatOps F]
variable (x0 : Vec F S1x21x512x256 .f32) (x1 : Vec F S1x512x256 .i32) (x2 : Vec F S1x512x256 .f32)

abbrev P0 : Vec F S1x1x512x256 .f32 := View.ld x0 rP0
abbrev P1 : Vec F S1x1x512x256 .f32 := View.ld x0 rP1
abbrev P2 : Vec F S1x1x512x256 .f32 := View.ld x0 rP2
abbrev P3 : Vec F S1x1x512x256 .f32 := View.ld x0 rP3
abbrev P4 : Vec F S1x1x512x256 .f32 := View.ld x0 rP4
abbrev P5 : Vec F S1x1x512x256 .f32 := View.ld x0 rP5
abbrev P6 : Vec F S1x1x512x256 .f32 := View.ld x0 rP6
abbrev P7 : Vec F S1x1x512x256 .f32 := View.ld x0 rP7
abbrev P8 : Vec F S1x1x512x256 .f32 := View.ld x0 rP8
abbrev P9 : Vec F S1x1x512x256 .f32 := View.ld x0 rP9
abbrev P10 : Vec F S1x1x512x256 .f32 := View.ld x0 rP10
abbrev P11 : Vec F S1x1x512x256 .f32 := View.ld x0 rP11
abbrev P12 : Vec F S1x1x512x256 .f32 := View.ld x0 rP12
abbrev P13 : Vec F S1x1x512x256 .f32 := View.ld x0 rP13
abbrev P14 : Vec F S1x1x512x256 .f32 := View.ld x0 rP14
abbrev P15 : Vec F S1x1x512x256 .f32 := View.ld x0 rP15
abbrev P16 : Vec F S1x1x512x256 .f32 := View.ld x0 rP16
abbrev P17 : Vec F S1x1x512x256 .f32 := View.ld x0 rP17
abbrev P18 : Vec F S1x1x512x256 .f32 := View.ld x0 rP18
abbrev P19 : Vec F S1x1x512x256 .f32 := View.ld x0 rP19
abbrev P20 : Vec F S1x1x512x256 .f32 := View.ld x0 rP20
/-- The label block and the margin block as loaded. -/
abbrev Lb : Vec F S1x512x256 .i32 := View.ld x1 rT
abbrev Mg : Vec F S1x512x256 .f32 := View.ld x2 rM

def tV4 : IVec S512x256 32 := k1_pay4 (Lb x1)
def tV27 : FVec F S512x256 .f32 := k1_pay8 (P0 x0) (P1 x0) (P2 x0)
def tV28 : FVec F S512x256 .f32 := k1_pay9 (Lb x1) (P0 x0) (P1 x0) (P2 x0)
def tV59 : FVec F S512x256 .f32 := k1_pay14 (tV27 x0) (P3 x0) (P4 x0) (P5 x0) (P6 x0)
def tV60 : FVec F S512x256 .f32 := k1_pay15 (tV4 x1) (tV28 x0 x1) (P3 x0) (P4 x0) (P5 x0) (P6 x0)
def tV62 : FVec F S512x256 .f32 := k1_pay16 (P7 x0)
def tV91 : FVec F S512x256 .f32 := k1_pay21 (tV59 x0) (tV62 x0) (k1_pay17 (F := F)) (P8 x0) (P9 x0) (P10 x0)
def tV92 : FVec F S512x256 .f32 := k1_pay22 (tV4 x1) (tV60 x0 x1) (tV62 x0) (P8 x0) (P9 x0) (P10 x0)
def tV131 : FVec F S512x256 .f32 := k1_pay30 (tV91 x0) (k1_pay24 (P11 x0)) (P12 x0) (P13 x0) (P14 x0) (P15 x0)
def tV132 : FVec F S512x256 .f32 :=
  k1_pay31 (tV4 x1) (tV92 x0 x1) (k1_pay23 (P11 x0)) (k1_pay25 (tV4 x1)) (P12 x0) (P13 x0) (P14 x0) (P15 x0)
def tV163 : FVec F S512x256 .f32 := k1_pay36 (tV131 x0) (P16 x0) (P17 x0) (P18 x0) (P19 x0)
def tV164 : FVec F S512x256 .f32 := k1_pay37 (tV4 x1) (tV132 x0 x1) (P16 x0) (P17 x0) (P18 x0) (P19 x0)
def tV166 : FVec F S512x256 .f32 := k1_pay38 (P20 x0)
def tV171 : FVec F S512x256 .f32 := k1_pay39 (tV163 x0) (tV166 x0)
def tV176 : FVec F S512x256 .f32 := k1_pay40 (Mg x2)
def tV179 : FVec F S512x256 .f32 := k1_pay41 (tV4 x1) (tV164 x0 x1) (tV166 x0) (Mg x2)
def tV202 : FVec F S512x256 .f32 := k1_pay42 (tV4 x1) (tV163 x0) (tV166 x0) (Mg x2) (P0 x0) (P1 x0)
def tV235 : FVec F S512x256 .f32 := k1_pay43 (tV4 x1) (tV171 x0) (tV176 x2) (tV202 x0 x1 x2) (P2 x0) (P3 x0) (P4 x0)
def tV279 : FVec F S512x256 .f32 :=
  k1_pay47 (tV4 x1) (tV171 x0) (tV176 x2) (tV235 x0 x1 x2) (k1_pay44 (P5 x0)) (k1_pay45 (tV4 x1)) (k1_pay46 (tV176 x2) (P5 x0))
    (P6 x0) (P7 x0) (P8 x0)
def tV312 : FVec F S512x256 .f32 := k1_pay48 (tV4 x1) (tV171 x0) (tV176 x2) (tV279 x0 x1 x2) (P9 x0) (P10 x0) (P11 x0)
def tV356 : FVec F S512x256 .f32 :=
  k1_pay50 (tV4 x1) (tV171 x0) (tV176 x2) (tV312 x0 x1 x2) (k1_pay49 (tV4 x1) (tV176 x2) (P12 x0)) (P13 x0) (P14 x0) (P15 x0)
def tV389 : FVec F S512x256 .f32 :=
  k1_pay52 (tV4 x1) (tV171 x0) (tV176 x2) (tV356 x0 x1 x2) (k1_pay51 (P16 x0)) (P17 x0) (P18 x0)
def tV398 : FVec F S512x256 .f32 := k1_pay53 (tV4 x1) (tV171 x0) (tV176 x2) (P19 x0)

/-- The tile step is the last payload over the running values. -/
theorem accNew_eq (acc : Vec F S1x1 .f32) :
    accNew x0 x1 x2 acc
      = k1_pay1 (tV4 x1) (tV171 x0) (tV176 x2) (tV179 x0 x1 x2) (tV389 x0 x1 x2) (tV398 x0 x1 x2) (P20 x0) acc := rfl

end Stages

/-! ## The running values at a pixel, for real data -/

section Values
variable (x0 : Vec Ideal S1x21x512x256 .f32) (x1 : Vec Ideal S1x512x256 .i32) (x2 : Vec Ideal S1x512x256 .f32)
variable (x : Fin 21 → Fin 512 → Fin 256 → ℝ) (l : Fin 512 → Fin 256 → Fin 21) (m : Fin 512 → Fin 256 → ℝ)
variable (hx0 : ∀ k h w, x0 (ix4 (0 : Fin 1) k h w) = ((x k h w : ℝ) : EReal))
variable (hx1 : ∀ h w, x1 (ix3 (0 : Fin 1) h w) = BitVec.ofNat 32 (l h w).val)
variable (hx2 : ∀ h w, x2 (ix3 (0 : Fin 1) h w) = ((m h w : ℝ) : EReal))

/-- The pixel's logits as a sequence over the class numbers. -/
abbrev a (h : Fin 512) (w : Fin 256) : ℕ → ℝ := Xn fun c => x c h w

include hx0 in
/-- Class plane `k` as loaded, at a pixel. -/
theorem hP (k : Nat) (hk : k < 21)
    {inb : ∀ i, (![0, k, 0, 0] : Fin 4 → Nat) i + S1x1x512x256.size i ≤ S1x21x512x256.size i} (h : Fin 512) (w : Fin 256) :
    (View.ld x0 (Rect.unit (s := S1x21x512x256) ![0, k, 0, 0] S1x1x512x256.size inb) : Vec Ideal S1x1x512x256 .f32) (ix4 (0 : Fin 1) (0 : Fin 1) h w)
      = ((a x h w k : ℝ) : EReal) := by
  rw [ld_plane x0 k hk inb h w, hx0]
  unfold a Xn
  rw [dif_pos hk]

include hx1 in
theorem hLb (h : Fin 512) (w : Fin 256) : Lb x1 (ix3 (0 : Fin 1) h w) = BitVec.ofNat 32 (l h w).val := by
  show (View.ld x1 rT : Vec Ideal S1x512x256 .i32) _ = _
  rw [ld_whole3]; exact hx1 h w

include hx2 in
theorem hMg (h : Fin 512) (w : Fin 256) : Mg x2 (ix3 (0 : Fin 1) h w) = ((m h w : ℝ) : EReal) := by
  show (View.ld x2 rT : Vec Ideal S1x512x256 .f32) _ = _
  rw [ld_whole3]; exact hx2 h w

variable (h : Fin 512) (w : Fin 256)

include hx1 in
theorem tV4_at : tV4 x1 (ix2 h w) = BitVec.ofNat 32 (l h w).val :=
  pay4_at h w _ _ (hLb x1 l hx1 h w)

include hx0 in
theorem tV27_at : tV27 x0 (ix2 h w) = ((mx (a x h w) 2 : ℝ) : EReal) :=
  pay8_at h w _ _ _ (a x h w 0) (a x h w 1) (a x h w 2) (hP x0 x hx0 0 (by norm_num) h w) (hP x0 x hx0 1 (by norm_num) h w) (hP x0 x hx0 2 (by norm_num) h w)

include hx0 hx1 in
theorem tV28_at : tV28 x0 x1 (ix2 h w) = ((sl (a x h w) (l h w).val 2 : ℝ) : EReal) :=
  pay9_at h w _ _ _ _ (l h w).val (l h w).isLt (a x h w 0) (a x h w 1) (a x h w 2) (hLb x1 l hx1 h w) (hP x0 x hx0 0 (by norm_num) h w) (hP x0 x hx0 1 (by norm_num) h w) (hP x0 x hx0 2 (by norm_num) h w)

include hx0 in
theorem tV59_at : tV59 x0 (ix2 h w) = ((mx (a x h w) 6 : ℝ) : EReal) :=
  pay14_at h w _ _ _ _ _ (mx (a x h w) 2) (a x h w 3) (a x h w 4) (a x h w 5) (a x h w 6) (tV27_at x0 x hx0 h w) (hP x0 x hx0 3 (by norm_num) h w) (hP x0 x hx0 4 (by norm_num) h w) (hP x0 x hx0 5 (by norm_num) h w) (hP x0 x hx0 6 (by norm_num) h w)

include hx0 hx1 in
theorem tV60_at : tV60 x0 x1 (ix2 h w) = ((sl (a x h w) (l h w).val 6 : ℝ) : EReal) :=
  pay15_at h w _ _ _ _ _ _ (l h w).val (l h w).isLt (sl (a x h w) (l h w).val 2) (a x h w 3) (a x h w 4) (a x h w 5) (a x h w 6)
    (tV4_at x1 l hx1 h w) (tV28_at x0 x1 x l hx0 hx1 h w) (hP x0 x hx0 3 (by norm_num) h w) (hP x0 x hx0 4 (by norm_num) h w) (hP x0 x hx0 5 (by norm_num) h w) (hP x0 x hx0 6 (by norm_num) h w)

include hx0 in
theorem tV62_at : tV62 x0 (ix2 h w) = ((a x h w 7 : ℝ) : EReal) := pay16_at h w _ _ (hP x0 x hx0 7 (by norm_num) h w)

include hx0 in
theorem tV91_at : tV91 x0 (ix2 h w) = ((mx (a x h w) 10 : ℝ) : EReal) :=
  pay21_at h w _ _ _ _ _ _ (mx (a x h w) 6) (a x h w 7) (a x h w 8) (a x h w 9) (a x h w 10) (tV59_at x0 x hx0 h w) (tV62_at x0 x hx0 h w)
    (pay17_at h w) (hP x0 x hx0 8 (by norm_num) h w) (hP x0 x hx0 9 (by norm_num) h w) (hP x0 x hx0 10 (by norm_num) h w)

include hx0 hx1 in
theorem tV92_at : tV92 x0 x1 (ix2 h w) = ((sl (a x h w) (l h w).val 10 : ℝ) : EReal) :=
  pay22_at h w _ _ _ _ _ _ (l h w).val (l h w).isLt (sl (a x h w) (l h w).val 6) (a x h w 7) (a x h w 8) (a x h w 9) (a x h w 10)
    (tV4_at x1 l hx1 h w) (tV60_at x0 x1 x l hx0 hx1 h w) (tV62_at x0 x hx0 h w) (hP x0 x hx0 8 (by norm_num) h w) (hP x0 x hx0 9 (by norm_num) h w) (hP x0 x hx0 10 (by norm_num) h w)

include hx0 in
theorem tV131_at : tV131 x0 (ix2 h w) = ((mx (a x h w) 15 : ℝ) : EReal) :=
  pay30_at h w _ _ _ _ _ _ (mx (a x h w) 10) (30 * a x h w 11) (a x h w 12) (a x h w 13) (a x h w 14) (a x h w 15) (tV91_at x0 x hx0 h w)
    (pay24_at h w _ _ (hP x0 x hx0 11 (by norm_num) h w)) (hP x0 x hx0 12 (by norm_num) h w) (hP x0 x hx0 13 (by norm_num) h w) (hP x0 x hx0 14 (by norm_num) h w) (hP x0 x hx0 15 (by norm_num) h w)

include hx0 hx1 in
theorem tV132_at : tV132 x0 x1 (ix2 h w) = ((sl (a x h w) (l h w).val 15 : ℝ) : EReal) :=
  pay31_at h w _ _ _ _ _ _ _ _ (l h w).val (l h w).isLt (sl (a x h w) (l h w).val 10) (a x h w 11) (a x h w 12) (a x h w 13) (a x h w 14) (a x h w 15)
    (tV4_at x1 l hx1 h w) (tV92_at x0 x1 x l hx0 hx1 h w) (pay23_at h w _ _ (hP x0 x hx0 11 (by norm_num) h w)) (pay25_at h w _ _ (tV4_at x1 l hx1 h w))
    (hP x0 x hx0 12 (by norm_num) h w) (hP x0 x hx0 13 (by norm_num) h w) (hP x0 x hx0 14 (by norm_num) h w) (hP x0 x hx0 15 (by norm_num) h w)

include hx0 in
theorem tV163_at : tV163 x0 (ix2 h w) = ((mx (a x h w) 19 : ℝ) : EReal) :=
  pay36_at h w _ _ _ _ _ (mx (a x h w) 15) (a x h w 16) (a x h w 17) (a x h w 18) (a x h w 19) (tV131_at x0 x hx0 h w) (hP x0 x hx0 16 (by norm_num) h w) (hP x0 x hx0 17 (by norm_num) h w) (hP x0 x hx0 18 (by norm_num) h w) (hP x0 x hx0 19 (by norm_num) h w)

include hx0 hx1 in
theorem tV164_at : tV164 x0 x1 (ix2 h w) = ((sl (a x h w) (l h w).val 19 : ℝ) : EReal) :=
  pay37_at h w _ _ _ _ _ _ (l h w).val (l h w).isLt (sl (a x h w) (l h w).val 15) (a x h w 16) (a x h w 17) (a x h w 18) (a x h w 19)
    (tV4_at x1 l hx1 h w) (tV132_at x0 x1 x l hx0 hx1 h w) (hP x0 x hx0 16 (by norm_num) h w) (hP x0 x hx0 17 (by norm_num) h w) (hP x0 x hx0 18 (by norm_num) h w) (hP x0 x hx0 19 (by norm_num) h w)

include hx0 in
theorem tV166_at : tV166 x0 (ix2 h w) = ((a x h w 20 : ℝ) : EReal) := pay38_at h w _ _ (hP x0 x hx0 20 (by norm_num) h w)

include hx0 in
theorem tV171_at : tV171 x0 (ix2 h w) = ((mx (a x h w) 20 : ℝ) : EReal) :=
  pay39_at h w _ _ (mx (a x h w) 19) (a x h w 20) (tV163_at x0 x hx0 h w) (tV166_at x0 x hx0 h w)

include hx2 in
theorem tV176_at : tV176 x2 (ix2 h w) = ((30 * m h w : ℝ) : EReal) := pay40_at h w _ _ (hMg x2 m hx2 h w)

include hx0 hx1 hx2 in
theorem tV179_at : tV179 x0 x1 x2 (ix2 h w) = ((30 * sl (a x h w) (l h w).val 20 - 30 * m h w : ℝ) : EReal) :=
  pay41_at h w _ _ _ _ (l h w).val (l h w).isLt (sl (a x h w) (l h w).val 19) (a x h w 20) (m h w)
    (tV4_at x1 l hx1 h w) (tV164_at x0 x1 x l hx0 hx1 h w) (tV166_at x0 x hx0 h w) (hMg x2 m hx2 h w)

/-- The running sum of exponentials through class `k` at the pixel: lowered by the scaled margin at the label,
    shifted by the largest scaled logit. -/
abbrev sp (k : ℕ) : ℝ := sm (a x h w) (l h w).val (30 * m h w) (mx (a x h w) 20) k

include hx0 hx1 hx2 in
theorem tV202_at : tV202 x0 x1 x2 (ix2 h w) = ((sp x l m h w 1 : ℝ) : EReal) :=
  pay42_at h w _ _ _ _ _ _ (l h w).val (l h w).isLt (mx (a x h w) 19) (a x h w 20) (m h w) (a x h w 0) (a x h w 1)
    (tV4_at x1 l hx1 h w) (tV163_at x0 x hx0 h w) (tV166_at x0 x hx0 h w) (hMg x2 m hx2 h w) (hP x0 x hx0 0 (by norm_num) h w) (hP x0 x hx0 1 (by norm_num) h w)

include hx0 hx1 hx2 in
theorem tV235_at : tV235 x0 x1 x2 (ix2 h w) = ((sp x l m h w 4 : ℝ) : EReal) :=
  pay43_at h w _ _ _ _ _ _ _ (l h w).val (l h w).isLt (mx (a x h w) 20) (30 * m h w) (sp x l m h w 1) (a x h w 2) (a x h w 3) (a x h w 4)
    (tV4_at x1 l hx1 h w) (tV171_at x0 x hx0 h w) (tV176_at x2 m hx2 h w) (tV202_at x0 x1 x2 x l m hx0 hx1 hx2 h w) (hP x0 x hx0 2 (by norm_num) h w) (hP x0 x hx0 3 (by norm_num) h w) (hP x0 x hx0 4 (by norm_num) h w)

include hx0 hx1 hx2 in
theorem tV279_at : tV279 x0 x1 x2 (ix2 h w) = ((sp x l m h w 8 : ℝ) : EReal) :=
  pay47_at h w _ _ _ _ _ _ _ _ _ _ (l h w).val (l h w).isLt (mx (a x h w) 20) (30 * m h w) (sp x l m h w 4) (a x h w 5) (a x h w 6) (a x h w 7) (a x h w 8)
    (tV4_at x1 l hx1 h w) (tV171_at x0 x hx0 h w) (tV176_at x2 m hx2 h w) (tV235_at x0 x1 x2 x l m hx0 hx1 hx2 h w)
    (pay44_at h w _ _ (hP x0 x hx0 5 (by norm_num) h w)) (pay45_at h w _ _ (tV4_at x1 l hx1 h w)) (pay46_at h w _ _ _ _ (tV176_at x2 m hx2 h w) (hP x0 x hx0 5 (by norm_num) h w))
    (hP x0 x hx0 6 (by norm_num) h w) (hP x0 x hx0 7 (by norm_num) h w) (hP x0 x hx0 8 (by norm_num) h w)

include hx0 hx1 hx2 in
theorem tV312_at : tV312 x0 x1 x2 (ix2 h w) = ((sp x l m h w 11 : ℝ) : EReal) :=
  pay48_at h w _ _ _ _ _ _ _ (l h w).val (l h w).isLt (mx (a x h w) 20) (30 * m h w) (sp x l m h w 8) (a x h w 9) (a x h w 10) (a x h w 11)
    (tV4_at x1 l hx1 h w) (tV171_at x0 x hx0 h w) (tV176_at x2 m hx2 h w) (tV279_at x0 x1 x2 x l m hx0 hx1 hx2 h w) (hP x0 x hx0 9 (by norm_num) h w) (hP x0 x hx0 10 (by norm_num) h w) (hP x0 x hx0 11 (by norm_num) h w)

include hx0 hx1 hx2 in
theorem tV356_at : tV356 x0 x1 x2 (ix2 h w) = ((sp x l m h w 15 : ℝ) : EReal) :=
  pay50_at h w _ _ _ _ _ _ _ _ (l h w).val (l h w).isLt (mx (a x h w) 20) (30 * m h w) (sp x l m h w 11) (a x h w 12) (a x h w 13) (a x h w 14) (a x h w 15)
    (tV4_at x1 l hx1 h w) (tV171_at x0 x hx0 h w) (tV176_at x2 m hx2 h w) (tV312_at x0 x1 x2 x l m hx0 hx1 hx2 h w)
    (pay49_at h w _ _ _ (l h w).val (l h w).isLt _ _ (tV4_at x1 l hx1 h w) (tV176_at x2 m hx2 h w) (hP x0 x hx0 12 (by norm_num) h w)) (hP x0 x hx0 13 (by norm_num) h w) (hP x0 x hx0 14 (by norm_num) h w) (hP x0 x hx0 15 (by norm_num) h w)

include hx0 hx1 hx2 in
theorem tV389_at : tV389 x0 x1 x2 (ix2 h w) = ((sp x l m h w 18 : ℝ) : EReal) :=
  pay52_at h w _ _ _ _ _ _ _ (l h w).val (l h w).isLt (mx (a x h w) 20) (30 * m h w) (sp x l m h w 15) (a x h w 16) (a x h w 17) (a x h w 18)
    (tV4_at x1 l hx1 h w) (tV171_at x0 x hx0 h w) (tV176_at x2 m hx2 h w) (tV356_at x0 x1 x2 x l m hx0 hx1 hx2 h w)
    (pay51_at h w _ _ (hP x0 x hx0 16 (by norm_num) h w)) (hP x0 x hx0 17 (by norm_num) h w) (hP x0 x hx0 18 (by norm_num) h w)

include hx0 hx1 hx2 in
theorem tV398_at : tV398 x0 x1 x2 (ix2 h w)
    = (((if (l h w).val = 19 then 30 * a x h w 19 - 30 * m h w else 30 * a x h w 19) - mx (a x h w) 20 : ℝ) : EReal) :=
  pay53_at h w _ _ _ _ (l h w).val (l h w).isLt (mx (a x h w) 20) (30 * m h w) (a x h w 19)
    (tV4_at x1 l hx1 h w) (tV171_at x0 x hx0 h w) (tV176_at x2 m hx2 h w) (hP x0 x hx0 19 (by norm_num) h w)

end Values

/-! ## The tile step -/

/-- The running sum after a tile of real data is the running sum before it plus the tile's summed loss. -/
theorem accNew_value (x0 : Vec Ideal S1x21x512x256 .f32) (x1 : Vec Ideal S1x512x256 .i32) (x2 : Vec Ideal S1x512x256 .f32) (acc : Vec Ideal S1x1 .f32)
    (x : Fin 21 → Fin 512 → Fin 256 → ℝ) (l : Fin 512 → Fin 256 → Fin 21) (m : Fin 512 → Fin 256 → ℝ)
    (hx0 : ∀ k h w, x0 (ix4 (0 : Fin 1) k h w) = ((x k h w : ℝ) : EReal))
    (hx1 : ∀ h w, x1 (ix3 (0 : Fin 1) h w) = BitVec.ofNat 32 (l h w).val)
    (hx2 : ∀ h w, x2 (ix3 (0 : Fin 1) h w) = ((m h w : ℝ) : EReal)) :
    accNew (F := Ideal) x0 x1 x2 acc (ix2 (0 : Fin 1) (0 : Fin 1))
      = acc (ix2 (0 : Fin 1) (0 : Fin 1))
        + (((∑ h : Fin 512, ∑ w : Fin 256, Cert.Ldam.nllK (fun k => x k h w) (l h w) (m h w)) : ℝ) : EReal) := by
  rw [accNew_eq]
  refine (pay1_val _ _ _ _ _ _ _ acc (fun h w => (l h w).val) (fun h w => mx (a x h w) 20) (fun h w => 30 * m h w)
    (fun h w => 30 * sl (a x h w) (l h w).val 20 - 30 * m h w) (fun h w => sp x l m h w 18)
    (fun h w => (if (l h w).val = 19 then 30 * a x h w 19 - 30 * m h w else 30 * a x h w 19) - mx (a x h w) 20)
    (fun h w => a x h w 20)
    (fun h w => (l h w).isLt) (fun h w => sm_pos _ _ _ _ _)
    (fun h w => tV4_at x1 l hx1 h w) (fun h w => tV171_at x0 x hx0 h w) (fun h w => tV176_at x2 m hx2 h w)
    (fun h w => tV179_at x0 x1 x2 x l m hx0 hx1 hx2 h w) (fun h w => tV389_at x0 x1 x2 x l m hx0 hx1 hx2 h w)
    (fun h w => tV398_at x0 x1 x2 x l m hx0 hx1 hx2 h w) (fun h w => hP x0 x hx0 20 (by norm_num) h w)).trans ?_
  refine congrArg (fun t : ℝ => acc (ix2 (0 : Fin 1) (0 : Fin 1)) + (t : EReal)) ?_
  refine Finset.sum_congr rfl fun h _ => Finset.sum_congr rfl fun w _ => ?_
  exact pixel_eq_nllK (fun c => x c h w) (l h w) (m h w)

/-! ## The reset and the write-out -/

/-- The first tile of a batch entry resets the running sum to zero. -/
theorem zeroAcc_value : zeroAcc (F := Ideal) (ix2 (0 : Fin 1) (0 : Fin 1)) = 0 := by
  unfold zeroAcc k1_pay3
  rw [shapeCast_self]
  simp only [broadcast_apply]
  exact Cert.Ldam.fofBits_zero

/-- The second tile of a batch entry writes the running sum out unchanged. -/
theorem flushVal_value (s : Vec Ideal S1x1 .f32) :
    flushVal (F := Ideal) s (ix3 (0 : Fin 1) (0 : Fin 1) (0 : Fin 1)) = s (ix2 (0 : Fin 1) (0 : Fin 1)) := by
  unfold flushVal k1_pay2
  exact shapeCast_ab_1ab_apply s _ 0 0 0

end Cert.KernelIdeal.Hand

end
-- ==== Proof.KI.Value1.lean ====
/- REGION 1 of the kernel program, the value half at the ideal floats: what the per-pixel loss kernel leaves in
   its output array. Point t of the grid is tile t mod 2 (256 columns) of batch entry t div 2; an even point resets
   the running sum and adds its tile's summed loss, the odd point after it adds its own tile's and writes the sum
   out as row t div 2 of the totals. The 512 columns of an image are the 256 of the even tile and the 256 of the
   odd one, so, when the logit, label and margin arrays hold xr, the words of lab and the margin table's entries at
   the labels, entry (b, 0, 0) of the totals array is image b's summed loss, read in the extended reals. -/
import proofs.«419586_j34471407518059_3_alg».proof.Proof.KI.Region1Vals
import proofs.«419586_j34471407518059_3_alg».proof.Proof.KI.TileValue
import proofs.«419586_j34471407518059_3_alg».proof.Proof.Spec
import proofs.«419586_j34471407518059_3_alg».proof.Proof.Consts
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-! ## The grid: point t is tile t mod 2 of batch entry t div 2 -/

/-- The index maps over the grid: point t reads columns 256 (t mod 2) … of batch entry t div 2, and its output
    block is row t div 2 of the totals. -/
theorem idx_facts1 : ∀ t : Fin cfg1.N,
    win1_0.index t (0 : Fin 4) = t.val / 2 ∧ win1_0.index t (1 : Fin 4) = 0 ∧ win1_0.index t (2 : Fin 4) = 0 ∧ win1_0.index t (3 : Fin 4) = t.val % 2
    ∧ win1_1.index t (0 : Fin 3) = t.val / 2 ∧ win1_1.index t (1 : Fin 3) = 0 ∧ win1_1.index t (2 : Fin 3) = t.val % 2
    ∧ win1_2.index t (0 : Fin 3) = t.val / 2 ∧ win1_2.index t (1 : Fin 3) = 0 ∧ win1_2.index t (2 : Fin 3) = t.val % 2
    ∧ win1_3.index t (0 : Fin 3) = t.val / 2 ∧ win1_3.index t (1 : Fin 3) = 0 ∧ win1_3.index t (2 : Fin 3) = 0 :=
  (by decide +kernel : ∀ t : Fin grid1.N, _)

theorem lt16 (t : Fin cfg1.N) : t.val < 16 := t.isLt.trans_eq (show cfg1.N = 16 from N_1)

/-- The batch entry of a point. -/
def bOf (t : Fin cfg1.N) : Fin 8 := ⟨t.val / 2, by have := lt16 t; omega⟩
/-- The column of the image that column w of the point's tile is. -/
def colOf (t : Fin cfg1.N) (w : Fin 256) : Fin 512 := ⟨t.val % 2 * 256 + w.val, by have := w.isLt; omega⟩

section Blocks

variable (V : (c : Dev nD) → (b : Ref sig .tc) → Buf (Elt Ideal) ((c : Thread nD τ).loc b))

/-- The logit, label and margin blocks a point reads, at their literal types. -/
abbrev xblk1 (c : Dev nD) (t : Fin cfg1.N) : Vec Ideal S1x21x512x256 .f32 := iblk1 V c 0 t
abbrev lblk1 (c : Dev nD) (t : Fin cfg1.N) : Vec Ideal S1x512x256 .i32 := iblk1 V c 1 t
abbrev mblk1 (c : Dev nD) (t : Fin cfg1.N) : Vec Ideal S1x512x256 .f32 := iblk1 V c 2 t

theorem xblk1_apply (c : Dev nD) (t : Fin cfg1.N) (k : Fin 21) (h : Fin 512) (w : Fin 256) :
    xblk1 V c t (ix4 0 k h w) = (V c main_arg0 : FVec Ideal S8x21x512x512 .f32) (ix4 (bOf t) k h (colOf t w)) := by
  obtain ⟨e0, e1, e2, e3, -⟩ := idx_facts1 t
  unfold xblk1 iblk1
  rw [View.read_apply]
  show V c main_arg0 _ = V c main_arg0 _
  congr 1
  funext a
  apply Fin.ext
  match a with
  | ⟨0, _⟩ => show win1_0.index t 0 * 1 + 1 * 0 = t.val / 2; omega
  | ⟨1, _⟩ => show win1_0.index t 1 * 21 + 1 * k.val = k.val; omega
  | ⟨2, _⟩ => show win1_0.index t 2 * 512 + 1 * h.val = h.val; omega
  | ⟨3, _⟩ => show win1_0.index t 3 * 256 + 1 * w.val = t.val % 2 * 256 + w.val; omega

theorem lblk1_apply (c : Dev nD) (t : Fin cfg1.N) (h : Fin 512) (w : Fin 256) :
    lblk1 V c t (ix3 0 h w) = (V c main_arg1 : IVec S8x512x512 32) (ix3 (bOf t) h (colOf t w)) := by
  obtain ⟨-, -, -, -, e0, e1, e2, -⟩ := idx_facts1 t
  unfold lblk1 iblk1
  rw [View.read_apply]
  show V c main_arg1 _ = V c main_arg1 _
  congr 1
  funext a
  apply Fin.ext
  match a with
  | ⟨0, _⟩ => show win1_1.index t 0 * 1 + 1 * 0 = t.val / 2; omega
  | ⟨1, _⟩ => show win1_1.index t 1 * 512 + 1 * h.val = h.val; omega
  | ⟨2, _⟩ => show win1_1.index t 2 * 256 + 1 * w.val = t.val % 2 * 256 + w.val; omega

theorem mblk1_apply (c : Dev nD) (t : Fin cfg1.N) (h : Fin 512) (w : Fin 256) :
    mblk1 V c t (ix3 0 h w) = (V c main_v19 : FVec Ideal S8x512x512 .f32) (ix3 (bOf t) h (colOf t w)) := by
  obtain ⟨-, -, -, -, -, -, -, e0, e1, e2, -⟩ := idx_facts1 t
  unfold mblk1 iblk1
  rw [View.read_apply]
  show V c main_v19 _ = V c main_v19 _
  congr 1
  funext a
  apply Fin.ext
  match a with
  | ⟨0, _⟩ => show win1_2.index t 0 * 1 + 1 * 0 = t.val / 2; omega
  | ⟨1, _⟩ => show win1_2.index t 1 * 512 + 1 * h.val = h.val; omega
  | ⟨2, _⟩ => show win1_2.index t 2 * 256 + 1 * w.val = t.val % 2 * 256 + w.val; omega

end Blocks

/-! ## The tiles' sums -/

section Values

variable (V : (c : Dev nD) → (b : Ref sig .tc) → Buf (Elt Ideal) ((c : Thread nD τ).loc b))
variable (xr : Fin 8 → Fin 21 → Fin 512 → Fin 512 → ℝ) (lab : Fin 8 → Fin 512 → Fin 512 → Fin 21) (mr : Fin 21 → ℝ)

/-- A pixel's loss, its margin the entry of the margin table at its label. -/
abbrev pixLoss (b : Fin 8) (h w : Fin 512) : ℝ := Cert.Ldam.nllK (fun k => xr b k h w) (lab b h w) (mr (lab b h w))

/-- The summed loss of the tile of point t. -/
def tileSum (t : Fin cfg1.N) : ℝ := ∑ h : Fin 512, ∑ w : Fin 256, pixLoss xr lab mr (bOf t) h (colOf t w)

/-- The per-image summed loss as one array. -/
def totalG : S8x1x1.Idx → EReal :=
  fun i => (((∑ h : Fin 512, ∑ w : Fin 512, pixLoss xr lab mr (⟨(i 0).val, (i 0).isLt⟩ : Fin 8) h w) : ℝ) : EReal)

/-- The running sum is reset to zero. -/
theorem zeroAcc_apply : zeroAcc (F := Ideal) (ix2 (0 : Fin 1) (0 : Fin 1)) = 0 := by
  unfold zeroAcc k1_pay3
  rw [shapeCast_self]
  show Ideal.ofBits .f32 0x00000000#32 = 0
  exact Cert.Ldam.ofBits_zero

/-- A tile adds its summed loss to the running sum. -/
theorem accNew_at (c : Dev nD) (t : Fin cfg1.N) (acc : Vec Ideal S1x1 .f32)
    (hx : ∀ b k h w, (V c main_arg0 : FVec Ideal S8x21x512x512 .f32) (ix4 b k h w) = ((xr b k h w : ℝ) : EReal))
    (hl : ∀ b h w, (V c main_arg1 : IVec S8x512x512 32) (ix3 b h w) = BitVec.ofNat 32 (lab b h w).val)
    (hm : ∀ b h w, (V c main_v19 : FVec Ideal S8x512x512 .f32) (ix3 b h w) = ((mr (lab b h w) : ℝ) : EReal)) :
    accNew (F := Ideal) (xblk1 V c t) (lblk1 V c t) (mblk1 V c t) acc (ix2 (0 : Fin 1) (0 : Fin 1))
      = acc (ix2 (0 : Fin 1) (0 : Fin 1)) + ((tileSum xr lab mr t : ℝ) : EReal) :=
  accNew_value (xblk1 V c t) (lblk1 V c t) (mblk1 V c t) acc
    (fun k h w => xr (bOf t) k h (colOf t w)) (fun h w => lab (bOf t) h (colOf t w)) (fun h w => mr (lab (bOf t) h (colOf t w)))
    (fun k h w => (xblk1_apply V c t k h w).trans (hx _ _ _ _))
    (fun h w => (lblk1_apply V c t h w).trans (hl _ _ _))
    (fun h w => (mblk1_apply V c t h w).trans (hm _ _ _))

/-- The 512 columns are the 256 of an even point's tile and the 256 of the odd point's after it. -/
theorem sum_cols (f : Fin 512 → ℝ) (t t' : Fin cfg1.N) (h1 : t.val % 2 = 1) (h0 : t'.val % 2 = 0) :
    ∑ w : Fin 512, f w = ∑ w : Fin 256, f (colOf t' w) + ∑ w : Fin 256, f (colOf t w) := by
  refine (Fin.sum_univ_add (a := 256) (b := 256) f).trans ?_
  congr 1
  · refine Finset.sum_congr rfl fun w _ => congrArg f (Fin.ext ?_)
    show w.val = t'.val % 2 * 256 + w.val
    omega
  · refine Finset.sum_congr rfl fun w _ => congrArg f (Fin.ext ?_)
    show 256 + w.val = t.val % 2 * 256 + w.val
    omega

/-- An image's summed loss is its two tiles' sums added. -/
theorem total_of_tiles (b : Fin 8) (t t' : Fin cfg1.N) (hb : bOf t = b) (hb' : bOf t' = b) (h1 : t.val % 2 = 1) (h0 : t'.val % 2 = 0) :
    (∑ h : Fin 512, ∑ w : Fin 512, pixLoss xr lab mr b h w) = tileSum xr lab mr t' + tileSum xr lab mr t := by
  unfold tileSum
  rw [hb, hb', ← Finset.sum_add_distrib]
  refine Finset.sum_congr rfl fun h _ => ?_
  exact sum_cols (fun w => pixLoss xr lab mr b h w) t t' h1 h0

/-- The point before. -/
abbrev prevPt (t : Fin cfg1.N) : Fin cfg1.N := ⟨t.val - 1, Nat.lt_of_le_of_lt (Nat.sub_le _ _) t.isLt⟩

/-- After an odd point the output block holds its batch entry's summed loss. -/
theorem out_val (c : Dev nD) (t : Fin cfg1.N) (h1 : t.val % 2 = 1)
    (hx : ∀ b k h w, (V c main_arg0 : FVec Ideal S8x21x512x512 .f32) (ix4 b k h w) = ((xr b k h w : ℝ) : EReal))
    (hl : ∀ b h w, (V c main_arg1 : IVec S8x512x512 32) (ix3 b h w) = BitVec.ofNat 32 (lab b h w).val)
    (hm : ∀ b h w, (V c main_v19 : FVec Ideal S8x512x512 .f32) (ix3 b h w) = ((mr (lab b h w) : ℝ) : EReal)) :
    ((outsAt1 V c t.val t.isLt).1 : Vec Ideal S1x1x1 .f32) (ix3 (0 : Fin 1) (0 : Fin 1) (0 : Fin 1))
      = (((∑ h : Fin 512, ∑ w : Fin 512, pixLoss xr lab mr (bOf t) h w) : ℝ) : EReal) := by
  rw [out_odd V c t h1]
  unfold flushVal k1_pay2
  refine (shapeCast_ab_1ab_apply _ _ 0 0 0).trans ?_
  refine (accNew_at V xr lab mr c t _ hx hl hm).trans ?_
  rw [accNew_at V xr lab mr c (prevPt t) _ hx hl hm, zeroAcc_apply, zero_add, ← EReal.coe_add]
  refine congrArg _ (Eq.symm ?_)
  exact total_of_tiles xr lab mr (bOf t) t (prevPt t) rfl (Fin.ext (by show (t.val - 1) / 2 = t.val / 2; omega)) h1 (by show (t.val - 1) % 2 = 0; omega)

/-! ## From the blocks to the array -/

/-- What an odd point writes back is its block of the totals array. -/
theorem flushed1_eq (c : Dev nD)
    (hx : ∀ b k h w, (V c main_arg0 : FVec Ideal S8x21x512x512 .f32) (ix4 b k h w) = ((xr b k h w : ℝ) : EReal))
    (hl : ∀ b h w, (V c main_arg1 : IVec S8x512x512 32) (ix3 b h w) = BitVec.ofNat 32 (lab b h w).val)
    (hm : ∀ b h w, (V c main_v19 : FVec Ideal S8x512x512 .f32) (ix3 b h w) = ((mr (lab b h w) : ℝ) : EReal))
    (t : Fin cfg1.N) (hf : (cfg1.win 3).flush t = true) :
    (dat1 (F := Ideal) V c).flushed 3 t = ((cfg1.win 3).blk t).view.read (Elt Ideal) (totalG xr lab mr) := by
  have h1 : t.val % 2 = 1 := (flush1_3 t).mp hf
  obtain ⟨-, -, -, -, -, -, -, -, -, -, e0, e1, e2⟩ := idx_facts1 t
  show (cfg1.win 3).cut (grid1.coords t) ((dat1 V c).after 3 t) = _
  rw [after1_3]
  funext j
  have hj0 : (j 0).val < 1 := (j 0).isLt
  have hj1 : (j 1).val < 1 := (j 1).isLt
  have hj2 : (j 2).val < 1 := (j 2).isLt
  obtain rfl : j = ix3 (0 : Fin 1) (0 : Fin 1) (0 : Fin 1) := by
    funext a; apply Fin.ext
    match a with
    | ⟨0, _⟩ => show (j 0).val = 0; omega
    | ⟨1, _⟩ => show (j 1).val = 0; omega
    | ⟨2, _⟩ => show (j 2).val = 0; omega
  show ((outsAt1 V c t.val t.isLt).1 : Vec Ideal S1x1x1 .f32) (ix3 (0 : Fin 1) (0 : Fin 1) (0 : Fin 1))
    = totalG xr lab mr (((cfg1.win 3).blk t).view.emb (ix3 (0 : Fin 1) (0 : Fin 1) (0 : Fin 1)))
  rw [out_val V xr lab mr c t h1 hx hl hm]
  unfold totalG
  have hE0 : ((((cfg1.win 3).blk t).view.emb (ix3 (0 : Fin 1) (0 : Fin 1) (0 : Fin 1))) 0).val = t.val / 2 := by
    show win1_3.index t 0 * 1 + 1 * 0 = t.val / 2; omega
  have hB : (⟨_, (((cfg1.win 3).blk t).view.emb (ix3 (0 : Fin 1) (0 : Fin 1) (0 : Fin 1)) 0).isLt⟩ : Fin 8) = bOf t := Fin.ext hE0
  rw [hB]

/-- An index of the totals array is in point t's block iff each coordinate is in the block's range on its axis. -/
theorem mem_blk1 (t : Fin cfg1.N) (i : S8x1x1.Idx) :
    i ∈ ((cfg1.win 3).blk t).view.set ↔ ∀ a : Fin 3, win1_3.index t a * S1x1x1.size a ≤ (i a).val ∧ (i a).val < win1_3.index t a * S1x1x1.size a + S1x1x1.size a := by
  show i ∈ ((View.whole main_v20).slice (win1_3.rect t)).set ↔ _
  rw [View.set_slice_whole, Rect.mem_set_unit]
  exact Iff.rfl

/-- The totals array after region 1: every row is some odd point's block. -/
theorem total_array (c : Dev nD)
    (hx : ∀ b k h w, (V c main_arg0 : FVec Ideal S8x21x512x512 .f32) (ix4 b k h w) = ((xr b k h w : ℝ) : EReal))
    (hl : ∀ b h w, (V c main_arg1 : IVec S8x512x512 32) (ix3 b h w) = BitVec.ofNat 32 (lab b h w).val)
    (hm : ∀ b h w, (V c main_v19 : FVec Ideal S8x512x512 .f32) (ix3 b h w) = ((mr (lab b h w) : ℝ) : EReal)) :
    (dat1 (F := Ideal) V c).arrAt 3 cfg1.N = totalG xr lab mr :=
  (dat1 (F := Ideal) V c).arrAt_eq_of_cover 3 (totalG xr lab mr) (fun t hf => flushed1_eq V xr lab mr c hx hl hm t hf) (fun i => by
    have hi0 : (i 0).val < 8 := (i 0).isLt
    have hi1 : (i 1).val < 1 := (i 1).isLt
    have hi2 : (i 2).val < 1 := (i 2).isLt
    obtain ⟨t, ht⟩ : ∃ t : Fin cfg1.N, t.val = 2 * (i 0).val + 1 :=
      ⟨⟨2 * (i 0).val + 1, (show 2 * (i 0).val + 1 < 16 by omega).trans_eq (show cfg1.N = 16 from N_1).symm⟩, rfl⟩
    obtain ⟨-, -, -, -, -, -, -, -, -, -, e0, e1, e2⟩ := idx_facts1 t
    refine ⟨t, (flush1_3 t).mpr (by omega), ?_⟩
    rw [mem_blk1]
    intro a
    match a with
    | ⟨0, _⟩ => show win1_3.index t 0 * 1 ≤ (i 0).val ∧ (i 0).val < win1_3.index t 0 * 1 + 1; omega
    | ⟨1, _⟩ => show win1_3.index t 1 * 1 ≤ (i 1).val ∧ (i 1).val < win1_3.index t 1 * 1 + 1; omega
    | ⟨2, _⟩ => show win1_3.index t 2 * 1 ≤ (i 2).val ∧ (i 2).val < win1_3.index t 2 * 1 + 1; omega)

/-- What region 1 leaves in the totals array: entry (b, 0, 0) is image b's summed loss. -/
theorem total_partial (c : Dev nD)
    (hx : ∀ b k h w, (V c main_arg0 : FVec Ideal S8x21x512x512 .f32) (ix4 b k h w) = ((xr b k h w : ℝ) : EReal))
    (hl : ∀ b h w, (V c main_arg1 : IVec S8x512x512 32) (ix3 b h w) = BitVec.ofNat 32 (lab b h w).val)
    (hm : ∀ b h w, (V c main_v19 : FVec Ideal S8x512x512 .f32) (ix3 b h w) = ((mr (lab b h w) : ℝ) : EReal))
    (b : Fin 8) :
    ((dat1 (F := Ideal) V c).arrAt 3 cfg1.N : Vec Ideal S8x1x1 .f32) (ix3 b 0 0)
      = (((∑ h : Fin 512, ∑ w : Fin 512, Cert.Ldam.nllK (fun k => xr b k h w) (lab b h w) (mr (lab b h w))) : ℝ) : EReal) := by
  rw [total_array V xr lab mr c hx hl hm]
  rfl

end Values

end Cert.KernelIdeal.Hand
end
-- ==== Proof.MChain.lean ====
/-
  The per-class margins as a function of the per-class pixel counts: m = (1 / √√(n + ε)) · (½ / max (1 / √√(n + ε))),
  the chain of host operations both programs apply to their counts. Over non-negative real counts every margin is a
  real number (`mChain_real`): n + ε > 0, so its fourth root is positive, its reciprocal a positive real, the largest
  of the 21 reciprocals a positive real, and the quotient and product real.
-/
import Idealize.ShloMosaic.PureOps
import Idealize.ShloMosaic.PureOps.Ideal
import Idealize.ShloMosaic.PureOps.Ideal.Laws
import Idealize.ShloMosaic.Lib.ValueIdx
import Idealize.ShloMosaic.Lib.IdealHost
import Mathlib.Analysis.Real.Sqrt
import Mathlib.Data.Finset.Fold
import proofs.«419586_j34471407518059_3_alg».proof.Proof.Consts

noncomputable section

namespace Cert.Ldam

open Idealize.ShloMosaic

abbrev S21 : Shape := ⟨1, ![21]⟩
abbrev S0 : Shape := ⟨0, ![]⟩

/-- The margins from the counts, operation by operation as both programs' host code spells them. -/
def mChain {F : FTy → Type} [FloatOps F] (hb : S0.BroadcastsInDim S21 (![] : Fin 0 → Fin S21.rank))
    (hr : S21.ReducesTo [0] S0) (h0 : 0 < S0.numel) (counts : FVec F S21 .f32) : FVec F S21 .f32 :=
  let a : FVec F S21 .f32 := addf counts (broadcastInDim S21 ![] hb (constant S0 .f32 0x38D1B717#32))
  let r : FVec F S21 .f32 := Host.divf (broadcastInDim S21 ![] hb (constant S0 .f32 0x3F800000#32)) (Host.sqrt (Host.sqrt a))
  let mx : FVec F S0 .f32 := Host.reduce FloatOps.maximumf r (constant S0 .f32 0xFF800000#32) hr h0
  mulf r (broadcastInDim S21 ![] hb (Host.divf (constant S0 .f32 0x3F000000#32) mx))

/-- The running maximum from −∞ over a finite family of real numbers is −∞ over the empty family and otherwise one
    of the family's members. -/
theorem fold_max_coe {ι : Type} (s : Finset ι) (f : ι → EReal) (g : ι → ℝ) (hf : ∀ i, f i = ((g i : ℝ) : EReal)) :
    (s = ∅ ∧ s.fold max ⊥ f = ⊥) ∨ ∃ i ∈ s, s.fold max ⊥ f = ((g i : ℝ) : EReal) := by
  classical
  induction s using Finset.induction_on with
  | empty => exact Or.inl ⟨rfl, Finset.fold_empty⟩
  | insert a s ha ih =>
    right
    rw [Finset.fold_insert ha]
    rcases ih with ⟨-, h⟩ | ⟨i, hi, h⟩
    · exact ⟨a, Finset.mem_insert_self a s, by rw [h, hf, max_eq_left bot_le]⟩
    · rw [h, hf]
      rcases le_total (g a) (g i) with hle | hle
      · exact ⟨i, Finset.mem_insert_of_mem hi, max_eq_right (EReal.coe_le_coe_iff.2 hle)⟩
      · exact ⟨a, Finset.mem_insert_self a s, max_eq_left (EReal.coe_le_coe_iff.2 hle)⟩

/-- Over non-negative real counts every margin is a real number. -/
theorem mChain_real (hb : S0.BroadcastsInDim S21 (![] : Fin 0 → Fin S21.rank)) (hr : S21.ReducesTo [0] S0) (h0 : 0 < S0.numel)
    (counts : FVec Ideal S21 .f32) (n : Fin 21 → ℝ) (hn : ∀ c, 0 ≤ n c) (hc : ∀ c : Fin 21, counts (ValueIdx.ix1 c) = ((n c : ℝ) : EReal)) :
    ∃ mr : Fin 21 → ℝ, ∀ c : Fin 21, mChain (F := Ideal) hb hr h0 counts (ValueIdx.ix1 c) = ((mr c : ℝ) : EReal) := by
  -- the reciprocal fourth roots
  let ρ : Fin 21 → ℝ := fun c => 1 / Real.sqrt (Real.sqrt (n c + eps))
  have hpos : ∀ c, 0 < Real.sqrt (Real.sqrt (n c + eps)) := fun c =>
    Real.sqrt_pos.2 (Real.sqrt_pos.2 (add_pos_of_nonneg_of_pos (hn c) eps_pos))
  have hρ : ∀ c, 0 < ρ c := fun c => one_div_pos.2 (hpos c)
  let a : FVec Ideal S21 .f32 := addf counts (broadcastInDim S21 ![] hb (constant S0 .f32 0x38D1B717#32))
  let r : FVec Ideal S21 .f32 := Host.divf (broadcastInDim S21 ![] hb (constant S0 .f32 0x3F800000#32)) (Host.sqrt (Host.sqrt a))
  let mx : FVec Ideal S0 .f32 := Host.reduce FloatOps.maximumf r (constant S0 .f32 0xFF800000#32) hr h0
  have hgoal : mChain (F := Ideal) hb hr h0 counts
      = mulf r (broadcastInDim S21 ![] hb (Host.divf (constant S0 .f32 0x3F000000#32) mx)) := rfl
  have ha : ∀ c : Fin 21, a (ValueIdx.ix1 c) = ((n c + eps : ℝ) : EReal) := by
    intro c
    show counts (ValueIdx.ix1 c) + broadcastInDim S21 ![] hb (constant S0 .f32 0x38D1B717#32) (ValueIdx.ix1 c) = _
    rw [hc, ValueIdx.broadcastInDim_scalar_apply, constant_eps, EReal.coe_add]
  have hrr : ∀ c : Fin 21, r (ValueIdx.ix1 c) = ((ρ c : ℝ) : EReal) := by
    intro c
    show Ideal.div (broadcastInDim S21 ![] hb (constant S0 .f32 0x3F800000#32 : FVec Ideal S0 .f32) (ValueIdx.ix1 c))
      (Ideal.sqrt (Ideal.sqrt (a (ValueIdx.ix1 c)))) = _
    rw [ha, ValueIdx.broadcastInDim_scalar_apply, constant_one, Ideal.sqrt_coe,
      if_neg (not_lt.2 (add_pos_of_nonneg_of_pos (hn c) eps_pos).le), Ideal.sqrt_coe,
      if_neg (not_lt.2 (Real.sqrt_nonneg _)), Ideal.div_coe (hpos c).ne', one_mul]
  -- the largest of the 21 reciprocals is one of them
  have hix : ∀ i : S21.Idx, i = ValueIdx.ix1 (i (0 : Fin 1) : Fin 21) := by
    intro i; funext d; apply Fin.ext
    fin_cases d; rfl
  have hfold := fold_max_coe (Finset.univ : Finset S21.Idx) r
    (fun i => ρ (i (0 : Fin 1))) (fun i => (congrArg r (hix i)).trans (hrr _))
  have hmx : ∃ c0 : Fin 21, mx ValueIdx.ix0 = ((ρ c0 : ℝ) : EReal) := by
    have e := Host.reduce_eq_fold FloatOps.maximumf r (constant S0 .f32 0xFF800000#32) hr h0 ValueIdx.ix0
    rw [constant_negInf, Finset.filter_true_of_mem (fun i _ => funext fun d => d.elim0)] at e
    rcases hfold with ⟨he, -⟩ | ⟨k, -, hk⟩
    · exact absurd (Finset.mem_univ (ValueIdx.ix1 (0 : Fin 21))) (by rw [he]; exact Finset.notMem_empty _)
    · exact ⟨_, e.trans hk⟩
  obtain ⟨c0, hc0⟩ := hmx
  refine ⟨fun c => ρ c * ((1 / 2 : ℝ) * (1 / ρ c0)), fun c => ?_⟩
  rw [hgoal]
  show r (ValueIdx.ix1 c)
    * broadcastInDim S21 ![] hb (Host.divf (constant S0 .f32 0x3F000000#32 : FVec Ideal S0 .f32) mx) (ValueIdx.ix1 c) = _
  rw [hrr, ValueIdx.broadcastInDim_scalar_apply]
  show ((ρ c : ℝ) : EReal) * Ideal.div ((constant S0 .f32 0x3F000000#32 : FVec Ideal S0 .f32) ValueIdx.ix0) (mx ValueIdx.ix0) = _
  rw [constant_half, hc0, Ideal.div_coe (hρ c0).ne', ← EReal.coe_mul, ← EReal.coe_mul]

end Cert.Ldam

end
-- ==== Proof.KI.HostValue.lean ====
/-
  What the host stretches of the program compute, at the extended reals.

  The first stretch reads the per-batch class counts region 0 left, as an [8, 21] array, sums them over the batch
  axis from zero (the class counts), applies the margin chain to the counts, wraps each label below zero by 21
  (no label is), and gathers each pixel's margin from the 21 margins at its label. The second stretch sums the
  eight per-batch losses region 1 left from zero and multiplies by 2⁻²¹.
  Each is read off the fold of the stretch's operations at the buffer in question, then at an index: a reshape
  by row-major position, a sum-reduction as the initial value plus a finite sum, the gather as the table at the
  start index read signed and clamped.
-/
import proofs.«419586_j34471407518059_3_alg».proof.Proof.KI.Run
import proofs.«419586_j34471407518059_3_alg».proof.Proof.KI.HostArgs
import proofs.«419586_j34471407518059_3_alg».proof.Proof.MChain
import proofs.«419586_j34471407518059_3_alg».proof.Proof.Consts
import proofs.«419586_j34471407518059_3_alg».proof.Proof.Spec
import Idealize.ShloMosaic.Lib.ValueIdx
import Idealize.ShloMosaic.Lib.IdealHost
import Idealize.ShloMosaic.Lib.Affine
import Idealize.ShloMosaic.Lib.StableHlo.Predicate
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.ValueIdx Cert.Ldam

/-! ## Shape operations read at an index -/

/-- The coercion into the extended reals of a finite real sum is the sum of the coercions. -/
theorem coe_finsum {ι : Type} (s : Finset ι) (f : ι → ℝ) :
    ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

/-- The [8, 1, 21] array read as [8, 21]: entry (b, k) is entry (b, 0, k). -/
theorem reshape_counts_apply {α : Type} (x : S8x1x21.Idx → α) (b : Fin 8) (k : Fin 21) :
    shapeCast S8x21 x shapeCasts_S8x1x21_S8x21 (ix2 b k) = x (ix3 b 0 k) := by
  refine shapeCast_apply x _ (ix2 b k) (ix3 b 0 k) ?_
  rw [Shape.rowMajor_val_three, Shape.rowMajor_val_two]
  show (b.val * 1 + 0) * 21 + k.val = b.val * 21 + k.val
  omega

/-- A [8, 512, 512] array given a trailing unit axis: entry (b, h, w, 0) is entry (b, h, w). -/
theorem bcast_unit_apply {α : Type} (v : S8x512x512.Idx → α) (b : Fin 8) (h w : Fin 512) :
    broadcastInDim S8x512x512x1 ![0, 1, 2] bcast_S8x512x512_S8x512x512x1_0_1_2 v (ix4 b h w (0 : Fin 1)) = v (ix3 b h w) := by
  unfold broadcastInDim
  refine congrArg v (funext fun a => ?_)
  have h8 : ¬ (8 : Nat) = 1 := by decide
  have h512 : ¬ (512 : Nat) = 1 := by decide
  match a with
  | ⟨0, _⟩ => exact dif_neg h8
  | ⟨1, _⟩ => exact dif_neg h512
  | ⟨2, _⟩ => exact dif_neg h512

/-- The gather of a [21] table at [8, 512, 512, 1] start indices: entry (b, h, w) is the table at the start index
    (b, h, w, 0), read signed and clamped into [0, 20]. -/
theorem gather_table_apply {α : Type} (x : S21.Idx → α) (idx : IVec S8x512x512x1 32) (b : Fin 8) (h w : Fin 512) :
    Host.gather gather_S21_S8x512x512x1_S8x512x512_n_0_n_n_0_3_1 x idx (ix3 b h w)
      = x (ix1 ⟨min (idx (ix4 b h w (0 : Fin 1))).toInt.toNat 20, by omega⟩) := by
  unfold Host.gather
  congr 1
  funext a
  obtain rfl : a = 0 := Subsingleton.elim _ _
  refine Fin.ext ?_
  have hob : gather_S21_S8x512x512x1_S8x512x512_n_0_n_n_0_3_1.operandBatchingDims = [] := rfl
  have hcs : gather_S21_S8x512x512x1_S8x512x512_n_0_n_n_0_3_1.collapsedSliceDims = [0] := rfl
  have hsm : gather_S21_S8x512x512x1_S8x512x512_n_0_n_n_0_3_1.startIndexMap = [0] := rfl
  show gather_S21_S8x512x512x1_S8x512x512_n_0_n_n_0_3_1.start (ix3 b h w) idx 0
      + gather_S21_S8x512x512x1_S8x512x512_n_0_n_n_0_3_1.batchCoord (ix3 b h w) 0
      + gather_S21_S8x512x512x1_S8x512x512_n_0_n_n_0_3_1.offCoord (ix3 b h w) 0 = _
  rw [GatherDims.batchCoord_eq_zero _ _ _ (by rw [hob]; exact List.not_mem_nil),
    GatherDims.offCoord_eq_zero _ _ _ (fun hk => ((GatherDims.mem_sKept _ _).mp hk).1 (by rw [hcs]; exact List.mem_singleton.mpr rfl))]
  simp only [Nat.add_zero]
  unfold GatherDims.start
  rw [dif_pos (show (0 : Fin 1) ∈ gather_S21_S8x512x512x1_S8x512x512_n_0_n_n_0_3_1.startIndexMap from by rw [hsm]; exact List.mem_singleton.mpr rfl)]
  have hsi : gather_S21_S8x512x512x1_S8x512x512_n_0_n_n_0_3_1.siIdx (ix3 b h w)
      ⟨List.idxOf (0 : Fin 1) gather_S21_S8x512x512x1_S8x512x512_n_0_n_n_0_3_1.startIndexMap,
        List.idxOf_lt_length_iff.2 (by rw [hsm]; exact List.mem_singleton.mpr rfl)⟩ = ix4 b h w (0 : Fin 1) := by
    funext d; refine Fin.ext ?_
    match d with
    | ⟨0, _⟩ => rfl
    | ⟨1, _⟩ => rfl
    | ⟨2, _⟩ => rfl
    | ⟨3, _⟩ => rfl
  rw [hsi]
  rfl

/-- The [8, 1, 1] index set is its first coordinate's range. -/
def idxEquiv811 : Fin 8 ≃ S8x1x1.Idx where
  toFun b := ix3 b 0 0
  invFun i := i 0
  left_inv _ := rfl
  right_inv i := by
    funext a
    have h1 := (i ⟨1, by decide⟩).isLt
    have e1 : S8x1x1.size ⟨1, by decide⟩ = 1 := by decide
    have h2 := (i ⟨2, by decide⟩).isLt
    have e2 : S8x1x1.size ⟨2, by decide⟩ = 1 := by decide
    match a with
    | ⟨0, _⟩ => rfl
    | ⟨1, _⟩ =>
      refine Fin.ext ?_
      show 0 = (i ⟨1, _⟩).val
      omega
    | ⟨2, _⟩ =>
      refine Fin.ext ?_
      show 0 = (i ⟨2, _⟩).val
      omega

/-! ## Sums and words -/

/-- Summing the reshaped per-batch counts over the batch axis, from zero. -/
theorem counts_sum (x : FVec Ideal S8x1x21 .f32) (n : Fin 8 → Fin 21 → ℝ)
    (hx : ∀ b k, x (ix3 b 0 k) = ((n b k : ℝ) : EReal)) (k : Fin 21) :
    Host.reduceAdd (shapeCast S8x21 x shapeCasts_S8x1x21_S8x21) (constant (F := Ideal) S_ .f32 0x00000000#32)
        reducesTo_S8x21_S21_d0 h_S_ (ix1 k) = (((∑ b, n b k : ℝ)) : EReal) := by
  have hR : S8x21.Reduces [0] S21 := by decide
  have hl : ∀ b : Fin 8, hR.lift (ix1 k) b = ix2 b k := fun b => funext fun a => Fin.ext (by
    match a with
    | ⟨0, _⟩ => rfl
    | ⟨1, _⟩ => rfl)
  rw [hostReduceAdd_apply, Ideal.hostReduceAdd_single reducesTo_S8x21_S21_d0 hR, constant_zero, zero_add, coe_finsum]
  show ∑ b : Fin 8, shapeCast S8x21 x shapeCasts_S8x1x21_S8x21 (hR.lift (ix1 k) b) = ∑ b : Fin 8, ((n b k : ℝ) : EReal)
  refine Finset.sum_congr rfl fun b _ => ?_
  rw [hl b, reshape_counts_apply, hx]

/-- A label's word is not below zero, so the wrap leaves it; read signed and clamped to [0, 20] it is the label. -/
theorem wrap_label (x : BitVec 32) (l : Fin 21) (hx : x = BitVec.ofNat 32 l.val) :
    min (Scalar.select (IntOp.cmpi .slt x 0#32) (IntOp.addi x 21#32) x).toInt.toNat 20 = l.val := by
  have hl := l.isLt
  have hi : x.toInt = (l.val : Int) := by rw [hx]; exact StableHlo.Predicate.toInt_ofNat_small l.val (by omega)
  have h0 : (0#32 : BitVec 32).toInt = 0 := by decide
  have hc : ¬ IntOp.cmpi .slt x 0#32 = 1#1 := by
    rw [IntOp.cmpi_slt, hi, h0]; omega
  rw [eq_zero_of_ne_one hc, select_zero, hi]
  omega

/-- The eight per-batch sums added up from zero, times 2⁻²¹. -/
theorem mean_apply (x : FVec Ideal S8x1x1 .f32) (S : Fin 8 → ℝ) (hx : ∀ b, x (ix3 b 0 0) = ((S b : ℝ) : EReal))
    (j : S_.Idx) :
    shapeCast S_ (mulf (Host.reduceAdd x (constant (F := Ideal) S_ .f32 0x00000000#32) reducesTo_S8x1x1_S_d0_1_2 h_S_)
      (constant (F := Ideal) S_ .f32 0x35000000#32)) shapeCasts_S_S_ j
      = ((((∑ b, S b) * (1 / 2097152) : ℝ)) : EReal) := by
  unfold shapeCast
  rw [Shape.reshapeEquiv_self, mulf_apply, hostReduceAdd_apply, Ideal.hostReduceAdd_total _ (fun b => b.elim0),
    constant_zero, constant_inv2097152, zero_add, ← Equiv.sum_comp idxEquiv811, EReal.coe_mul, coe_finsum]
  congr 1
  exact Finset.sum_congr rfl fun b _ => hx b

/-! ## The host stretches' results, from any contents -/

section After
variable (V : Valuation τ sig (Elt Ideal))

/-- The class counts: the sum over the batch axis, from zero, of the reshaped per-batch counts. -/
theorem after1_v2 :
    (StableHlo.after hostOps1 V (Proc.devRef .tc main_v2) : FVec Ideal S21 .f32)
      = Host.reduceAdd (shapeCast S8x21 (V (Proc.devRef .tc main_v0) : FVec Ideal S8x1x21 .f32) shapeCasts_S8x1x21_S8x21)
          (constant (F := Ideal) S_ .f32 0x00000000#32) reducesTo_S8x21_S21_d0 h_S_ := by
  after_results; rfl

/-- The margins are the margin chain of the class counts. -/
theorem after1_v12 :
    (StableHlo.after hostOps1 V (Proc.devRef .tc main_v12) : FVec Ideal S21 .f32)
      = mChain (F := Ideal) bcast_S_S21 reducesTo_S21_S_d0 h_S_ (StableHlo.after hostOps1 V (Proc.devRef .tc main_v2)) := by
  after_results; rfl

/-- The start indices of the gather: each label, wrapped by 21 when below zero, with a trailing unit axis. -/
abbrev startIdx (lab : IVec S8x512x512 32) : IVec S8x512x512x1 32 :=
  broadcastInDim S8x512x512x1 ![0, 1, 2] bcast_S8x512x512_S8x512x512x1_0_1_2
    (select (cmpi .slt lab (broadcastInDim S8x512x512 ![] bcast_S_S8x512x512 (constantI S_ 32 0#32)))
      (addi lab (broadcastInDim S8x512x512 ![] bcast_S_S8x512x512 (constantI S_ 32 21#32))) lab)

theorem after1_v19_raw :
    (StableHlo.after hostOps1 V (Proc.devRef .tc main_v19) : FVec Ideal S8x512x512 .f32)
      = Host.gather gather_S21_S8x512x512x1_S8x512x512_n_0_n_n_0_3_1
          (mChain (F := Ideal) bcast_S_S21 reducesTo_S21_S_d0 h_S_
            (Host.reduceAdd (shapeCast S8x21 (V (Proc.devRef .tc main_v0) : FVec Ideal S8x1x21 .f32) shapeCasts_S8x1x21_S8x21)
              (constant (F := Ideal) S_ .f32 0x00000000#32) reducesTo_S8x21_S21_d0 h_S_))
          (startIdx (V (Proc.devRef .tc main_arg1) : IVec S8x512x512 32)) := by
  after_results_simp; rfl

/-- The per-pixel margins: the gather of the margins at the wrapped labels. -/
theorem after1_v19 :
    (StableHlo.after hostOps1 V (Proc.devRef .tc main_v19) : FVec Ideal S8x512x512 .f32)
      = Host.gather gather_S21_S8x512x512x1_S8x512x512_n_0_n_n_0_3_1
          (StableHlo.after hostOps1 V (Proc.devRef .tc main_v12) : FVec Ideal S21 .f32)
          (startIdx (V (Proc.devRef .tc main_arg1) : IVec S8x512x512 32)) := by
  rw [after1_v12 V, after1_v2 V]; exact after1_v19_raw V

/-- The result: the per-batch sums added up from zero, times the constant, as a scalar. -/
theorem after2_v23 :
    (StableHlo.after hostOps2 V (Proc.devRef .tc main_v23) : FVec Ideal S_ .f32)
      = shapeCast S_ (mulf (Host.reduceAdd (V (Proc.devRef .tc main_v20) : FVec Ideal S8x1x1 .f32)
          (constant (F := Ideal) S_ .f32 0x00000000#32) reducesTo_S8x1x1_S_d0_1_2 h_S_)
          (constant (F := Ideal) S_ .f32 0x35000000#32)) shapeCasts_S_S_ := by
  after_results; rfl

end After

/-! ## At the run's boundaries -/

variable (D0 : Region0 Ideal) (D1 : Region1 Ideal)
variable (m : (ℓ : Loc nD τ sig) → Buf (Elt Ideal) ℓ) (c : Dev nD)

/-- (H1) The class counts after the first host stretch, given the per-batch counts region 0 leaves. -/
theorem W2_counts (lab : Fin 8 → Fin 512 → Fin 512 → Fin 21)
    (h0 : ∀ (b : Fin 8) (k : Fin 21), ((D0.dat (V0 m) c).arrAt 1 cfg0.N : Vec Ideal S8x1x21 .f32) (ix3 b 0 k)
      = (((∑ h : Fin 512, ∑ w : Fin 512, if lab b h w = k then (1 : ℝ) else 0) : ℝ) : EReal)) (k : Fin 21) :
    (W2 D0 m c main_v2 : FVec Ideal S21 .f32) (ix1 k) = ((cnt lab k : ℝ) : EReal) := by
  have e : (W2 D0 m c main_v2 : FVec Ideal S21 .f32) = _ := after1_v2 (W1 D0 m c)
  have e1 : W1 D0 m c (Proc.devRef .tc main_v0) = (D0.dat (V0 m) c).arrAt 1 cfg0.N := W1_arr D0 m c 1
  rw [e, e1]
  exact counts_sum _ (fun b k => ∑ h : Fin 512, ∑ w : Fin 512, if lab b h w = k then (1 : ℝ) else 0) h0 k

/-- (H2) The margins after the first host stretch are the margin chain of the class counts. -/
theorem W2_margins :
    (W2 D0 m c main_v12 : FVec Ideal S21 .f32)
      = mChain (F := Ideal) bcast_S_S21 reducesTo_S21_S_d0 h_S_ (W2 D0 m c main_v2) :=
  after1_v12 (W1 D0 m c)

/-- (H3) Each pixel's margin after the first host stretch is the margin of its label. -/
theorem W2_batch_m (lab : Fin 8 → Fin 512 → Fin 512 → Fin 21)
    (hl : ∀ b h w, (m ((c : Thread nD τ).loc main_arg1) : IVec S8x512x512 32) (ix3 b h w) = BitVec.ofNat 32 (lab b h w).val)
    (b : Fin 8) (h w : Fin 512) :
    (W2 D0 m c main_v19 : FVec Ideal S8x512x512 .f32) (ix3 b h w)
      = (W2 D0 m c main_v12 : FVec Ideal S21 .f32) (ix1 (lab b h w)) := by
  have e : (W2 D0 m c main_v19 : FVec Ideal S8x512x512 .f32) = _ := after1_v19 (W1 D0 m c)
  rw [e, gather_table_apply]
  refine congrArg _ (congrArg ix1 (Fin.ext ?_))
  show min (startIdx (W1 D0 m c (Proc.devRef .tc main_arg1)) (ix4 b h w (0 : Fin 1))).toInt.toNat 20 = (lab b h w).val
  unfold startIdx
  rw [bcast_unit_apply, W1_main_arg1 D0 m c]
  exact wrap_label _ _ (hl b h w)

/-- (H5) The result at the return, given the per-batch sums region 1 leaves. -/
theorem W4_result (S : Fin 8 → ℝ)
    (h1 : ∀ b : Fin 8, ((D1.dat (V2 D0 m) c).arrAt 3 cfg1.N : Vec Ideal S8x1x1 .f32) (ix3 b 0 0) = ((S b : ℝ) : EReal)) :
    (W4 D0 D1 m c main_v23 : FVec Ideal S_ .f32) = fun _ => ((((∑ b, S b) * (1 / 2097152) : ℝ)) : EReal) := by
  have e : (W4 D0 D1 m c main_v23 : FVec Ideal S_ .f32) = _ := after2_v23 (W3 D0 D1 m c)
  have e3 : W3 D0 D1 m c (Proc.devRef .tc main_v20) = (D1.dat (V2 D0 m) c).arrAt 3 cfg1.N := W3_arr D0 D1 m c 3
  rw [e, e3]
  funext j
  exact mean_apply _ S h1 j

end Cert.KernelIdeal.Hand

end
-- ==== Proof.KI.Result.lean ====
/-
  The idealized kernel's result buffer at the return, for real logits and labels in range. Region 0 leaves the
  per-batch class counts, the first host stretch sums them over the batches, builds the margins from them and gathers
  each pixel's margin at its label; region 1 leaves per batch the summed pixel losses; the last host stretch sums the
  eight batches and multiplies by 2⁻²¹.
-/
import proofs.«419586_j34471407518059_3_alg».proof.Proof.KI.Frame
import proofs.«419586_j34471407518059_3_alg».proof.Proof.KI.Value0
import proofs.«419586_j34471407518059_3_alg».proof.Proof.KI.Value1
import proofs.«419586_j34471407518059_3_alg».proof.Proof.KI.HostValue
import proofs.«419586_j34471407518059_3_alg».proof.Proof.MChain
import proofs.«419586_j34471407518059_3_alg».proof.Proof.Spec

set_option maxRecDepth 16384

noncomputable section

namespace Cert.KernelIdeal.Hand

open Idealize.ShloMosaic Idealize.ShloMosaic.TcCoe Idealize.SL.Sem
open Idealize.ShloMosaic.ValueIdx
open Cert.Ldam (cnt mChain totalR nllK)

section Result

open Cert.KernelIdeal Cert.KernelIdeal.Gen

variable (m : (ℓ : Loc nD τ sig) → Buf (Elt Ideal) ℓ) (c : Dev nD)

/-- The idealized kernel's result buffer at the return, for real logits and labels in range: the summed per-pixel
    loss times 2⁻²¹, with the margins any real table `mr` the margin chain yields on the counts; and the counts
    the chain is applied to are the per-class pixel counts. -/
theorem kernel_result (xr : Fin 8 → Fin 21 → Fin 512 → Fin 512 → ℝ) (lab : Fin 8 → Fin 512 → Fin 512 → Fin 21)
    (hx : ∀ b k h w, (m ((c : Thread nD τ).loc main_arg0) : FVec Ideal S8x21x512x512 .f32) (ix4 b k h w) = ((xr b k h w : ℝ) : EReal))
    (hl : ∀ b h w, (m ((c : Thread nD τ).loc main_arg1) : IVec S8x512x512 32) (ix3 b h w) = BitVec.ofNat 32 (lab b h w).val) :
    (∀ k : Fin 21, (W2 (D0 (F := Ideal)) m c main_v2 : FVec Ideal S21 .f32) (ix1 k) = ((cnt lab k : ℝ) : EReal))
    ∧ ∀ mr : Fin 21 → ℝ,
        (∀ k : Fin 21, mChain (F := Ideal) bcast_S_S21 reducesTo_S21_S_d0 h_S_ (W2 (D0 (F := Ideal)) m c main_v2) (ix1 k) = ((mr k : ℝ) : EReal)) →
        (W4 (D0 (F := Ideal)) D1 m c main_v23 : FVec Ideal S_ .f32)
          = fun _ => ((((∑ b : Fin 8, ∑ h : Fin 512, ∑ w : Fin 512, nllK (fun k => xr b k h w) (lab b h w) (mr (lab b h w))) * (1 / 2097152) : ℝ)) : EReal) := by
  have hl0 : ∀ b h w, (V0 m c main_arg1 : IVec S8x512x512 32) (ix3 b h w) = BitVec.ofNat 32 (lab b h w).val := hl
  have hcnt : ∀ k : Fin 21, (W2 (D0 (F := Ideal)) m c main_v2 : FVec Ideal S21 .f32) (ix1 k) = ((cnt lab k : ℝ) : EReal) :=
    W2_counts D0 m c lab (fun b k => counts_partial (V0 m) c lab hl0 b k)
  refine ⟨hcnt, fun mr hmr => ?_⟩
  have hmarg : ∀ k : Fin 21, (W2 (D0 (F := Ideal)) m c main_v12 : FVec Ideal S21 .f32) (ix1 k) = ((mr k : ℝ) : EReal) := fun k => by
    rw [W2_margins D0 m c]; exact hmr k
  have hbm : ∀ b h w, (V2 (D0 (F := Ideal)) m c main_v19 : FVec Ideal S8x512x512 .f32) (ix3 b h w) = ((mr (lab b h w) : ℝ) : EReal) := fun b h w => by
    show (W2 (D0 (F := Ideal)) m c main_v19 : FVec Ideal S8x512x512 .f32) (ix3 b h w) = _
    rw [W2_batch_m D0 m c lab hl b h w]; exact hmarg _
  have hx2 : ∀ b k h w, (V2 (D0 (F := Ideal)) m c main_arg0 : FVec Ideal S8x21x512x512 .f32) (ix4 b k h w) = ((xr b k h w : ℝ) : EReal) := fun b k h w => by
    show (W2 (D0 (F := Ideal)) m c (Proc.devRef .tc main_arg0) : FVec Ideal S8x21x512x512 .f32) (ix4 b k h w) = _
    rw [W2_main_arg0 D0 m c]; exact hx b k h w
  have hl2 : ∀ b h w, (V2 (D0 (F := Ideal)) m c main_arg1 : IVec S8x512x512 32) (ix3 b h w) = BitVec.ofNat 32 (lab b h w).val := fun b h w => by
    show (W2 (D0 (F := Ideal)) m c (Proc.devRef .tc main_arg1) : IVec S8x512x512 32) (ix3 b h w) = _
    rw [W2_main_arg1 D0 m c]; exact hl b h w
  exact W4_result D0 D1 m c _ (fun b => total_partial (V2 (D0 (F := Ideal)) m) xr lab mr c hx2 hl2 hbm b)

end Result

end Cert.KernelIdeal.Hand

end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.RefValue1.lean ====
/-
  General facts the reading of the reference's value rests on, stated over variables.

  The 2097152 pixels are numbered row-major: pixel (b, h, w) is number (b·512 + h)·512 + w, a bijection between the
  triples and the numbers below 2097152, so a sum over the numbers is the triple sum over the coordinates. A label
  below 21 written as a 32-bit word is non-negative and at most 20 read signed, so a wrap of negative labels and a
  clamp into [0, 20] leave it alone, and it equals class c's word exactly when the label is c. A finite sum of reals
  and the largest of finitely many reals are the same numbers among the extended reals.

  Then the four operations whose element depends on a whole axis or on an operand's values, each read at an index:
  a gather of a vector at one index word per element is the vector at the word, read signed and clamped; a gather of
  one element per row of a matrix likewise, within the row; a reduce by maximum from −∞ over the 21 columns of a row
  of reals is the largest of them; a reduce by "and" from the true bit over a unit axis of a true element is true;
  and an accumulating scatter of ones at label words into a zero vector counts the labels.
-/
import Mathlib.Algebra.BigOperators.Fin
import Mathlib.Data.EReal.Operations
import Mathlib.Order.Fin.Basic
import Idealize.ShloMosaic.PureOps.Ideal
import Idealize.ShloMosaic.PureOps.Ideal.Laws
import Idealize.ShloMosaic.PureOps.Reduce
import Idealize.ShloMosaic.Lib.ValueIdx
import proofs.«419586_j34471407518059_3_alg».proof.Proof.LibScatterSum

noncomputable section

open Idealize.ShloMosaic Idealize.ShloMosaic.ValueIdx
open scoped BigOperators

namespace Cert.ReferenceIdeal.RefValue

/-! ## The pixels, numbered row-major -/

/-- Pixel (b, h, w)'s number. -/
def pix (b : Fin 8) (h w : Fin 512) : Fin 2097152 :=
  ⟨(b.val * 512 + h.val) * 512 + w.val, by have := b.isLt; have := h.isLt; have := w.isLt; omega⟩

theorem pix_val (b : Fin 8) (h w : Fin 512) : (pix b h w).val = (b.val * 512 + h.val) * 512 + w.val := rfl

/-- The triples of coordinates and the pixel numbers correspond one to one. -/
def pixEquiv : Fin 8 × Fin 512 × Fin 512 ≃ Fin 2097152 where
  toFun p := pix p.1 p.2.1 p.2.2
  invFun n := (⟨n.val / 262144, by have := n.isLt; omega⟩, ⟨n.val / 512 % 512, by omega⟩, ⟨n.val % 512, by omega⟩)
  left_inv p := by
    obtain ⟨b, h, w⟩ := p
    have := b.isLt; have := h.isLt; have := w.isLt
    refine Prod.ext (Fin.ext ?_) (Prod.ext (Fin.ext ?_) (Fin.ext ?_))
    · show ((b.val * 512 + h.val) * 512 + w.val) / 262144 = b.val; omega
    · show ((b.val * 512 + h.val) * 512 + w.val) / 512 % 512 = h.val; omega
    · show ((b.val * 512 + h.val) * 512 + w.val) % 512 = w.val; omega
  right_inv n := by
    have := n.isLt
    refine Fin.ext ?_
    show (n.val / 262144 * 512 + n.val / 512 % 512) * 512 + n.val % 512 = n.val
    omega

/-- A sum over the pixel numbers is the triple sum over the coordinates. -/
theorem sum_pix {M : Type*} [AddCommMonoid M] (f : Fin 2097152 → M) :
    ∑ n, f n = ∑ b, ∑ h, ∑ w, f (pix b h w) := by
  rw [← Equiv.sum_comp pixEquiv f, Fintype.sum_prod_type]
  refine Finset.sum_congr rfl fun b _ => ?_
  rw [Fintype.sum_prod_type]
  rfl

/-! ## Real sums and maxima among the extended reals -/

/-- A finite sum of reals, as an extended real, is the sum of the terms as extended reals. -/
theorem coe_sum {ι : Type*} (s : Finset ι) (f : ι → ℝ) :
    ((∑ a ∈ s, f a : ℝ) : EReal) = ∑ a ∈ s, ((f a : ℝ) : EReal) := by
  classical
  induction s using Finset.induction_on with
  | empty => simp
  | insert a s ha ih => rw [Finset.sum_insert ha, Finset.sum_insert ha, EReal.coe_add, ih]

/-- From −∞ the running maximum of finitely many reals is their largest. -/
theorem fold_max_coe {n : Nat} (hn : (Finset.univ : Finset (Fin n)).Nonempty) (v : Fin n → ℝ) :
    (Finset.univ : Finset (Fin n)).fold max (⊥ : EReal) (fun c => ((v c : ℝ) : EReal))
      = ((Finset.univ.sup' hn v : ℝ) : EReal) := by
  show (Finset.univ : Finset (Fin n)).sup (fun c => ((v c : ℝ) : EReal)) = _
  refine le_antisymm (Finset.sup_le fun c _ => ?_) ?_
  · exact EReal.coe_le_coe_iff.2 (Finset.le_sup' v (Finset.mem_univ c))
  · obtain ⟨c, _, hc⟩ := Finset.exists_mem_eq_sup' hn v
    rw [hc]
    exact Finset.le_sup (f := fun c => ((v c : ℝ) : EReal)) (Finset.mem_univ c)

/-! ## A label below 21 as a 32-bit word -/

/-- Read signed, the word of a label is the label. -/
theorem label_toInt (l : Fin 21) : (BitVec.ofNat 32 l.val).toInt = (l.val : ℤ) := by
  revert l; decide

/-- A label's word is not negative: the wrap of negative indices leaves it alone. -/
theorem label_wrap (l : Fin 21) :
    Scalar.select (IntOp.cmpi .slt (BitVec.ofNat 32 l.val) 0#32) (IntOp.addi (BitVec.ofNat 32 l.val) 21#32)
      (BitVec.ofNat 32 l.val) = BitVec.ofNat 32 l.val := by
  revert l; decide

/-- A label's word lies in [0, 20]: the in-range test of a read along the class axis passes. -/
theorem label_inRange (l : Fin 21) :
    IntOp.andi (IntOp.cmpi .sge (BitVec.ofNat 32 l.val) 0#32) (IntOp.cmpi .sle (BitVec.ofNat 32 l.val) 20#32) = 1#1 := by
  revert l; decide

/-- Clamped into [0, 20], a label's word read signed is the label. -/
theorem label_clamp (l : Fin 21) : min (BitVec.ofNat 32 l.val).toInt.toNat (21 - 1) = l.val := by
  revert l; decide

/-- A label's word equals class c's word exactly when the label is c. -/
theorem label_eq (l c : Fin 21) :
    IntOp.cmpi .eq (BitVec.ofNat 32 l.val) (BitVec.ofNat 32 c.val) = if l = c then 1#1 else 0#1 := by
  revert l c; decide

/-! ## A gather of a vector at one index word per result element -/

section GatherVec
variable {α : Type} {N E w : Nat}

/-- The dimension numbers of `x[idx]` for a vector `x : [N]` and index words `idx : [E, 1]`: no offset axis, the
    operand's axis collapsed and named by the one start index, the index vector on the start indices' axis 1. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- Result element `e` is the vector at index word `e`, read signed and clamped into [0, N − 1]. -/
theorem gather_vec_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e (0 : Fin 1))).toInt.toNat (N - 1), by omega⟩) := by
  unfold Host.gather
  refine congrArg x ?_
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end GatherVec

/-! ## A gather along the second axis of a matrix, one index word per row -/

section GatherRow
variable {α : Type} {E K w : Nat}

/-- The dimension numbers of a read of one element per row of `x : [E, K]` at index words `idx : [E, 1, 1]`: axis 0
    a batching axis shared by operand and start indices, axis 1 collapsed and named by the one start index, the index
    vector on the start indices' axis 2. -/
abbrev rowGatherDims (E K : Nat)
    (wf : GatherDims.WF ⟨2, ![E, K]⟩ ⟨3, ![E, 1, 1]⟩ ⟨2, ![E, 1]⟩ [] [1] [0] [1] [0] 2 ![1, 1]) :
    GatherDims ⟨2, ![E, K]⟩ ⟨3, ![E, 1, 1]⟩ ⟨2, ![E, 1]⟩ := ⟨[], [1], [0], [0], [1], 2, ![1, 1], wf⟩

/-- Result element (e, 0) is row `e` of the matrix at index word `e`, read signed and clamped into [0, K − 1]. -/
theorem gather_row_apply (hK : 0 < K)
    (wf : GatherDims.WF ⟨2, ![E, K]⟩ ⟨3, ![E, 1, 1]⟩ ⟨2, ![E, 1]⟩ [] [1] [0] [1] [0] 2 ![1, 1])
    (x : (⟨2, ![E, K]⟩ : Shape).Idx → α) (idx : IVec ⟨3, ![E, 1, 1]⟩ w) (e : Fin E) :
    Host.gather (rowGatherDims E K wf) x idx (ix2 e (0 : Fin 1))
      = x (ix2 e ⟨min (idx (ix3 e (0 : Fin 1) (0 : Fin 1))).toInt.toNat (K - 1), by omega⟩) := by
  unfold Host.gather
  refine congrArg x ?_
  funext a
  refine Fin.ext ?_
  match a with
  | ⟨0, h0⟩ =>
    show (rowGatherDims E K wf).start (ix2 e (0 : Fin 1)) idx ⟨0, h0⟩ + (rowGatherDims E K wf).batchCoord (ix2 e (0 : Fin 1)) ⟨0, h0⟩
      + (rowGatherDims E K wf).offCoord (ix2 e (0 : Fin 1)) ⟨0, h0⟩ = e.val
    have hb : (⟨0, h0⟩ : Fin (⟨2, ![E, K]⟩ : Shape).rank) ∈ (rowGatherDims E K wf).operandBatchingDims :=
      List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, h1⟩ =>
    show (rowGatherDims E K wf).start (ix2 e (0 : Fin 1)) idx ⟨1, h1⟩ + (rowGatherDims E K wf).batchCoord (ix2 e (0 : Fin 1)) ⟨1, h1⟩
      + (rowGatherDims E K wf).offCoord (ix2 e (0 : Fin 1)) ⟨1, h1⟩ = _
    have hc : (⟨1, h1⟩ : Fin (⟨2, ![E, K]⟩ : Shape).rank) ∈ (rowGatherDims E K wf).collapsedSliceDims :=
      List.mem_singleton.mpr rfl
    have hnb : (⟨1, h1⟩ : Fin (⟨2, ![E, K]⟩ : Shape).rank) ∉ (rowGatherDims E K wf).operandBatchingDims := by
      show (1 : Fin 2) ∉ ([0] : List (Fin 2)); decide
    rw [GatherDims.batchCoord_eq_zero _ _ _ hnb,
      GatherDims.offCoord_eq_zero _ _ _ (fun h => ((GatherDims.mem_sKept _ _).mp h).1 hc)]
    simp only [Nat.add_zero]
    unfold GatherDims.start
    have hm : (⟨1, h1⟩ : Fin (⟨2, ![E, K]⟩ : Shape).rank) ∈ (rowGatherDims E K wf).startIndexMap :=
      List.mem_singleton.mpr rfl
    rw [dif_pos hm]
    have hsi : (rowGatherDims E K wf).siIdx (ix2 e (0 : Fin 1))
        ⟨List.idxOf (⟨1, h1⟩ : Fin (⟨2, ![E, K]⟩ : Shape).rank) (rowGatherDims E K wf).startIndexMap,
          List.idxOf_lt_length_iff.2 hm⟩ = ix3 e (0 : Fin 1) (0 : Fin 1) := by
      funext b; refine Fin.ext ?_
      match b with
      | ⟨0, _⟩ => rfl
      | ⟨1, _⟩ => rfl
      | ⟨2, _⟩ => rfl
    rw [hsi]
    rfl

end GatherRow

/-! ## Reductions along the last axis, read at an index -/

section ReduceRows
variable {E : Nat}

/-- A row index with column `k` put back is (e, k). -/
theorem lift_row {K : Nat} (h : (⟨2, ![E, K]⟩ : Shape).Reduces [1] (⟨1, ![E]⟩ : Shape)) (e : Fin E)
    (k : Fin ((⟨2, ![E, K]⟩ : Shape).size 1)) : h.lift (ix1 e) k = ix2 e (⟨k.val, k.isLt⟩ : Fin K) := by
  funext c; apply Fin.ext
  fin_cases c <;> rfl

/-- From −∞ the host's reduce with a maximum body over the 21 columns, at a row whose entries are real, is the
    largest of them. -/
theorem reduce_max_row (x : FVec Ideal ⟨2, ![E, 21]⟩ .f32) (init : FVec Ideal ⟨0, ![]⟩ .f32)
    (h' : (⟨2, ![E, 21]⟩ : Shape).ReducesTo [1] (⟨1, ![E]⟩ : Shape))
    (h : (⟨2, ![E, 21]⟩ : Shape).Reduces [1] (⟨1, ![E]⟩ : Shape)) (hu : 0 < (⟨0, ![]⟩ : Shape).numel)
    (hinit : ∀ i, init i = ⊥) (e : Fin E) (v : Fin 21 → ℝ) (hv : ∀ c : Fin 21, x (ix2 e c) = ((v c : ℝ) : EReal)) :
    Host.reduce FloatOps.maximumf x init h' hu (ix1 e) = ((Finset.univ.sup' Finset.univ_nonempty v : ℝ) : EReal) := by
  rw [Host.reduce_eq_fold_single FloatOps.maximumf x init h' h hu, hinit]
  have hf : (x ∘ h.lift (ix1 e)) = fun c : Fin 21 => ((v c : ℝ) : EReal) :=
    funext fun k => (congrArg x (lift_row h e k)).trans (hv _)
  refine Eq.trans ?_ (fold_max_coe Finset.univ_nonempty v)
  exact congrArg (fun f => Finset.fold max (⊥ : EReal) f (Finset.univ : Finset (Fin 21))) hf

end ReduceRows

section ReduceUnit
variable {E : Nat}

/-- An index of `[E, 1]` with coordinate `k` put back on a third, unit axis is (e, 0, 0). -/
theorem lift_unit (h : (⟨3, ![E, 1, 1]⟩ : Shape).Reduces [2] (⟨2, ![E, 1]⟩ : Shape)) (e : Fin E)
    (k : Fin ((⟨3, ![E, 1, 1]⟩ : Shape).size 2)) : h.lift (ix2 e (0 : Fin 1)) k = ix3 e (0 : Fin 1) (0 : Fin 1) := by
  funext c; apply Fin.ext
  have hk : k.val = 0 := by have := k.isLt; change k.val < 1 at this; omega
  fin_cases c
  · rfl
  · rfl
  · exact hk

/-- The host's reduce with an and body over a unit axis, from the true bit, at an element that is true, is true. -/
theorem reduce_and_unit (p : IVec ⟨3, ![E, 1, 1]⟩ 1) (init : IVec ⟨0, ![]⟩ 1)
    (h' : (⟨3, ![E, 1, 1]⟩ : Shape).ReducesTo [2] (⟨2, ![E, 1]⟩ : Shape))
    (h : (⟨3, ![E, 1, 1]⟩ : Shape).Reduces [2] (⟨2, ![E, 1]⟩ : Shape)) (hu : 0 < (⟨0, ![]⟩ : Shape).numel)
    (hinit : ∀ i, init i = 1#1) (e : Fin E) (hp : p (ix3 e (0 : Fin 1) (0 : Fin 1)) = 1#1) :
    Host.reduce IntOp.andi p init h' hu (ix2 e (0 : Fin 1)) = 1#1 := by
  rw [Host.reduce_eq_fold_single IntOp.andi p init h' h hu, hinit]
  have hf : (p ∘ h.lift (ix2 e (0 : Fin 1))) = fun _ : Fin 1 => (1#1 : BitVec 1) :=
    funext fun k => (congrArg p (lift_unit h e k)).trans hp
  refine Eq.trans (congrArg (fun f => Finset.fold IntOp.andi (1#1 : BitVec 1) f (Finset.univ : Finset (Fin 1))) hf) ?_
  decide

end ReduceUnit

/-! ## Counting labels by an accumulating scatter of ones -/

/-- Into a zero vector of 21 entries, the scatter of a one per update at the update's label word leaves at entry `c`
    the number of updates labelled `c`. -/
theorem scatter_count {E : Nat}
    (wf : ScatterDims.WF (⟨1, ![21]⟩ : Shape) (⟨2, ![E, 1]⟩ : Shape) (⟨1, ![E]⟩ : Shape) [] [0] [0] 1)
    (x : (⟨1, ![21]⟩ : Shape).Idx → EReal) (idx : IVec (⟨2, ![E, 1]⟩ : Shape) 32) (upd : (⟨1, ![E]⟩ : Shape).Idx → EReal)
    (lab : Fin E → Fin 21) (hx : ∀ i, x i = 0) (hu : ∀ i, upd i = 1)
    (hidx : ∀ e, idx (ix2 e (0 : Fin 1)) = BitVec.ofNat 32 (lab e).val) (c : Fin 21) :
    Ideal.hostScatterAdd (⟨[], [0], [0], 1, wf⟩ : ScatterDims (⟨1, ![21]⟩ : Shape) (⟨2, ![E, 1]⟩ : Shape) (⟨1, ![E]⟩ : Shape))
        x idx upd (ix1 c)
      = ((∑ e : Fin E, (if lab e = c then (1 : ℝ) else 0) : ℝ) : EReal) := by
  rw [Cert.LibScatterSum.scatterAdd_vec wf x idx upd c, hx, zero_add, coe_sum, Finset.sum_filter]
  refine Finset.sum_congr rfl fun e _ => ?_
  rw [hidx, label_toInt, hu]
  by_cases hl : lab e = c
  · rw [if_pos hl, if_pos (by rw [hl]), EReal.coe_one]
  · rw [if_neg hl, if_neg (fun hh => hl (Fin.ext (by exact_mod_cast hh))), EReal.coe_zero]

end Cert.ReferenceIdeal.RefValue

end
-- ==== Proof.RefValue3.lean ====
/-
  The reference's per-class pixel counts and margins.

  Labels are in range, so at pixel (b, h, w), numbered (b·512 + h)·512 + w in the flattened label vector, the wrap of
  negative labels returns the label's own word. The scatter-add of a one per pixel at that word into a zero vector of
  21 entries therefore leaves at entry c the number of pixels labelled c. The margins are, operation by operation, the
  chain  (1/√√(n + ε)) · (½ / max (1/√√(n + ε)))  applied to those counts.
-/
import proofs.«419586_j34471407518059_3_alg».proof.Proof.RefRead
import proofs.«419586_j34471407518059_3_alg».proof.Proof.Spec
import proofs.«419586_j34471407518059_3_alg».proof.Proof.MChain
import proofs.«419586_j34471407518059_3_alg».proof.Proof.Consts
import proofs.«419586_j34471407518059_3_alg».proof.Proof.RefValue1

noncomputable section

open Cert.ReferenceIdeal Cert.ReferenceIdeal.Gen Cert.ReferenceIdeal.ReadP Idealize.ShloMosaic Idealize.ShloMosaic.ValueIdx
open Cert.Ldam (cnt mChain)
open scoped BigOperators

namespace Cert.ReferenceIdeal.RefValue

/-! ## Two indices with equal coordinates are equal -/

theorem idx1_ext {n : Nat} {i j : (⟨1, ![n]⟩ : Shape).Idx} (h0 : (i 0).val = (j 0).val) : i = j := by
  funext a; match a with
  | ⟨0, _⟩ => exact Fin.ext h0
theorem idx2_ext {n0 n1 : Nat} {i j : (⟨2, ![n0, n1]⟩ : Shape).Idx} (h0 : (i 0).val = (j 0).val)
    (h1 : (i 1).val = (j 1).val) : i = j := by
  funext a; match a with
  | ⟨0, _⟩ => exact Fin.ext h0
  | ⟨1, _⟩ => exact Fin.ext h1
theorem idx3_ext {n0 n1 n2 : Nat} {i j : (⟨3, ![n0, n1, n2]⟩ : Shape).Idx} (h0 : (i 0).val = (j 0).val)
    (h1 : (i 1).val = (j 1).val) (h2 : (i 2).val = (j 2).val) : i = j := by
  funext a; match a with
  | ⟨0, _⟩ => exact Fin.ext h0
  | ⟨1, _⟩ => exact Fin.ext h1
  | ⟨2, _⟩ => exact Fin.ext h2
theorem idx4_ext {n0 n1 n2 n3 : Nat} {i j : (⟨4, ![n0, n1, n2, n3]⟩ : Shape).Idx} (h0 : (i 0).val = (j 0).val)
    (h1 : (i 1).val = (j 1).val) (h2 : (i 2).val = (j 2).val) (h3 : (i 3).val = (j 3).val) : i = j := by
  funext a; match a with
  | ⟨0, _⟩ => exact Fin.ext h0
  | ⟨1, _⟩ => exact Fin.ext h1
  | ⟨2, _⟩ => exact Fin.ext h2
  | ⟨3, _⟩ => exact Fin.ext h3

/-! ## The label words, pixel by pixel -/

section Labels
variable (x1 : (⟨S8x512x512, .i32⟩ : BufTy).Contents (Elt Ideal)) (lab : Fin 8 → Fin 512 → Fin 512 → Fin 21)
  (hl : ∀ b h w, x1 (ix3 b h w) = BitVec.ofNat 32 (lab b h w).val)

/-- Pixel number (b·512 + h)·512 + w of the flattened labels is pixel (b, h, w). -/
theorem idx_v0_pix (b : Fin 8) (h w : Fin 512) : idx_main_v0 (ix1 (pix b h w)) = ix3 b h w := by
  have := b.isLt; have := h.isLt; have := w.isLt
  refine idx3_ext ?_ ?_ ?_
  · show ((b.val * 512 + h.val) * 512 + w.val) / 262144 = b.val; omega
  · show ((b.val * 512 + h.val) * 512 + w.val) / 512 % 512 = h.val; omega
  · show ((b.val * 512 + h.val) * 512 + w.val) % 512 = w.val; omega

include hl in
/-- The flattened labels at a pixel's number. -/
theorem v0_at (b : Fin 8) (h w : Fin 512) :
    val_main_v0 (F := Ideal) x1 (ix1 (pix b h w)) = BitVec.ofNat 32 (lab b h w).val := by
  rw [val_main_v0_apply, idx_v0_pix, hl]

include hl in
/-- The wrapped labels the scatter reads: the label's own word. -/
theorem v6_at (b : Fin 8) (h w : Fin 512) :
    val_main_v6 (F := Ideal) x1 (ix1 (pix b h w)) = BitVec.ofNat 32 (lab b h w).val := by
  rw [val_main_v6_apply, val_main_v3_apply, val_main_v5_apply, val_main_v2_apply, val_main_v4_apply, val_main_c_apply,
    val_main_c_0_apply, v0_at x1 lab hl]
  exact label_wrap _

include hl in
theorem v7_at (b : Fin 8) (h w : Fin 512) :
    val_main_v7 (F := Ideal) x1 (ix2 (pix b h w) (0 : Fin 1)) = BitVec.ofNat 32 (lab b h w).val := by
  have hi : idx_main_v7 (ix2 (pix b h w) (0 : Fin 1)) = ix1 (pix b h w) := idx1_ext rfl
  rw [val_main_v7_apply, hi, v6_at x1 lab hl]

include hl in
/-- The wrapped labels the margin gather reads: the label's own word. -/
theorem v26_at (b : Fin 8) (h w : Fin 512) :
    val_main_v26 (F := Ideal) x1 (ix1 (pix b h w)) = BitVec.ofNat 32 (lab b h w).val := by
  rw [val_main_v26_apply, val_main_v23_apply, val_main_v25_apply, val_main_v22_apply, val_main_v24_apply,
    val_main_c_6_apply, val_main_c_7_apply, v0_at x1 lab hl]
  exact label_wrap _

include hl in
theorem v27_at (b : Fin 8) (h w : Fin 512) :
    val_main_v27 (F := Ideal) x1 (ix2 (pix b h w) (0 : Fin 1)) = BitVec.ofNat 32 (lab b h w).val := by
  have hi : idx_main_v27 (ix2 (pix b h w) (0 : Fin 1)) = ix1 (pix b h w) := idx1_ext rfl
  rw [val_main_v27_apply, hi, v26_at x1 lab hl]

/-- The label of a pixel number. -/
def labF (e : Fin 2097152) : Fin 21 := lab (pixEquiv.symm e).1 (pixEquiv.symm e).2.1 (pixEquiv.symm e).2.2

theorem labF_pix (b : Fin 8) (h w : Fin 512) : labF lab (pix b h w) = lab b h w := by
  show lab (pixEquiv.symm (pixEquiv (b, h, w))).1 (pixEquiv.symm (pixEquiv (b, h, w))).2.1
    (pixEquiv.symm (pixEquiv (b, h, w))).2.2 = lab b h w
  rw [Equiv.symm_apply_apply]

/-! ## The counts -/

/-- The scatter's operand is the zero vector. -/
theorem v1_zero (i : S21.Idx) : val_main_v1 (F := Ideal) i = 0 := by
  rw [val_main_v1_apply, val_main_cst_apply]; exact Cert.Ldam.fofBits_zero

/-- The scatter's updates are ones. -/
theorem v8_one (i : S2097152.Idx) : val_main_v8 (F := Ideal) i = 1 := by
  rw [val_main_v8_apply, val_main_cst_1_apply]; exact Cert.Ldam.fofBits_one

include hl in
/-- The scatter's index word of pixel number e is the word of that pixel's label. -/
theorem v7_labF (e : Fin 2097152) :
    val_main_v7 (F := Ideal) x1 (ix2 e (0 : Fin 1)) = BitVec.ofNat 32 (labF lab e).val := by
  obtain ⟨⟨b, h, w⟩, rfl⟩ := pixEquiv.surjective e
  have e1 : pixEquiv (b, h, w) = pix b h w := rfl
  rw [e1, labF_pix, v7_at x1 lab hl]

/-- The number of pixel numbers labelled c is the number of pixels labelled c. -/
theorem sum_labF (c : Fin 21) : (∑ e : Fin 2097152, if labF lab e = c then (1 : ℝ) else 0) = cnt lab c := by
  rw [sum_pix]
  unfold cnt
  simp only [labF_pix]

/-- The counts are the ideal scatter-add over the named dimension numbers. -/
theorem v9_scatter : val_main_v9 (F := Ideal) x1
    = Ideal.hostScatterAdd (⟨[], [0], [0], 1, scatter_S21_S2097152x1_S2097152_n_0_0_1_wf⟩ :
        ScatterDims (⟨1, ![21]⟩ : Shape) (⟨2, ![2097152, 1]⟩ : Shape) (⟨1, ![2097152]⟩ : Shape))
      (val_main_v1 (F := Ideal)) (val_main_v7 (F := Ideal) x1) (val_main_v8 (F := Ideal)) := by
  unfold val_main_v9
  simp only [Host.scatterAdd, Ideal.hostScatterAdd_def]
  rfl

include hl in
/-- The scatter-add of ones at the labels counts each class's pixels. -/
theorem counts_eq (c : Fin 21) : val_main_v9 (F := Ideal) x1 (ix1 c) = ((cnt lab c : ℝ) : EReal) := by
  rw [v9_scatter, ← sum_labF lab c]
  exact scatter_count scatter_S21_S2097152x1_S2097152_n_0_0_1_wf (val_main_v1 (F := Ideal)) (val_main_v7 (F := Ideal) x1)
    (val_main_v8 (F := Ideal)) (labF lab) v1_zero v8_one (v7_labF x1 lab hl) c

end Labels

/-! ## The margins -/

/-- The margins are the chain of host operations applied to the counts, at every float instance. -/
theorem margins_eq_any {F : FTy → Type} [FloatOps F] (x1 : (⟨S8x512x512, .i32⟩ : BufTy).Contents (Elt F)) :
    val_main_v19 (F := F) x1 = mChain (F := F) bcast_S_S21 reducesTo_S21_S_d0 h_S_ (val_main_v9 (F := F) x1) := rfl

/-- The margins are the chain of host operations applied to the counts. -/
theorem margins_eq (x1 : (⟨S8x512x512, .i32⟩ : BufTy).Contents (Elt Ideal)) :
    val_main_v19 (F := Ideal) x1 = mChain (F := Ideal) bcast_S_S21 reducesTo_S21_S_d0 h_S_ (val_main_v9 (F := Ideal) x1) :=
  margins_eq_any x1

end Cert.ReferenceIdeal.RefValue

end
-- ==== Proof.RefValue2.lean ====
/-
  One pixel of the reference's loss, over extended reals. With real logits, a real margin and the label's one-hot
  row, every intermediate of the margined, scaled, max-shifted log-softmax is a real number: the margined scaled
  logit of class c is 30·(x c − m·[c = l]); the exponentials of the shifted logits are positive reals, so their sum
  is a positive real and its logarithm is the real logarithm; and the negated log-softmax at the label is the
  specification's pixel loss.
-/
import Mathlib.Data.EReal.Operations
import Idealize.ShloMosaic.PureOps.Ideal
import proofs.«419586_j34471407518059_3_alg».proof.Proof.Spec
import proofs.«419586_j34471407518059_3_alg».proof.Proof.RefValue1

noncomputable section

open Idealize.ShloMosaic Cert.Ldam
open scoped BigOperators

namespace Cert.ReferenceIdeal.RefValue

/-- A true-or-false bit converted to a float is 1 or 0. -/
theorem uitofp_bit (p : Prop) [Decidable p] :
    FloatOps.uitofp (F := Ideal) .f32 (if p then 1#1 else 0#1) = (((if p then 1 else 0 : ℝ)) : EReal) := by
  by_cases hp : p
  · rw [if_pos hp, if_pos hp]; show (((1#1 : BitVec 1).toNat : ℝ) : EReal) = _; norm_num
  · rw [if_neg hp, if_neg hp]; show (((0#1 : BitVec 1).toNat : ℝ) : EReal) = _; norm_num

/-- Class c's margined logit, scaled: 30 times (the logit less the margin times the one-hot entry). -/
theorem margined_coe (x : Fin 21 → ℝ) (l : Fin 21) (m : ℝ) (c : Fin 21) :
    ((30 : ℝ) : EReal) * (((x c : ℝ) : EReal) - ((m : ℝ) : EReal) * (((if l = c then 1 else 0 : ℝ)) : EReal))
      = ((margR x l m c : ℝ) : EReal) := by
  rw [← EReal.coe_mul, ← EReal.coe_sub, ← EReal.coe_mul]
  unfold margR
  by_cases h : l = c
  · rw [if_pos h, if_pos h.symm]
  · rw [if_neg h, if_neg (fun hh => h hh.symm)]

/-- The sum of the exponentials of the shifted margined logits is a positive real. -/
theorem sumexp_pos (v : Fin 21 → ℝ) (s : ℝ) : 0 < ∑ c, Real.exp (v c - s) :=
  Finset.sum_pos (fun c _ => Real.exp_pos _) Finset.univ_nonempty

/-- From zero, the sum of the exponentials of the shifted logits, each an extended real, is the real sum. -/
theorem sumexp_coe (v : Fin 21 → ℝ) (s : ℝ) :
    (0 : EReal) + ∑ c : Fin 21, Ideal.exp (((v c - s : ℝ)) : EReal) = ((∑ c, Real.exp (v c - s) : ℝ) : EReal) := by
  rw [zero_add, coe_sum]
  rfl

/-- Its logarithm is the real logarithm. -/
theorem logsumexp_coe (v : Fin 21 → ℝ) (s : ℝ) :
    Ideal.log (((∑ c, Real.exp (v c - s) : ℝ)) : EReal) = ((Real.log (∑ c, Real.exp (v c - s)) : ℝ) : EReal) := by
  rw [Ideal.log_coe, if_neg (not_le.2 (sumexp_pos v s))]

/-- The negated log-softmax at the label is the pixel's loss. -/
theorem nll_coe (x : Fin 21 → ℝ) (l : Fin 21) (m : ℝ) :
    -((((margR x l m l - maxR x l m : ℝ)) : EReal)
        - ((Real.log (∑ c, Real.exp (margR x l m c - maxR x l m)) : ℝ) : EReal))
      = ((nllR x l m : ℝ) : EReal) := by
  rw [← EReal.coe_sub, ← EReal.coe_neg]
  rfl

end Cert.ReferenceIdeal.RefValue

end
-- ==== Proof.RefValue4.lean ====
/-
  The reference's loss at one pixel.

  At pixel (b, h, w), numbered n = (b·512 + h)·512 + w, with real logits x, label l in range and real margins mr: the
  gathered margin is mr l (the label's word is in [0, 20], so the clamp leaves it); the one-hot row is [l = c]; the
  margined scaled logit of class c is 30·(x c − mr l·[l = c]); the row's maximum from −∞ is the largest of the 21; the
  shifted exponentials sum to a positive real whose logarithm is real; the read along the class axis at the label is
  in range, so the select takes the gathered log-softmax and not the fill; its negation is the pixel's loss.
-/
import proofs.«419586_j34471407518059_3_alg».proof.Proof.RefRead
import proofs.«419586_j34471407518059_3_alg».proof.Proof.Consts
import proofs.«419586_j34471407518059_3_alg».proof.Proof.RefValue1
import proofs.«419586_j34471407518059_3_alg».proof.Proof.RefValue2
import proofs.«419586_j34471407518059_3_alg».proof.Proof.RefValue3

noncomputable section

open Cert.ReferenceIdeal Cert.ReferenceIdeal.Gen Cert.ReferenceIdeal.ReadP Idealize.ShloMosaic Idealize.ShloMosaic.ValueIdx
open Cert.Ldam (margR maxR nllR)
open scoped BigOperators

namespace Cert.ReferenceIdeal.RefValue

section Pixel
variable (x0 : (⟨S8x21x512x512, .f32⟩ : BufTy).Contents (Elt Ideal)) (x1 : (⟨S8x512x512, .i32⟩ : BufTy).Contents (Elt Ideal))
  (xr : Fin 8 → Fin 21 → Fin 512 → Fin 512 → ℝ) (lab : Fin 8 → Fin 512 → Fin 512 → Fin 21) (mr : Fin 21 → ℝ)
  (hx : ∀ b c h w, x0 (ix4 b c h w) = ((xr b c h w : ℝ) : EReal))
  (hl : ∀ b h w, x1 (ix3 b h w) = BitVec.ofNat 32 (lab b h w).val)
  (hm : ∀ c : Fin 21, val_main_v19 (F := Ideal) x1 (ix1 c) = ((mr c : ℝ) : EReal))

include hl hm in
/-- The gathered margin of a pixel is its label's margin. -/
theorem v28_at (b : Fin 8) (h w : Fin 512) :
    val_main_v28 (F := Ideal) x1 (ix1 (pix b h w)) = ((mr (lab b h w) : ℝ) : EReal) := by
  unfold val_main_v28
  refine (gather_vec_apply (by decide : 0 < 21) gather_S21_S2097152x1_S2097152_n_0_n_n_0_1_1_wf
    (val_main_v19 (F := Ideal) x1) (val_main_v27 (F := Ideal) x1) (pix b h w)).trans ?_
  refine (congrArg (val_main_v19 (F := Ideal) x1) (idx1_ext ?_)).trans (hm (lab b h w))
  show min (val_main_v27 (F := Ideal) x1 (ix2 (pix b h w) (0 : Fin 1))).toInt.toNat (21 - 1) = (lab b h w).val
  rw [v27_at x1 lab hl]
  exact label_clamp _

include hl in
/-- The one-hot row of a pixel: 1 at its label, 0 elsewhere. -/
theorem v29_at (b : Fin 8) (h w : Fin 512) (c : Fin 21) :
    val_main_v29 (F := Ideal) x1 (ix2 (pix b h w) c) = (((if lab b h w = c then 1 else 0 : ℝ)) : EReal) := by
  have h2 : idx_main_call0_v0 (idx_main_call0_v2 (ix2 (pix b h w) c)) = ix1 (pix b h w) := idx1_ext rfl
  rw [val_main_v29_apply, val_main_call0_v4_apply, val_main_call0_v2_apply, val_main_call0_v0_apply, h2,
    v0_at x1 lab hl, val_main_call0_v3_apply, val_main_call0_v1_apply]
  show FloatOps.uitofp .f32 (IntOp.cmpi .eq (BitVec.ofNat 32 (lab b h w).val) (BitVec.ofNat 32 c.val)) = _
  rw [label_eq]
  exact uitofp_bit _

include hx hl hm in
/-- The margined, scaled logit of class c at a pixel. -/
theorem v35_at (b : Fin 8) (h w : Fin 512) (c : Fin 21) :
    val_main_v35 (F := Ideal) x0 x1 (ix2 (pix b h w) c)
      = ((margR (fun c => xr b c h w) (lab b h w) (mr (lab b h w)) c : ℝ) : EReal) := by
  have h21 : idx_main_v20 (idx_main_v21 (ix2 (pix b h w) c)) = ix4 b c h w := by
    have := b.isLt; have := h.isLt; have := w.isLt; have := c.isLt
    refine idx4_ext ?_ ?_ ?_ ?_
    · show (((b.val * 512 + h.val) * 512 + w.val) * 21 + c.val) / 5505024 = b.val; omega
    · show (((b.val * 512 + h.val) * 512 + w.val) * 21 + c.val) % 21 = c.val; omega
    · show (((b.val * 512 + h.val) * 512 + w.val) * 21 + c.val) / 10752 % 512 = h.val; omega
    · show (((b.val * 512 + h.val) * 512 + w.val) * 21 + c.val) / 21 % 512 = w.val; omega
  have h30 : idx_main_v30 (idx_main_v31 (ix2 (pix b h w) c)) = ix1 (pix b h w) := idx1_ext rfl
  rw [val_main_v35_apply, val_main_v34_apply, val_main_cst_8_apply, val_main_v33_apply, val_main_v21_apply,
    val_main_v20_apply, h21, hx, val_main_v32_apply, val_main_v31_apply, val_main_v30_apply, h30,
    v28_at x1 lab mr hl hm, v29_at x1 lab hl, Cert.Ldam.fofBits_30]
  exact margined_coe (fun c => xr b c h w) (lab b h w) (mr (lab b h w)) c

include hx hl hm in
/-- The largest margined logit of a pixel, from −∞. -/
theorem call1_v0_at (b : Fin 8) (h w : Fin 512) :
    val_main_call1_v0 (F := Ideal) x0 x1 (ix1 (pix b h w))
      = ((maxR (fun c => xr b c h w) (lab b h w) (mr (lab b h w)) : ℝ) : EReal) := by
  unfold val_main_call1_v0
  exact reduce_max_row (val_main_v35 (F := Ideal) x0 x1) (val_main_call1_cst (F := Ideal))
    reducesTo_S2097152x21_S2097152_d1 (by decide) h_S_
    (fun i => by rw [val_main_call1_cst_apply]; exact Cert.Ldam.fofBits_negInf) (pix b h w)
    (margR (fun c => xr b c h w) (lab b h w) (mr (lab b h w))) (fun c => v35_at x0 x1 xr lab mr hx hl hm b h w c)

include hx hl hm in
/-- Its maximum with −∞ is itself. -/
theorem call1_v2_at (b : Fin 8) (h w : Fin 512) :
    val_main_call1_v2 (F := Ideal) x0 x1 (ix1 (pix b h w))
      = ((maxR (fun c => xr b c h w) (lab b h w) (mr (lab b h w)) : ℝ) : EReal) := by
  rw [val_main_call1_v2_apply, val_main_call1_v1_apply, val_main_call1_cst_0_apply,
    call1_v0_at x0 x1 xr lab mr hx hl hm, Cert.Ldam.fofBits_negInf]
  exact max_eq_right bot_le

include hx hl hm in
/-- The shifted logit of class c. -/
theorem call1_v5_at (b : Fin 8) (h w : Fin 512) (c : Fin 21) :
    val_main_call1_v5 (F := Ideal) x0 x1 (ix2 (pix b h w) c)
      = (((margR (fun c => xr b c h w) (lab b h w) (mr (lab b h w)) c
          - maxR (fun c => xr b c h w) (lab b h w) (mr (lab b h w)) : ℝ)) : EReal) := by
  have h3 : idx_main_call1_v3 (idx_main_call1_v4 (ix2 (pix b h w) c)) = ix1 (pix b h w) := idx1_ext rfl
  rw [val_main_call1_v5_apply, v35_at x0 x1 xr lab mr hx hl hm, val_main_call1_v4_apply, val_main_call1_v3_apply, h3,
    call1_v2_at x0 x1 xr lab mr hx hl hm]
  exact (EReal.coe_sub _ _).symm

include hx hl hm in
/-- The sum of the shifted exponentials. -/
theorem call1_v7_at (b : Fin 8) (h w : Fin 512) :
    val_main_call1_v7 (F := Ideal) x0 x1 (ix1 (pix b h w))
      = ((∑ c, Real.exp (margR (fun c => xr b c h w) (lab b h w) (mr (lab b h w)) c
          - maxR (fun c => xr b c h w) (lab b h w) (mr (lab b h w))) : ℝ) : EReal) := by
  have hk : ∀ k : Fin 21, val_main_call1_v6 (F := Ideal) x0 x1 (idx_main_call1_v7 (ix1 (pix b h w)) k)
      = Ideal.exp (((margR (fun c => xr b c h w) (lab b h w) (mr (lab b h w)) k
          - maxR (fun c => xr b c h w) (lab b h w) (mr (lab b h w)) : ℝ)) : EReal) := fun k => by
    have hi : idx_main_call1_v7 (ix1 (pix b h w)) k = ix2 (pix b h w) k := idx2_ext rfl rfl
    rw [hi, val_main_call1_v6_apply, call1_v5_at x0 x1 xr lab mr hx hl hm]
    rfl
  rw [val_main_call1_v7_apply, val_main_call1_cst_1_apply, Cert.Ldam.fofBits_zero,
    Finset.sum_congr rfl (fun k _ => hk k)]
  exact sumexp_coe _ _

include hx hl hm in
/-- Its logarithm. -/
theorem call1_v9_at (b : Fin 8) (h w : Fin 512) :
    val_main_call1_v9 (F := Ideal) x0 x1 (ix2 (pix b h w) (0 : Fin 1))
      = ((Real.log (∑ c, Real.exp (margR (fun c => xr b c h w) (lab b h w) (mr (lab b h w)) c
          - maxR (fun c => xr b c h w) (lab b h w) (mr (lab b h w)))) : ℝ) : EReal) := by
  have hi : idx_main_call1_v8 (ix2 (pix b h w) (0 : Fin 1)) = ix1 (pix b h w) := idx1_ext rfl
  rw [val_main_call1_v9_apply, val_main_call1_v8_apply, hi, call1_v7_at x0 x1 xr lab mr hx hl hm]
  exact logsumexp_coe _ _

include hx hl hm in
/-- The log-softmax of class c. -/
theorem v36_at (b : Fin 8) (h w : Fin 512) (c : Fin 21) :
    val_main_v36 (F := Ideal) x0 x1 (ix2 (pix b h w) c)
      = (((margR (fun c => xr b c h w) (lab b h w) (mr (lab b h w)) c
          - maxR (fun c => xr b c h w) (lab b h w) (mr (lab b h w)) : ℝ)) : EReal)
        - ((Real.log (∑ c, Real.exp (margR (fun c => xr b c h w) (lab b h w) (mr (lab b h w)) c
          - maxR (fun c => xr b c h w) (lab b h w) (mr (lab b h w)))) : ℝ) : EReal) := by
  have hi : idx_main_call1_v10 (ix2 (pix b h w) c) = ix2 (pix b h w) (0 : Fin 1) := idx2_ext rfl rfl
  rw [val_main_v36_apply, call1_v5_at x0 x1 xr lab mr hx hl hm, val_main_call1_v10_apply, hi,
    call1_v9_at x0 x1 xr lab mr hx hl hm]
  rfl

include hl in
/-- The index word of the read along the class axis: the label's own word. -/
theorem call2_v5_at (b : Fin 8) (h w : Fin 512) :
    val_main_call2_v5 (F := Ideal) x1 (ix3 (pix b h w) (0 : Fin 1) (0 : Fin 1)) = BitVec.ofNat 32 (lab b h w).val := by
  have hi : idx_main_v37 (idx_main_call2_v5 (ix3 (pix b h w) (0 : Fin 1) (0 : Fin 1))) = ix1 (pix b h w) :=
    idx1_ext (by show (((pix b h w).val * 1 + 0) * 1 + 0) / 1 = (pix b h w).val; omega)
  rw [val_main_call2_v5_apply, val_main_call2_v4_apply, val_main_call2_v1_apply, val_main_call2_v3_apply,
    val_main_v37_apply, hi, v0_at x1 lab hl, val_main_call2_v0_apply, val_main_call2_c_apply, val_main_call2_v2_apply,
    val_main_call2_c_0_apply]
  exact label_wrap _

include hl in
/-- The read is in range. -/
theorem call2_v12_at (b : Fin 8) (h w : Fin 512) :
    val_main_call2_v12 (F := Ideal) x1 (ix2 (pix b h w) (0 : Fin 1)) = 1#1 := by
  unfold val_main_call2_v12
  refine reduce_and_unit (val_main_call2_v11 (F := Ideal) x1) (val_main_call2_c_3 (F := Ideal))
    reducesTo_S2097152x1x1_S2097152x1_d2 (by decide) h_S_ (fun i => val_main_call2_c_3_apply i) (pix b h w) ?_
  rw [val_main_call2_v11_apply, val_main_call2_v7_apply, val_main_call2_v10_apply, call2_v5_at x1 lab hl,
    val_main_call2_v6_apply, val_main_call2_c_2_apply, val_main_call2_v9_apply, val_main_call2_v8_apply,
    val_main_call2_c_1_apply]
  exact label_inRange _

include hl in
/-- The gathered element is the log-softmax at the label. -/
theorem call2_v13_at (b : Fin 8) (h w : Fin 512) :
    val_main_call2_v13 (F := Ideal) x0 x1 (ix2 (pix b h w) (0 : Fin 1))
      = val_main_v36 (F := Ideal) x0 x1 (ix2 (pix b h w) (lab b h w)) := by
  unfold val_main_call2_v13
  refine (gather_row_apply (by decide : 0 < 21) gather_S2097152x21_S2097152x1x1_S2097152x1_n_1_0_0_1_2_11_wf
    (val_main_v36 (F := Ideal) x0 x1) (val_main_call2_v5 (F := Ideal) x1) (pix b h w)).trans ?_
  refine congrArg (val_main_v36 (F := Ideal) x0 x1) (idx2_ext rfl ?_)
  show min (val_main_call2_v5 (F := Ideal) x1 (ix3 (pix b h w) (0 : Fin 1) (0 : Fin 1))).toInt.toNat (21 - 1)
    = (lab b h w).val
  rw [call2_v5_at x1 lab hl]
  exact label_clamp _

include hx hl hm in
/-- The negated log-softmax at the label: the pixel's loss. -/
theorem v40_at (b : Fin 8) (h w : Fin 512) :
    val_main_v40 (F := Ideal) x0 x1 (ix1 (pix b h w))
      = ((nllR (fun c => xr b c h w) (lab b h w) (mr (lab b h w)) : ℝ) : EReal) := by
  have hi : idx_main_v39 (ix1 (pix b h w)) = ix2 (pix b h w) (0 : Fin 1) :=
    idx2_ext (by show (pix b h w).val / 1 = (pix b h w).val; omega) rfl
  rw [val_main_v40_apply, val_main_v39_apply, hi, val_main_v38_apply, call2_v12_at x1 lab hl, select_one,
    call2_v13_at x0 x1 lab hl, v36_at x0 x1 xr lab mr hx hl hm]
  exact nll_coe (fun c => xr b c h w) (lab b h w) (mr (lab b h w))

end Pixel

end Cert.ReferenceIdeal.RefValue

end
-- ==== Proof.RefValue5.lean ====
/-
  The reference's value: the mean of the pixel losses.

  The float sum over the 2097152 pixel numbers, from zero, is the sum over every number of the pixel's loss; numbered
  row-major, that is the triple sum over (b, h, w), a real number, the specification's total. Divided by 2²¹ = 2097152
  it is the mean.
-/
import proofs.«419586_j34471407518059_3_alg».proof.Proof.RefRead
import proofs.«419586_j34471407518059_3_alg».proof.Proof.Consts
import proofs.«419586_j34471407518059_3_alg».proof.Proof.LibScatterSum
import proofs.«419586_j34471407518059_3_alg».proof.Proof.RefValue1
import proofs.«419586_j34471407518059_3_alg».proof.Proof.RefValue4

noncomputable section

open Cert.ReferenceIdeal Cert.ReferenceIdeal.Gen Cert.ReferenceIdeal.ReadP Idealize.ShloMosaic Idealize.ShloMosaic.ValueIdx
open Cert.Ldam (totalR nllR)
open scoped BigOperators

namespace Cert.ReferenceIdeal.RefValue

/-- The sum of the negated log-softmax reads over every pixel number is the specification's total. -/
theorem sum_v40 (x0 : (⟨S8x21x512x512, .f32⟩ : BufTy).Contents (Elt Ideal)) (x1 : (⟨S8x512x512, .i32⟩ : BufTy).Contents (Elt Ideal))
    (xr : Fin 8 → Fin 21 → Fin 512 → Fin 512 → ℝ) (lab : Fin 8 → Fin 512 → Fin 512 → Fin 21)
    (hx : ∀ b c h w, x0 (ix4 b c h w) = ((xr b c h w : ℝ) : EReal))
    (hl : ∀ b h w, x1 (ix3 b h w) = BitVec.ofNat 32 (lab b h w).val) (mr : Fin 21 → ℝ)
    (hm : ∀ c : Fin 21, val_main_v19 (F := Ideal) x1 (ix1 c) = ((mr c : ℝ) : EReal)) :
    (∑ j : S2097152.Idx, val_main_v40 (F := Ideal) x0 x1 j) = ((totalR xr lab mr : ℝ) : EReal) := by
  rw [Cert.LibScatterSum.sum_idx1, sum_pix]
  unfold Cert.Ldam.totalR
  rw [coe_sum]; refine Finset.sum_congr rfl fun b _ => ?_
  rw [coe_sum]; refine Finset.sum_congr rfl fun h _ => ?_
  rw [coe_sum]; refine Finset.sum_congr rfl fun w _ => ?_
  exact v40_at x0 x1 xr lab mr hx hl hm b h w

/-- The reference returns the mean pixel loss. -/
theorem ref_value (x0 : (⟨S8x21x512x512, .f32⟩ : BufTy).Contents (Elt Ideal)) (x1 : (⟨S8x512x512, .i32⟩ : BufTy).Contents (Elt Ideal))
    (xr : Fin 8 → Fin 21 → Fin 512 → Fin 512 → ℝ) (lab : Fin 8 → Fin 512 → Fin 512 → Fin 21)
    (hx : ∀ b c h w, x0 (ix4 b c h w) = ((xr b c h w : ℝ) : EReal))
    (hl : ∀ b h w, x1 (ix3 b h w) = BitVec.ofNat 32 (lab b h w).val) (mr : Fin 21 → ℝ)
    (hm : ∀ c : Fin 21, val_main_v19 (F := Ideal) x1 (ix1 c) = ((mr c : ℝ) : EReal)) :
    val_main_v42 (F := Ideal) x0 x1 = fun _ => (((totalR xr lab mr / 2097152 : ℝ)) : EReal) := by
  funext i
  rw [val_main_v42_apply, val_main_v41_apply, val_main_cst_9_apply, val_main_cst_10_apply, Cert.Ldam.fofBits_zero,
    Cert.Ldam.fofBits_2097152, zero_add, sum_v40 x0 x1 xr lab hx hl mr hm]
  show Ideal.div _ _ = _
  rw [Ideal.div_coe (by norm_num), ← EReal.coe_mul]
  refine congrArg (fun r : ℝ => (r : EReal)) ?_
  ring

end Cert.ReferenceIdeal.RefValue

end
-- ==== Proof.RefValue.lean ====
/-
  The reference's value, assembled: the per-class pixel counts, the margins as the host chain applied to them, and the
  returned scalar as the mean of the pixel losses (the statements are in the modules imported here).
-/
import proofs.«419586_j34471407518059_3_alg».proof.Proof.RefValue3
import proofs.«419586_j34471407518059_3_alg».proof.Proof.RefValue5
-- ==== Proof.PreDecode.lean ====
/-
  The precondition read back. The printed predicate says: every entry of the float input has absolute value below
  +∞, and every entry of the integer input is at least 0 and below 21, both compared signed. Each `all` is a
  reduction by `and` over every axis into a result of one index, so its being 1 gives the compared bit at every
  index. An extended real whose absolute value  max x (-x)  is below +∞ is neither infinity, so it is a real
  (`real_of_abs_lt_top`); a 32-bit word in [0, 21) signed is the word of a class index (`label_of_range`).
  `dom_of_pre` collects the two: the inputs are a real array and an array of class labels.
-/
import proofs.«419586_j34471407518059_3_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.Ldam

open Idealize.ShloMosaic

/-- The scalar shape has one index. -/
instance subsingleton_S_Idx : Subsingleton Cert.Pre_finite_inputs.S_.Idx :=
  ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value is below +∞ is a real. -/
theorem real_of_abs_lt_top (x : EReal)
    (h : Ideal.cmp .olt (max x (-x)) (Ideal.ofBits .f32 0x7F800000#32) = 1#1) : ∃ r : ℝ, x = (r : EReal) := by
  rw [ofBits_inf] at h
  unfold Ideal.cmp at h
  rw [StableHlo.Predicate.ofBool_eq_one_iff, decide_eq_true_eq] at h
  induction x using EReal.rec with
  | bot => exact absurd h (by simp)
  | coe r => exact ⟨r, rfl⟩
  | top => exact absurd h (by simp)

/-- A 32-bit word at least 0 and below 21, signed, is the word of a class index. -/
theorem label_of_range (w : BitVec 32) (h0 : IntOp.cmpi .sge w 0#32 = 1#1) (h1 : IntOp.cmpi .slt w 21#32 = 1#1) :
    ∃ l : Fin 21, w = BitVec.ofNat 32 l.val := by
  rw [IntOp.cmpi_sge] at h0
  rw [IntOp.cmpi_slt] at h1
  have e0 : (0#32 : BitVec 32).toInt = 0 := by decide
  have e21 : (21#32 : BitVec 32).toInt = 21 := by decide
  rw [e0] at h0
  rw [e21] at h1
  have hw := w.isLt
  have hc := BitVec.toInt_eq_toNat_cond w
  have hlt : w.toNat < 21 := by
    split at hc <;> omega
  refine ⟨⟨w.toNat, hlt⟩, ?_⟩
  apply BitVec.eq_of_toNat_eq
  show w.toNat = (BitVec.ofNat 32 w.toNat).toNat
  rw [BitVec.toNat_ofNat]
  omega

/-- THE PRECONDITION DECODED: the float input is an array of reals and the integer input an array of class labels. -/
theorem dom_of_pre [Cert.Pre_finite_inputs.Facts] (x0 : FVec Ideal Cert.Pre_finite_inputs.S8x21x512x512 .f32)
    (x1 : IVec Cert.Pre_finite_inputs.S8x512x512 32)
    (h : Cert.Pre_finite_inputs.fn (F := Ideal) x0 x1 = fun _ => 1#1) :
    ∃ (xr : Fin 8 → Fin 21 → Fin 512 → Fin 512 → ℝ) (lab : Fin 8 → Fin 512 → Fin 512 → Fin 21),
      (∀ b c h w, x0 (ValueIdx.ix4 b c h w) = ((xr b c h w : ℝ) : EReal))
        ∧ (∀ b h w, x1 (ValueIdx.ix3 b h w) = BitVec.ofNat 32 (lab b h w).val) := by
  have e := congrFun h ValueIdx.ix0
  dsimp only [Cert.Pre_finite_inputs.fn] at e
  obtain ⟨e1, e2⟩ := IntOp.andi_eq_one.1 e
  -- the float part: at every index the compared bit is 1
  have f1 : ∀ i : Cert.Pre_finite_inputs.S8x21x512x512.Idx, ∃ r : ℝ, x0 i = (r : EReal) := fun i =>
    real_of_abs_lt_top (x0 i) (Host.reduce_andi_all _ _ _ _ _ e1 i)
  -- the integer part: at every index both compared bits are 1
  have f2 : ∀ i : Cert.Pre_finite_inputs.S8x512x512.Idx, ∃ l : Fin 21, x1 i = BitVec.ofNat 32 l.val := fun i => by
    have e3 := Host.reduce_andi_all _ _ _ _ _ e2 i
    obtain ⟨a0, a1⟩ := IntOp.andi_eq_one.1 e3
    exact label_of_range (x1 i) a0 a1
  choose fr hfr using f1
  choose fl hfl using f2
  exact ⟨fun b c h w => fr (ValueIdx.ix4 b c h w), fun b h w => fl (ValueIdx.ix3 b h w),
    fun b c h w => hfr _, fun b h w => hfl _⟩

end Cert.Ldam

end
-- ==== Proof.PixelMath.lean ====
/-
  The two shifted forms of the pixel loss agree.

  Taking the margin off the label's logit before scaling by 30, or taking 30 times the margin off the scaled
  logit, gives the same margined logit (`margR_eq_marg`). For a finite nonempty family `v` and any real shift
  `s`,  s + log (∑ c, exp (v c - s)) = log (∑ c, exp (v c)),  since every term carries the common positive factor
  exp (-s) and the sum of exponentials is positive (`shift_log_sum_exp`). Hence either form of the pixel loss is
  log (∑ c, exp (v c)) - v l  for the margined logits `v`, whichever shift was used (`nllK_eq_nllR`), and the
  summed losses agree term by term (`totalK_eq_totalR`).
-/
import proofs.«419586_j34471407518059_3_alg».proof.Proof.Spec

noncomputable section

namespace Cert.Ldam

open Finset

/-- The margin taken off before scaling, or its 30-fold taken off after, is the same margined logit. -/
theorem margR_eq_marg (x : Fin 21 → ℝ) (l : Fin 21) (mt : ℝ) (c : Fin 21) :
    margR x l mt c = marg x l mt c := by
  unfold margR marg
  by_cases h : c = l
  · rw [if_pos h, if_pos h]; ring
  · rw [if_neg h, if_neg h]; ring

/-- The log-sum-exp of a family over the 21 classes does not depend on the shift. -/
theorem shift_log_sum_exp (v : Fin 21 → ℝ) (s : ℝ) :
    s + Real.log (∑ c, Real.exp (v c - s)) = Real.log (∑ c, Real.exp (v c)) := by
  have hpos : 0 < ∑ c, Real.exp (v c) :=
    Finset.sum_pos (fun c _ => Real.exp_pos _) Finset.univ_nonempty
  have h : ∀ c, Real.exp (v c - s) = Real.exp (v c) * Real.exp (-s) := fun c => by
    rw [← Real.exp_add, sub_eq_add_neg]
  simp only [h, ← Finset.sum_mul]
  rw [Real.log_mul hpos.ne' (Real.exp_pos _).ne', Real.log_exp]
  ring

/-- The margined logit at the label itself. -/
theorem marg_label (x : Fin 21 → ℝ) (l : Fin 21) (mt : ℝ) : marg x l mt l = 30 * x l - 30 * mt := by
  unfold marg
  rw [if_pos rfl]

/-- The loss shifted by the raw maximum is the loss shifted by the margined maximum. -/
theorem nllK_eq_nllR (x : Fin 21 → ℝ) (l : Fin 21) (mt : ℝ) : nllK x l mt = nllR x l mt := by
  have hm : margR x l mt = marg x l mt := funext (margR_eq_marg x l mt)
  have hK := shift_log_sum_exp (marg x l mt) (rawMax x)
  have hR := shift_log_sum_exp (marg x l mt) (maxR x l mt)
  unfold nllK nllR
  rw [hm, marg_label]
  linarith

/-- The summed losses agree, pixel by pixel. -/
theorem totalK_eq_totalR (x : Fin 8 → Fin 21 → Fin 512 → Fin 512 → ℝ)
    (lab : Fin 8 → Fin 512 → Fin 512 → Fin 21) (mr : Fin 21 → ℝ) :
    totalK x lab mr = totalR x lab mr := by
  unfold totalK totalR
  simp only [nllK_eq_nllR]

end Cert.Ldam

end
-- ==== Proof.Bridge.lean ====
/-
  The mean over all 2²¹ pixels, taken the two ways the programs take it: one multiplies the summed loss by 2⁻²¹, the
  other divides it by 2²¹. The per-pixel losses agree (shifting the exponentials by either maximum gives the same
  log-sum-exp), so the sums agree, and a product with 1 / 2²¹ is the quotient by 2²¹. Also: a count of pixels, a sum
  of zeros and ones, is not negative.
-/
import Mathlib.Data.EReal.Basic
import Mathlib.Algebra.Order.BigOperators.Group.Finset
import proofs.«419586_j34471407518059_3_alg».proof.Proof.Spec
import proofs.«419586_j34471407518059_3_alg».proof.Proof.PixelMath

noncomputable section

namespace Cert.Ldam

open Finset

/-- The summed raw-maximum-shifted loss times 2⁻²¹ is the summed margined-maximum-shifted loss divided by 2²¹. -/
theorem mean_eq (x : Fin 8 → Fin 21 → Fin 512 → Fin 512 → ℝ) (lab : Fin 8 → Fin 512 → Fin 512 → Fin 21) (mr : Fin 21 → ℝ) :
    ((((∑ b : Fin 8, ∑ h : Fin 512, ∑ w : Fin 512, nllK (fun k => x b k h w) (lab b h w) (mr (lab b h w))) * (1 / 2097152) : ℝ)) : EReal)
      = (((totalR x lab mr / 2097152 : ℝ)) : EReal) := by
  show (((totalK x lab mr * (1 / 2097152) : ℝ)) : EReal) = _
  rw [totalK_eq_totalR, mul_one_div]

/-- A class's pixel count is not negative. -/
theorem cnt_nonneg (lab : Fin 8 → Fin 512 → Fin 512 → Fin 21) (c : Fin 21) : 0 ≤ cnt lab c := by
  unfold cnt
  refine Finset.sum_nonneg fun b _ => Finset.sum_nonneg fun h _ => Finset.sum_nonneg fun w _ => ?_
  split
  · exact zero_le_one
  · exact le_refl 0

end Cert.Ldam

end
-- ==== Proof.Algebraic.lean ====
/-
  The two idealized programs compute one number. Under the precondition every logit is a real number and every
  label lies in [0, 21), so: both programs count the same pixels per class (one by comparing the labels against
  each class and summing, the other by scattering ones at the labels); they apply the same chain of operations to
  those counts, so their margin tables are one table of real numbers; per pixel the kernel's loss (exponentials
  shifted by the largest raw scaled logit) is the reference's negated log-softmax at the label (shifted by the
  largest margined one), the log-sum-exp not depending on the shift; and the kernel's sum over the batches, the two
  column tiles, the rows and the columns of a tile, times 2⁻²¹, is the reference's sum over all pixels divided by 2²¹.
-/
import proofs.«419586_j34471407518059_3_alg».proof.Defs
import proofs.«419586_j34471407518059_3_alg».proof.Proof.KI.Result
import proofs.«419586_j34471407518059_3_alg».proof.Proof.RefValue
import proofs.«419586_j34471407518059_3_alg».proof.Proof.PreDecode
import proofs.«419586_j34471407518059_3_alg».proof.Proof.MChain
import proofs.«419586_j34471407518059_3_alg».proof.Proof.Bridge
import proofs.«419586_j34471407518059_3_alg».proof.Proof.Gen.KernelIdeal
import proofs.«419586_j34471407518059_3_alg».proof.Proof.Gen.ReferenceIdeal
import proofs.«419586_j34471407518059_3_alg».proof.Proof.Gen.Pre_finite_inputs

set_option maxRecDepth 16384

noncomputable section

namespace Cert.Proof.Claims

open Idealize.ShloMosaic Idealize.ShloMosaic.TcCoe Idealize.SL.Sem
open Idealize.ShloMosaic.ValueIdx
open Cert.Ldam (cnt mChain totalR nllK)

open Cert.ReferenceIdeal.RefValue in
/-- `KernelIdeal` and `ReferenceIdeal`, from memories agreeing on the arguments, both run and end with equal results. -/
theorem algebraic : Cert.algebraic_KernelIdeal_ReferenceIdeal := by
  intro m ρ m' ρ' hpre hagree
  refine ⟨fun c => (Cert.KernelIdeal.Hand.W4 (Cert.KernelIdeal.Hand.D0 (F := Ideal)) Cert.KernelIdeal.Hand.D1 m c Cert.KernelIdeal.main_v23), ?_, ?_⟩
  · refine (θ_run (Cert.KernelIdeal.defs (F := Ideal)) _ _).mono (fun _ h c => ⟨?_, ?_, ?_⟩) (Cert.KernelIdeal.Hand.run_all (F := Ideal) m ρ)
    · exact h c _ (Cert.KernelIdeal.Hand.mem_uc Cert.KernelIdeal.main_v23 (by decide))
    · exact (h c _ (Cert.KernelIdeal.Hand.mem_uc Cert.KernelIdeal.main_arg0 (by decide))).trans (Cert.KernelIdeal.Hand.W4_main_arg0 _ _ m c)
    · exact (h c _ (Cert.KernelIdeal.Hand.mem_uc Cert.KernelIdeal.main_arg1 (by decide))).trans (Cert.KernelIdeal.Hand.W4_main_arg1 _ _ m c)
  · refine (θ_run (Cert.ReferenceIdeal.defs (F := Ideal)) _ _).mono (fun _ h c => ⟨(h c).1.trans ?_, (h c).2⟩)
      (Cert.ReferenceIdeal.ValueP.run (F := Ideal) m' ρ')
    rw [Cert.ReferenceIdeal.ReadP.val_main_v42_eq, (hagree c).1, (hagree c).2]
    obtain ⟨xr, lab, hx, hl⟩ := Cert.Ldam.dom_of_pre _ _ (hpre c)
    obtain ⟨hcnt, hres⟩ := Cert.KernelIdeal.Hand.kernel_result m c xr lab hx hl
    obtain ⟨mr, hmr⟩ := Cert.Ldam.mChain_real Cert.KernelIdeal.Gen.bcast_S_S21 Cert.KernelIdeal.Gen.reducesTo_S21_S_d0 Cert.KernelIdeal.Gen.h_S_
      (Cert.KernelIdeal.Hand.W2 (Cert.KernelIdeal.Hand.D0 (F := Ideal)) m c Cert.KernelIdeal.main_v2) (cnt lab) (Cert.Ldam.cnt_nonneg lab) hcnt
    have hcv : (Cert.KernelIdeal.Hand.W2 (Cert.KernelIdeal.Hand.D0 (F := Ideal)) m c Cert.KernelIdeal.main_v2 : FVec Ideal Cert.Ldam.S21 .f32)
        = Cert.ReferenceIdeal.ReadP.val_main_v9 (F := Ideal) (m ((c.tc : Thread Cert.KernelIdeal.nD Cert.KernelIdeal.τ).loc Cert.KernelIdeal.main_arg1)) := by
      refine funext fun (i : (⟨1, ![21]⟩ : Shape).Idx) => ?_
      obtain ⟨k, rfl⟩ : ∃ k : Fin 21, i = ix1 k := ⟨i 0, eq_ix1 i⟩
      exact (hcnt k).trans (counts_eq _ lab hl k).symm
    have hmr' : ∀ k : Fin 21, Cert.ReferenceIdeal.ReadP.val_main_v19 (F := Ideal) (m ((c.tc : Thread Cert.KernelIdeal.nD Cert.KernelIdeal.τ).loc Cert.KernelIdeal.main_arg1)) (ix1 k) = ((mr k : ℝ) : EReal) := fun k => by
      rw [margins_eq, ← hcv]; exact hmr k
    rw [ref_value _ _ xr lab hx hl mr hmr']
    refine Eq.trans ?_ (hres mr hmr).symm
    funext _
    exact (Cert.Ldam.mean_eq xr lab mr).symm

/-- The reference runs to the end and its argument arrays end unchanged: its run with the result dropped. -/
theorem frame_ri : Cert.frame_ReferenceIdeal := fun m ρ _ =>
  (θ_run (Cert.ReferenceIdeal.defs (F := Ideal)) _ _).mono (fun _ h c => (h c).2) (Cert.ReferenceIdeal.ValueP.run (F := Ideal) m ρ)

end Cert.Proof.Claims

end
-- ==== Proof.lean ====
/-
  The certificate's claims assembled: the word-level kernel and its idealization run to the end with their
  argument arrays unchanged (the run of the two kernel regions and the two host stretches, Proof/K/Frame.lean and
  Proof/KI/Frame.lean: the same argument at the two float instances); the reference likewise (its run); the
  idealization rewrote nothing, so it is the program's own text read over the extended reals; and the idealized
  kernel and the idealized reference end with one result (Proof/Algebraic.lean).
-/
import proofs.«419586_j34471407518059_3_alg».proof.Defs
import proofs.«419586_j34471407518059_3_alg».proof.Proof.Gen.Kernel
import proofs.«419586_j34471407518059_3_alg».proof.Proof.Gen.KernelIdeal
import proofs.«419586_j34471407518059_3_alg».proof.Proof.Gen.ReferenceIdeal
import proofs.«419586_j34471407518059_3_alg».proof.Proof.Gen.Pre_finite_inputs
import proofs.«419586_j34471407518059_3_alg».proof.Proof.K.Frame
import proofs.«419586_j34471407518059_3_alg».proof.Proof.KI.Frame
import proofs.«419586_j34471407518059_3_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.Proof.Claims.frame_ri,
    trivial,
    Cert.Proof.Claims.algebraic⟩

end Cert.Proof

end
